-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S1700000x128 : Shape := ⟨2, ![1700000, 128]⟩
abbrev S2x512x128 : Shape := ⟨3, ![2, 512, 128]⟩
abbrev S2000x1 : Shape := ⟨2, ![2000, 1]⟩
abbrev S2000x128 : Shape := ⟨2, ![2000, 128]⟩
abbrev S1x512x128 : Shape := ⟨3, ![1, 512, 128]⟩
abbrev S512x128 : Shape := ⟨2, ![512, 128]⟩
abbrev S2000x512 : Shape := ⟨2, ![2000, 512]⟩
abbrev S512x64 : Shape := ⟨2, ![512, 64]⟩
abbrev S1x64 : Shape := ⟨2, ![1, 64]⟩

abbrev nBuf : Space → Nat
  | .hbm => 75
  | .vmem => 25
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S1x128, .f32⟩
  | .hbm, ⟨35, _⟩ => ⟨S1x128, .f32⟩
  | .hbm, ⟨36, _⟩ => ⟨S100000x1, .i32⟩
  | .hbm, ⟨37, _⟩ => ⟨S100000x128, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000x128, .f32⟩
  | .hbm, ⟨47, _⟩ => ⟨S_, .f32⟩
  | .hbm, ⟨48, _⟩ => ⟨S100000x128, .f32⟩
  | .hbm, ⟨49, _⟩ => ⟨S1700000x1, .i32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S2x512x128, .f32⟩
  | .hbm, ⟨66, _⟩ => ⟨S1x512x128, .f32⟩
  | .hbm, ⟨67, _⟩ => ⟨S512x128, .f32⟩
  | .hbm, ⟨68, _⟩ => ⟨S1x512x128, .f32⟩
  | .hbm, ⟨69, _⟩ => ⟨S512x128, .f32⟩
  | .hbm, ⟨70, _⟩ => ⟨S512x128, .f32⟩
  | .hbm, ⟨71, _⟩ => ⟨S512x64, .f32⟩
  | .hbm, ⟨72, _⟩ => ⟨S1x64, .f32⟩
  | .hbm, ⟨73, _⟩ => ⟨S512x64, .f32⟩
  | .hbm, ⟨74, _⟩ => ⟨S512x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S2000x1, .i32⟩
  | .local _ .vmem, ⟨16, _⟩ => ⟨S2000x1, .i32⟩
  | .local _ .vmem, ⟨17, _⟩ => ⟨S2000x128, .f32⟩
  | .local _ .vmem, ⟨18, _⟩ => ⟨S2000x128, .f32⟩
  | .local _ .vmem, ⟨19, _⟩ => ⟨S2000x1, .f32⟩
  | .local _ .vmem, ⟨20, _⟩ => ⟨S2000x1, .f32⟩
  | .local _ .vmem, ⟨21, _⟩ => ⟨S1x128, .f32⟩
  | .local _ .vmem, ⟨22, _⟩ => ⟨S1x512x128, .f32⟩
  | .local _ .vmem, ⟨23, _⟩ => ⟨S1x512x128, .f32⟩
  | .local _ .vmem, ⟨24, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 25], ![false, false]⟩

def k2_cond2 (i : grid2.Coords) : BitVec 1 :=
  let arg1 : BitVec 32 := BitVec.ofNat 32 (i 1).val
  let c24_i32 : BitVec 32 := 24#32
  let v31 : BitVec 1 := Scalar.cmpi .eq arg1 c24_i32
  let v32 : BitVec 32 := Scalar.extui v31
  let c0_i32_13 : BitVec 32 := 0#32
  let v33 : BitVec 1 := Scalar.cmpi .ne v32 c0_i32_13
  v33

def cc2_transform_0 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2000x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x512x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  broadcasts_S1x128_S2000x128 : S1x128.Broadcasts S2000x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  slices_S2x512x128_S1x512x128_0_0_0 : S2x512x128.Slices ![0, 0, 0] S1x512x128
  slices_S2x512x128_S1x512x128_1_0_0 : S2x512x128.Slices ![1, 0, 0] S1x512x128
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x512_S2000x128_S512x128_0_0_1_1_n_n_wf : DotDims.WF S2000x512 S2000x128 S512x128 [0] [0] [1] [1] [] []
  dot_S512x128_S128x64_S512x64_1_0_0_1_n_n_wf : DotDims.WF S512x128 S128x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x1.size a ≤ S100000x1.size a
  hwx2_0 : ∀ i : grid2.Coords, EltTy.bits .i32 = 32 ∨ (Rect.block (s := S100000x1) S2000x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512x128.size a ≤ S2x512x128.size a
  hwx2_4 : ∀ i : grid2.Coords, EltTy.bits .f32 = 32 ∨ (Rect.block (s := S2x512x128) S1x512x128.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v20) S2000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x512x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512x64 : Shape := ⟨2, ![512, 64]⟩
abbrev S1x64 : Shape := ⟨2, ![1, 64]⟩

abbrev nBuf : Space → Nat
  | .hbm => 142
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S100000x128, .f32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S_, .f32⟩
  | 86 => ⟨S100000, .f32⟩
  | 87 => ⟨S100000, .f32⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x128, .f32⟩
  | 121 => ⟨S1700000x1, .f32⟩
  | 122 => ⟨S1700000x128, .f32⟩
  | 123 => ⟨S1700000x128, .f32⟩
  | 124 => ⟨S_, .f32⟩
  | 125 => ⟨S100000x128, .f32⟩
  | 126 => ⟨S1700000x1, .i32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S_, .f32⟩
  | 7 => ⟨S512x128, .f32⟩
  | 8 => ⟨S100000x1, .i32⟩
  | 9 => ⟨S512x128, .f32⟩
  | 10 => ⟨S512x64, .f32⟩
  | 11 => ⟨S1x64, .f32⟩
  | 12 => ⟨S512x64, .f32⟩
  | 13 => ⟨S512x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_cst_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_14 : Ref sig .tc := ⟨.hbm, 89, rfl⟩
abbrev main_call2_v0 : Ref sig .tc := ⟨.hbm, 90, rfl⟩
abbrev main_call2_v1 : Ref sig .tc := ⟨.hbm, 91, rfl⟩
abbrev main_v60 : Ref sig .tc := ⟨.hbm, 92, rfl⟩
abbrev main_c_15 : Ref sig .tc := ⟨.hbm, 93, rfl⟩
abbrev main_v61 : Ref sig .tc := ⟨.hbm, 94, rfl⟩
abbrev main_v62 : Ref sig .tc := ⟨.hbm, 95, rfl⟩
abbrev main_c_16 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_17 : Ref sig .tc := ⟨.hbm, 102, rfl⟩
abbrev main_v68 : Ref sig .tc := ⟨.hbm, 103, rfl⟩
abbrev main_v69 : Ref sig .tc := ⟨.hbm, 104, rfl⟩
abbrev main_c_18 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c_19 : Ref sig .tc := ⟨.hbm, 112, rfl⟩
abbrev main_v76 : Ref sig .tc := ⟨.hbm, 113, rfl⟩
abbrev main_v77 : Ref sig .tc := ⟨.hbm, 114, rfl⟩
abbrev main_c_20 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_21 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_call3_cst : Ref sig .tc := ⟨.hbm, 131, rfl⟩
abbrev main_call3_v0 : Ref sig .tc := ⟨.hbm, 132, rfl⟩
abbrev main_v92 : Ref sig .tc := ⟨.hbm, 133, rfl⟩
abbrev main_cst_22 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  dot_S512x128_S128x64_S512x64_1_0_0_1_n_n_wf : DotDims.WF S512x128 S128x64 S512x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

class Facts : Prop extends Facts₀ where

variable [Facts]
-- ==== Proof.K.Reg0.lean ====
/-
  THE FIRST PALLAS CALL, ONE GRID POINT AT A TIME. Its grid has 20 points; at point t the body is handed rows
  5000 t … 5000 t + 4999 of the node features, the whole first weight matrix, and the same rows of the column of
  factors D^(-1/2); it stores into the output block the rows' product with the matrix, each row scaled by its factor.
  Stated at any contents `V` of the buffers when the call is entered: what each window's block is (`iblk0`), what the
  body leaves in the output block as a function of the three input blocks (`out0_3`), the body's triple, the
  pipeline's proof data (`dat0`) and the body obligation at every point.
-/
import proofs.«420629_j61529701482954_2_alg».proof.Proof.Gen.Kernel.Launch
import proofs.«420629_j61529701482954_2_alg».proof.Proof.Gen.Kernel.Skeleton
import proofs.«420629_j61529701482954_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each memref whole. -/
abbrev r0_a : Rect S5000x128 := Rect.unit (s := S5000x128) ![0, 0] S5000x128.size inb_S5000x128_S5000x128_0_0
abbrev r0_w : Rect S128x128 := Rect.unit (s := S128x128) ![0, 0] S128x128.size inb_S128x128_S128x128_0_0
abbrev r0_d : Rect S5000x1 := Rect.unit (s := S5000x1) ![0, 0] S5000x1.size inb_S5000x1_S5000x1_0_0

/-- The output block after the body, from the three input blocks: its one store. -/
def out0_3 (x0 : Vec F S5000x128 .f32) (x1 : Vec F S128x128 .f32) (x2 : Vec F S5000x1 .f32) : Vec F S5000x128 .f32 :=
  View.canon [⟨r0_a, k0_pay1 (View.ld x0 r0_a) (View.ld x1 r0_w) (View.ld x2 r0_d)⟩]

/-- The one store covers the block. -/
theorem cover0_3 (p0 : Vec F S5000x128 .f32) (y : S5000x128.Idx) :
    ∃ pc ∈ ([⟨r0_a, p0⟩] : List (View.Piece (Elt F) S5000x128 .f32)), y ∈ pc.1.set :=
  View.cover_of_tiled [⟨r0_a, p0⟩] S5000x128.size (by rfl) y

set_option maxHeartbeats 1000000 in
/-- The body on whole staging memrefs, the inputs' at contents `x0 x1 x2` and the output's at anything, runs to the
    continuation holding the inputs' as they were and the output's at `out0_3` of them. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__affine_scale_kernel i arg1 harg1 arg2 harg2 arg3 harg3 arg4 harg4) K := by
  simp only [cc0__affine_scale_kernel_eq_skeleton]; unfold cc0__affine_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the call on core `c`: the arrays as the call finds them; after the body at point `t` each
    input's buffer at its block and the output's at `out0_3` of the input blocks; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  THE SECOND PALLAS CALL, ONE GRID POINT AT A TIME. Its grid has 20 points; at point t the body is handed rows
  5000 t … 5000 t + 4999 of the first round's sums and of the column of factors D^(-1/2), the first bias as a row, and
  the whole second weight matrix; it scales each row by its factor, adds the bias, rectifies, multiplies by the matrix
  and scales each row by its factor again. Stated at any contents `V` of the buffers when the call is entered: each
  window's block (`iblk1`), what the body leaves in the output block as a function of the four input blocks
  (`out1_4`), the body's triple, the pipeline's proof data (`dat1`) and the body obligation at every point.
-/
import proofs.«420629_j61529701482954_2_alg».proof.Proof.Gen.Kernel.Launch
import proofs.«420629_j61529701482954_2_alg».proof.Proof.Gen.Kernel.Skeleton
import proofs.«420629_j61529701482954_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each memref whole. -/
abbrev r1_a : Rect S5000x128 := Rect.unit (s := S5000x128) ![0, 0] S5000x128.size inb_S5000x128_S5000x128_0_0
abbrev r1_d : Rect S5000x1 := Rect.unit (s := S5000x1) ![0, 0] S5000x1.size inb_S5000x1_S5000x1_0_0
abbrev r1_bias : Rect S1x128 := Rect.unit (s := S1x128) ![0, 0] S1x128.size inb_S1x128_S1x128_0_0
abbrev r1_w : Rect S128x128 := Rect.unit (s := S128x128) ![0, 0] S128x128.size inb_S128x128_S128x128_0_0

/-- The output block after the body, from the four input blocks: its one store. -/
def out1_4 (x0 : Vec F S5000x128 .f32) (x1 : Vec F S5000x1 .f32) (x2 : Vec F S1x128 .f32) (x3 : Vec F S128x128 .f32) : Vec F S5000x128 .f32 :=
  View.canon [⟨r1_a, k1_pay1 (View.ld x0 r1_a) (View.ld x1 r1_d) (View.ld x2 r1_bias) (View.ld x3 r1_w)⟩]

/-- The one store covers the block. -/
theorem cover1_4 (p0 : Vec F S5000x128 .f32) (y : S5000x128.Idx) :
    ∃ pc ∈ ([⟨r1_a, p0⟩] : List (View.Piece (Elt F) S5000x128 .f32)), y ∈ pc.1.set :=
  View.cover_of_tiled [⟨r1_a, p0⟩] S5000x128.size (by rfl) y

set_option maxHeartbeats 1000000 in
/-- The body on whole staging memrefs, the inputs' at contents `x0 … x3` and the output's at anything, runs to the
    continuation holding the inputs' as they were and the output's at `out1_4` of them. -/
theorem sound_kernel1 (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S5000x128 .f32) (harg5 : arg5.IsWhole)
    (x0 : Vec F S5000x128 .f32) (x1 : Vec F S5000x1 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__gcn_mid_kernel i arg1 harg1 arg2 harg2 arg3 harg3 arg4 harg4 arg5 harg5) K := by
  simp only [cc1__gcn_mid_kernel_eq_skeleton]; unfold cc1__gcn_mid_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of the call on core `c`: the arrays as the call finds them; after the body at point `t` each
    input's buffer at its block and the output's at `out1_4` of the input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  THE THIRD PALLAS CALL, ONE GRID POINT AT A TIME. Its grid is 2 × 25: point t = 25 cc + i handles tile i of half cc,
  rows 2000 t … 2000 t + 1999 of the nodes. The body clears a 512 × 128 accumulator when i = 0, adds to it the product of
  the tile's 0/1 matrix (node's graph number against 0 … 511) with the tile's rectified rows, and when i = 24 copies the
  accumulator into half cc of the output. The accumulator is carried from point to point: `acc2` is what it holds after
  each point. Stated at any contents `V` of the buffers when the call is entered.
-/
import proofs.«420629_j61529701482954_2_alg».proof.Proof.Gen.Kernel.Launch
import proofs.«420629_j61529701482954_2_alg».proof.Proof.Gen.Kernel.Skeleton
import proofs.«420629_j61529701482954_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each memref whole. -/
abbrev r2_b : Rect S2000x1 := Rect.unit (s := S2000x1) ![0, 0] S2000x1.size inb_S2000x1_S2000x1_0_0
abbrev r2_a : Rect S2000x128 := Rect.unit (s := S2000x128) ![0, 0] S2000x128.size inb_S2000x128_S2000x128_0_0
abbrev r2_bias : Rect S1x128 := Rect.unit (s := S1x128) ![0, 0] S1x128.size inb_S1x128_S1x128_0_0
abbrev r2_s : Rect S512x128 := Rect.unit (s := S512x128) ![0, 0] S512x128.size inb_S512x128_S512x128_0_0
abbrev r2_o : Rect S1x512x128 := Rect.unit (s := S1x512x128) ![0, 0, 0] S1x512x128.size inb_S1x512x128_S1x512x128_0_0_0

/-- The accumulator, a whole scratch buffer. -/
abbrev scM2 : Memref sig .tc .vmem S512x128 .f32 := Memref.whole cc2_scratch0

/-- THE ACCUMULATION. What the accumulator holds after the body at position `n`: the point's tile product added to
    the cleared accumulator at the first tile of a half, to what the point before left otherwise. -/
def acc2 (c : Dev nD) : (n : ℕ) → n < cfg2.N → Vec F S512x128 .f32
  | 0, hn => k2_pay2 (iblk2 V c 0 ⟨0, hn⟩) (iblk2 V c 1 ⟨0, hn⟩) (iblk2 V c 2 ⟨0, hn⟩) (iblk2 V c 3 ⟨0, hn⟩) (k2_pay1 (F := F))
  | n + 1, hn => k2_pay2 (iblk2 V c 0 ⟨n + 1, hn⟩) (iblk2 V c 1 ⟨n + 1, hn⟩) (iblk2 V c 2 ⟨n + 1, hn⟩) (iblk2 V c 3 ⟨n + 1, hn⟩)
      (if (n + 1) % 25 = 0 then k2_pay1 (F := F) else acc2 c n (Nat.lt_of_succ_lt hn))

/-- The accumulation, one equation for every point. -/
theorem acc2_eq (c : Dev nD) (t : Fin cfg2.N) :
    acc2 V c t.val t.isLt = k2_pay2 (iblk2 V c 0 t) (iblk2 V c 1 t) (iblk2 V c 2 t) (iblk2 V c 3 t)
      (if t.val % 25 = 0 then k2_pay1 (F := F) else acc2 V c (t.val - 1) (Nat.lt_of_le_of_lt (Nat.sub_le _ _) t.isLt)) := by
  obtain ⟨n, hn⟩ := t
  cases n with
  | zero => rfl
  | succ n => rfl

/-- The zero offsets of a whole-block access, however spelt. -/
theorem r2_hz2 : (![0, 0] : Fin 2 → Nat) = fun _ => 0 := by funext a; fin_cases a <;> rfl
theorem r2_hz3 : (![0, 0, 0] : Fin 3 → Nat) = fun _ => 0 := by funext a; fin_cases a <;> rfl

/-- A store of a whole block, last, leaves its payload whatever was stored before it. -/
theorem r2_read_writes_cons_unit_zero {sg : RefSig} {κ : Kind} {sp : Space} {S : Shape} {e : EltTy} {Val : EltTy → Type}
    {off : Fin S.rank → Nat} (h : off = fun _ => 0) (inb : ∀ a, off a + S.size a ≤ S.size a)
    (v : View sg κ sp S e) (f : v.ty.Contents Val) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-! ## The two conditions of the body, in closed form over the grid -/

/-- The first condition: the tile is the first of its half. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 25 = 0 :=
  (by decide +kernel : ∀ t : Fin grid2.N, cond2_0 (grid2.coords t) ↔ t.val % 25 = 0)
/-- The second condition: the tile is the last of its half. -/
abbrev cond2_1 (i : grid2.Coords) : Prop := k2_cond2 i = 1#1
theorem hcond2_1 : ∀ t : Fin cfg2.N, cond2_1 (grid2.coords t) ↔ t.val % 25 = 24 :=
  (by decide +kernel : ∀ t : Fin grid2.N, cond2_1 (grid2.coords t) ↔ t.val % 25 = 24)

/-- The inputs are never idle; the output is idle exactly off the last tile of a half, where it is not written back. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem idleAt2_4 : ∀ t : Fin cfg2.N, ¬cond2_1 (grid2.coords t) → cfg2.idle 4 (grid2.coords t) = true :=
  (by decide +kernel : ∀ t : Fin grid2.N, ¬cond2_1 (grid2.coords t) → idle2 4 (grid2.coords t) = true)
theorem liveAt2_4 : ∀ t : Fin cfg2.N, cond2_1 (grid2.coords t) → cfg2.idle 4 (grid2.coords t) = false :=
  (by decide +kernel : ∀ t : Fin grid2.N, cond2_1 (grid2.coords t) → idle2 4 (grid2.coords t) = false)
theorem noFlush2_4 (t : Fin cfg2.N) (h : ¬t.val % 25 = 24) : (cfg2.win 4).flush t = false := by
  cases hf : (cfg2.win 4).flush t
  · rfl
  · exact absurd ((flush2_4 t).mp hf) h

/-! ## The body on whole memrefs, case by case -/

set_option maxHeartbeats 1000000 in
/-- First tile of a half: the accumulator, at anything, is cleared, read back and stored with the tile's product added; the output block is left as it was. -/
theorem sound_kernel2_A (c : Dev nD) (E : Set ℕ) (i : grid2.Coords) (hc0 : cond2_0 i) (hc1 : ¬cond2_1 i)
    (arg2 : Memref sig .tc .vmem S2000x1 .i32) (harg2 : arg2.IsWhole) (arg3 : Memref sig .tc .vmem S2000x128 .f32) (harg3 : arg3.IsWhole)
    (arg4 : Memref sig .tc .vmem S2000x1 .f32) (harg4 : arg4.IsWhole) (arg5 : Memref sig .tc .vmem S1x128 .f32) (harg5 : arg5.IsWhole)
    (arg6 : Memref sig .tc .vmem S1x512x128 .f32) (harg6 : arg6.IsWhole) (arg7 : Memref sig .tc .vmem S512x128 .f32) (harg7 : arg7.IsWhole)
    (x0 : Vec F S2000x1 .i32) (x1 : Vec F S2000x128 .f32) (x2 : Vec F S2000x1 .f32) (x3 : Vec F S1x128 .f32)
    (xo : Vec F S1x512x128 .f32) (xs : Vec F S512x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (xo)
            ∗ owns (c : Thread nD τ) arg7 fullShare (k2_pay2 x0 x1 x2 x3 (k2_pay1 (F := F)))) -∗ K ⟨⟩))
      ⊢ wp frame (wpE (defs₀ (F := F)) Variants.none c none) E (cc2__pool_kernel i arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_words
  rw [r2_read_writes_cons_unit_zero (S := S512x128) r2_hz2, View.readCov_unit_zero (S := S512x128) _ r2_hz2]
  simp only [View.readAt_eq_ld, View.ld_unit_zero (S := S2000x1) r2_hz2, View.ld_unit_zero (S := S2000x128) r2_hz2,
    View.ld_unit_zero (S := S1x128) r2_hz2, View.ld_unit_zero (S := S512x128) r2_hz2]

set_option maxHeartbeats 1000000 in
/-- A middle tile: the accumulator is read and stored with the tile's product added; the output block is left as it was. -/
theorem sound_kernel2_B (c : Dev nD) (E : Set ℕ) (i : grid2.Coords) (hc0 : ¬cond2_0 i) (hc1 : ¬cond2_1 i)
    (arg2 : Memref sig .tc .vmem S2000x1 .i32) (harg2 : arg2.IsWhole) (arg3 : Memref sig .tc .vmem S2000x128 .f32) (harg3 : arg3.IsWhole)
    (arg4 : Memref sig .tc .vmem S2000x1 .f32) (harg4 : arg4.IsWhole) (arg5 : Memref sig .tc .vmem S1x128 .f32) (harg5 : arg5.IsWhole)
    (arg6 : Memref sig .tc .vmem S1x512x128 .f32) (harg6 : arg6.IsWhole) (arg7 : Memref sig .tc .vmem S512x128 .f32) (harg7 : arg7.IsWhole)
    (x0 : Vec F S2000x1 .i32) (x1 : Vec F S2000x128 .f32) (x2 : Vec F S2000x1 .f32) (x3 : Vec F S1x128 .f32)
    (xo : Vec F S1x512x128 .f32) (xs : Vec F S512x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (xo)
            ∗ owns (c : Thread nD τ) arg7 fullShare (k2_pay2 x0 x1 x2 x3 xs)) -∗ K ⟨⟩))
      ⊢ wp frame (wpE (defs₀ (F := F)) Variants.none c none) E (cc2__pool_kernel i arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_words
  rw [r2_read_writes_cons_unit_zero (S := S512x128) r2_hz2]
  simp only [View.readAt_eq_ld, View.ld_unit_zero (S := S2000x1) r2_hz2, View.ld_unit_zero (S := S2000x128) r2_hz2,
    View.ld_unit_zero (S := S1x128) r2_hz2, View.ld_unit_zero (S := S512x128) r2_hz2]

set_option maxHeartbeats 1000000 in
/-- Last tile of a half: as a middle tile, then the accumulator is read back and stored whole as the output block. -/
theorem sound_kernel2_C (c : Dev nD) (E : Set ℕ) (i : grid2.Coords) (hc0 : ¬cond2_0 i) (hc1 : cond2_1 i)
    (arg2 : Memref sig .tc .vmem S2000x1 .i32) (harg2 : arg2.IsWhole) (arg3 : Memref sig .tc .vmem S2000x128 .f32) (harg3 : arg3.IsWhole)
    (arg4 : Memref sig .tc .vmem S2000x1 .f32) (harg4 : arg4.IsWhole) (arg5 : Memref sig .tc .vmem S1x128 .f32) (harg5 : arg5.IsWhole)
    (arg6 : Memref sig .tc .vmem S1x512x128 .f32) (harg6 : arg6.IsWhole) (arg7 : Memref sig .tc .vmem S512x128 .f32) (harg7 : arg7.IsWhole)
    (x0 : Vec F S2000x1 .i32) (x1 : Vec F S2000x128 .f32) (x2 : Vec F S2000x1 .f32) (x3 : Vec F S1x128 .f32)
    (xo : Vec F S1x512x128 .f32) (xs : Vec F S512x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay3 (k2_pay2 x0 x1 x2 x3 xs))
            ∗ owns (c : Thread nD τ) arg7 fullShare (k2_pay2 x0 x1 x2 x3 xs)) -∗ K ⟨⟩))
      ⊢ wp frame (wpE (defs₀ (F := F)) Variants.none c none) E (cc2__pool_kernel i arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [r2_read_writes_cons_unit_zero (S := S1x512x128) r2_hz3, View.readCov_unit_zero (S := S512x128) _ r2_hz2]
    simp only [View.readAt_eq_ld, View.ld_unit_zero (S := S2000x1) r2_hz2, View.ld_unit_zero (S := S2000x128) r2_hz2,
    View.ld_unit_zero (S := S1x128) r2_hz2, View.ld_unit_zero (S := S512x128) r2_hz2]
  iexists _; isplitr
  swap; · iexact H5
  ipureintro
  sl_unfold_words
  rw [r2_read_writes_cons_unit_zero (S := S512x128) r2_hz2]
  simp only [View.readAt_eq_ld, View.ld_unit_zero (S := S2000x1) r2_hz2, View.ld_unit_zero (S := S2000x128) r2_hz2,
    View.ld_unit_zero (S := S1x128) r2_hz2, View.ld_unit_zero (S := S512x128) r2_hz2]

/-! ## The invariant -/

/-- The core's other scoped buffers, each at some contents: what the body neither reads nor writes. -/
def rest2_15 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f))

/-- The class invariant with the accumulator named: the accumulator at some contents, the other scoped buffers, the generator register. -/
theorem PhiA2_eq (c : Dev nD) :
    (Pipeline.ΦA spec2 c : sProp 𝕄)
      = iprop((iprop(∃ d, owns (c : Thread nD τ) scM2 fullShare d) ∗ rest2_15 (F := F) c) ∗ (∃ r, prngReg c r)) := by
  unfold Pipeline.ΦA; rw [scopedRest2_eq]; simp only [scM2, owns_whole]
  refine congrArg (fun X : sProp 𝕄 => iprop(X ∗ (∃ r, prngReg c r))) ?_
  unfold rest2_15
  refine BI.equiv_iff.mp ⟨(?_ : (_ : sProp 𝕄) ⊢ (_ : sProp 𝕄)), (?_ : (_ : sProp 𝕄) ⊢ (_ : sProp 𝕄))⟩
  · iintro ⟨R1, R2, R3, R4, R5, R6, R7, R8, R9, R10, R11, R12, R13, R14, R15, HS⟩
    isplitl [HS]; · iexact HS
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  · iintro ⟨HS, R1, R2, R3, R4, R5, R6, R7, R8, R9, R10, R11, R12, R13, R14, R15⟩
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    iexact HS
/-- The region invariant before position `n`: before the first point the class's (every scratch at anything);
    afterwards the accumulator at what the point before left, the other scoped buffers at anything, the generator
    register at some state. -/
def PhiS2 (c : Dev nD) : (n : ℕ) → n ≤ cfg2.N → sProp 𝕄
  | 0, _ => Pipeline.ΦA spec2 c
  | n + 1, hn => iprop((owns (c : Thread nD τ) scM2 fullShare (acc2 V c n hn) ∗ rest2_15 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((owns (c : Thread nD τ) scM2 fullShare (acc2 V c n hn) ∗ rest2_15 (F := F) c) ∗ (∃ r, prngReg c r)) := rfl

theorem PhiS2_pos (c : Dev nD) (n : ℕ) (h : n ≤ cfg2.N) (hz : n ≠ 0) :
    PhiS2 V c n h = iprop((owns (c : Thread nD τ) scM2 fullShare (acc2 V c (n - 1) (by omega)) ∗ rest2_15 (F := F) c) ∗ (∃ r, prngReg c r)) := by
  cases n with
  | zero => exact absurd rfl hz
  | succ n => rfl

/-- Before any point the invariant hands over the accumulator at some contents. -/
theorem PhiS2_any (c : Dev nD) (n : ℕ) (h : n ≤ cfg2.N) :
    PhiS2 V c n h ⊢ iprop((iprop(∃ d, owns (c : Thread nD τ) scM2 fullShare d) ∗ rest2_15 (F := F) c) ∗ (∃ r, prngReg c r)) := by
  cases n with
  | zero => rw [PhiS2_zero V c 0 h rfl, PhiA2_eq]
  | succ n =>
    rw [PhiS2_succ]
    iintro ⟨⟨HS, HR⟩, Hg⟩
    isplitr [Hg]
    · isplitl [HS]; · iexists _; iexact HS
      iexact HR
    iexact Hg

/-- The proof data of the call on core `c`: the arrays as the call finds them; after the body at point `t` each input's
    buffer at its block and the output's at the accumulator's contents (consulted only where the block is written
    back: the last tile of a half); the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay3 (acc2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = k2_pay3 (acc2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- The invariant at a point's start, restated at its position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4000000 in
/-- The body at any point: by the position of the tile in its half. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
      unfold Dat.leavesExact; rw [liveAt2_0 t], after2_0]
  rw [show (dat2 V c).leavesExact 1 t = owns (c : Thread nD τ) (st2_1 t) fullShare ((dat2 V c).after 1 t) from by
      unfold Dat.leavesExact; rw [liveAt2_1 t], after2_1]
  rw [show (dat2 V c).leavesExact 2 t = owns (c : Thread nD τ) (st2_2 t) fullShare ((dat2 V c).after 2 t) from by
      unfold Dat.leavesExact; rw [liveAt2_2 t], after2_2]
  rw [show (dat2 V c).leavesExact 3 t = owns (c : Thread nD τ) (st2_3 t) fullShare ((dat2 V c).after 3 t) from by
      unfold Dat.leavesExact; rw [liveAt2_3 t], after2_3]
  have hN : t.val < 50 := lt_of_lt_of_eq t.isLt (show cfg2.N = 50 from N_2)
  rw [acc2_eq V c t, PhiS2_castSucc V c t]
  by_cases h0 : t.val % 25 = 0
  · have h1 : ¬t.val % 25 = 24 := by omega
    rw [if_pos h0, Dat.leavesExact_idle (dat2 V c) 4 t (idleAt2_4 t (fun h => h1 ((hcond2_1 t).mp h))) (noFlush2_4 t h1)]
    refine BIBase.Entails.trans (Laws.sep_mono_left (PhiS2_any V c _ _)) ?_
    iintro ⟨⟨⟨HS, HR⟩, Hg⟩, Ho, ⟨%d0, H0⟩, ⟨%d1, H1⟩, ⟨%d2, H2⟩, ⟨%d3, H3⟩, ⟨%d4, H4⟩⟩
    iapply (sound_kernel2_A c Set.univ (grid2.coords t) ((hcond2_0 t).mpr h0) (fun h => h1 ((hcond2_1 t).mp h)) _ _ _ _ _ _ _ _ _ _ _ _
      (iblk2 V c 0 t) (iblk2 V c 1 t) (iblk2 V c 2 t) (iblk2 V c 3 t) _ (k2_pay1 (F := F)) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [if_neg h0, PhiS2_pos V c _ _ hz]
    by_cases h1 : t.val % 25 = 24
    · rw [show (dat2 V c).leavesExact 4 t = owns (c : Thread nD τ) (st2_4 t) fullShare ((dat2 V c).after 4 t) from by
        unfold Dat.leavesExact; rw [liveAt2_4 t ((hcond2_1 t).mpr h1)], after2_4, acc2_eq V c t, if_neg h0]
      iintro ⟨⟨⟨HS, HR⟩, Hg⟩, Ho, ⟨%d0, H0⟩, ⟨%d1, H1⟩, ⟨%d2, H2⟩, ⟨%d3, H3⟩, ⟨%d4, H4⟩⟩
      iapply (sound_kernel2_C c Set.univ (grid2.coords t) (fun h => h0 ((hcond2_0 t).mp h)) ((hcond2_1 t).mpr h1) _ _ _ _ _ _ _ _ _ _ _ _
        (iblk2 V c 0 t) (iblk2 V c 1 t) (iblk2 V c 2 t) (iblk2 V c 3 t) (k2_pay3 (k2_pay1 (F := F))) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat2 V c) 4 t (idleAt2_4 t (fun h => h1 ((hcond2_1 t).mp h))) (noFlush2_4 t h1)]
      iintro ⟨⟨⟨HS, HR⟩, Hg⟩, Ho, ⟨%d0, H0⟩, ⟨%d1, H1⟩, ⟨%d2, H2⟩, ⟨%d3, H3⟩, ⟨%d4, H4⟩⟩
      iapply (sound_kernel2_B c Set.univ (grid2.coords t) (fun h => h0 ((hcond2_0 t).mp h)) (fun h => h1 ((hcond2_1 t).mp h)) _ _ _ _ _ _ _ _ _ _ _ _
        (iblk2 V c 0 t) (iblk2 V c 1 t) (iblk2 V c 2 t) (iblk2 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Entails.refl _

/-- After the last point the invariant gives the class's back: the accumulator's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl, PhiA2_eq]
  exact PhiS2_any V c _ _

end Cert.Kernel.Hand

end
-- ==== Proof.K.Run.lean ====
/-
  THE WHOLE PROGRAM'S RUN. @main is nine items: host stretches and the three pallas calls. Between two items every
  unscoped buffer is held at a known contents: the launch memory, then each host stretch applied, then, after a call,
  the call's output array at what its pipeline leaves (`Dat.arrAt … N`: the write-backs of its proof data folded).
  Each call is a region record over those states; the launch theorem for a list of such items gives: every weakly fair
  execution terminates, faults nowhere, ends with the arguments as launched and the result buffer at the last
  valuation's contents.
-/
import proofs.«420629_j61529701482954_2_alg».proof.Proof.K.Reg0
import proofs.«420629_j61529701482954_2_alg».proof.Proof.K.Reg1
import proofs.«420629_j61529701482954_2_alg».proof.Proof.K.Reg2
import proofs.«420629_j61529701482954_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents when each call is entered, read at the TensorCore's references. -/
abbrev E3 : (c : Dev nD) → (b : Ref sig .tc) → Buf (Elt F) ((c : Thread nD τ).loc b) := fun c b => V3 m c b
abbrev E5 (outs : Outs (F := F)) : (c : Dev nD) → (b : Ref sig .tc) → Buf (Elt F) ((c : Thread nD τ).loc b) := fun c b => V5 m outs c b
abbrev E7 (outs : Outs (F := F)) : (c : Dev nD) → (b : Ref sig .tc) → Buf (Elt F) ((c : Thread nD τ).loc b) := fun c b => V7 m outs c b

/-- The contents the calls leave in their output arrays are what their pipelines' proof data compute. -/
structure OutsOk (outs : Outs (F := F)) : Prop where
  h4 : ∀ c, outs 4 main_v21 c = (dat0 (E3 m) c).arrAt 3 cfg0.N
  h6 : ∀ c, outs 6 main_v32 c = (dat1 (E5 m outs) c).arrAt 4 cfg1.N
  h8 : ∀ c, outs 8 main_v43 c = (dat2 (E7 m outs) c).arrAt 4 cfg2.N

/-! ## The contents the calls leave, built one call at a time -/

/-- After the first call: its output array at what its pipeline computes from the launch memory's stretch; every
    other point at the launch memory. -/
def outsA : Outs (F := F) := fun _ r c =>
  if h : r = main_v21 then h ▸ (dat0 (E3 m) c).arrAt 3 cfg0.N else m ((c : Thread nD τ).loc r)
/-- After the second call: its output array at what its pipeline computes from the state the first call left. -/
def outsB : Outs (F := F) := fun j r c =>
  if h : r = main_v32 then h ▸ (dat1 (E5 m (outsA m)) c).arrAt 4 cfg1.N else outsA m j r c
/-- After the third call: its output array at what its pipeline computes from the state the second call left. -/
def outsC : Outs (F := F) := fun j r c =>
  if h : r = main_v43 then h ▸ (dat2 (E7 m (outsB m)) c).arrAt 4 cfg2.N else outsB m j r c

/-- The state the second call is entered from reads the unknown contents at the first call's output only. -/
theorem V5_congr {o1 o2 : Outs (F := F)} (h4 : ∀ c, o1 4 main_v21 c = o2 4 main_v21 c) (c : Dev nD) :
    V5 m o1 c = V5 m o2 c := by
  unfold V5 V4; rw [h4 c]
/-- The state the third call is entered from reads them at the first two calls' outputs only. -/
theorem V7_congr {o1 o2 : Outs (F := F)} (h4 : ∀ c, o1 4 main_v21 c = o2 4 main_v21 c)
    (h6 : ∀ c, o1 6 main_v32 c = o2 6 main_v32 c) (c : Dev nD) : V7 m o1 c = V7 m o2 c := by
  unfold V7 V6; rw [V5_congr m h4 c, h6 c]

theorem outsA_4 (c : Dev nD) : outsA m 4 main_v21 c = (dat0 (E3 m) c).arrAt 3 cfg0.N := by
  unfold outsA; rw [dif_pos rfl]
theorem outsB_4 (c : Dev nD) : outsB m 4 main_v21 c = outsA m 4 main_v21 c := by
  unfold outsB; rw [dif_neg (by decide)]
theorem outsB_6 (c : Dev nD) : outsB m 6 main_v32 c = (dat1 (E5 m (outsA m)) c).arrAt 4 cfg1.N := by
  unfold outsB; rw [dif_pos rfl]
theorem outsC_4 (c : Dev nD) : outsC m 4 main_v21 c = outsB m 4 main_v21 c := by
  unfold outsC; rw [dif_neg (by decide)]
theorem outsC_6 (c : Dev nD) : outsC m 6 main_v32 c = outsB m 6 main_v32 c := by
  unfold outsC; rw [dif_neg (by decide)]
theorem outsC_8 (c : Dev nD) : outsC m 8 main_v43 c = (dat2 (E7 m (outsB m)) c).arrAt 4 cfg2.N := by
  unfold outsC; rw [dif_pos rfl]

theorem E5_outsC : E5 m (outsC m) = E5 m (outsA m) :=
  funext fun c => funext fun b => congrFun (V5_congr m (fun c => (outsC_4 m c).trans (outsB_4 m c)) c) b
theorem E7_outsC : E7 m (outsC m) = E7 m (outsB m) :=
  funext fun c => funext fun b => congrFun (V7_congr m (outsC_4 m) (outsC_6 m) c) b

/-- Such contents exist: each call's output is determined by what was there when it was entered. -/
theorem exists_outs : ∃ outs : Outs (F := F), OutsOk m outs :=
  ⟨outsC m, {
    h4 := fun c => (outsC_4 m c).trans ((outsB_4 m c).trans (outsA_4 m c))
    h6 := fun c => by rw [E5_outsC]; exact (outsC_6 m c).trans (outsB_6 m c)
    h8 := fun c => by rw [E7_outsC]; exact outsC_8 m c }⟩

/-! ## The run, given the calls' records -/

set_option backward.isDefEq.respectTransparency.types false in
/-- THE RUN, CONDITIONALLY. For any rest states the launch makes on every core at once and that end owing nothing, any
    contents the calls leave and any proof data: given, per call, a region record entered from the buffers' contents
    before it and left at those after it, every weakly fair execution of the program from memory `m` with zero counters
    terminates, and every final memory holds the result buffer at the last valuation's contents and each argument as
    launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c)) :
    θ_run defs (onTc (τ := τ) (main (F := F))) ⟨m, fun _ => 0, ρ⟩ (fun r => ∀ c : Dev nD,
      r.2.mem ((c.tc : Thread nD τ).loc main_v52) = V9 m outs c main_v52
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, .rfl, .rfl, hpre0 c, hpost0 c, hpre1 c, hpost1 c, hpre2 c, hpost2 c, sep_mono .rfl (hE3 c)⟩)
    (hinit := ?_) (QY := fun c s => s.mem ((c.tc : Thread nD τ).loc main_v52) = V9 m outs c main_v52 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact ⟨h (Proc.devRef .tc main_v52) (Finset.mem_filter.mpr ⟨StableHlo.devRef_mem_tcRefs main_v52, by decide⟩),
        (h (Proc.devRef .tc main_arg0) (Finset.mem_filter.mpr ⟨StableHlo.devRef_mem_tcRefs main_arg0, by decide⟩)).trans (V9_main_arg0 m outs c),
        (h (Proc.devRef .tc main_arg1) (Finset.mem_filter.mpr ⟨StableHlo.devRef_mem_tcRefs main_arg1, by decide⟩)).trans (V9_main_arg1 m outs c),
        (h (Proc.devRef .tc main_arg2) (Finset.mem_filter.mpr ⟨StableHlo.devRef_mem_tcRefs main_arg2, by decide⟩)).trans (V9_main_arg2 m outs c),
        (h (Proc.devRef .tc main_arg3) (Finset.mem_filter.mpr ⟨StableHlo.devRef_mem_tcRefs main_arg3, by decide⟩)).trans (V9_main_arg3 m outs c),
        (h (Proc.devRef .tc main_arg4) (Finset.mem_filter.mpr ⟨StableHlo.devRef_mem_tcRefs main_arg4, by decide⟩)).trans (V9_main_arg4 m outs c),
        (h (Proc.devRef .tc main_arg5) (Finset.mem_filter.mpr ⟨StableHlo.devRef_mem_tcRefs main_arg5, by decide⟩)).trans (V9_main_arg5 m outs c),
        (h (Proc.devRef .tc main_arg6) (Finset.mem_filter.mpr ⟨StableHlo.devRef_mem_tcRefs main_arg6, by decide⟩)).trans (V9_main_arg6 m outs c),
        (h (Proc.devRef .tc main_arg7) (Finset.mem_filter.mpr ⟨StableHlo.devRef_mem_tcRefs main_arg7, by decide⟩)).trans (V9_main_arg7 m outs c),
        (h (Proc.devRef .tc main_arg8) (Finset.mem_filter.mpr ⟨StableHlo.devRef_mem_tcRefs main_arg8, by decide⟩)).trans (V9_main_arg8 m outs c)⟩
    · iexact HSI

/-! ## The proof data family and the thread state -/

/-- Every call's proof data, each at the contents its call is entered from. -/
def pdats (outs : Outs (F := F)) : (p : Fin 3) → (c : Dev nD) → Dat τ (Elt F) Unit ℕ (UR sig nD τ) ℕ (cfgs p) c
  | ⟨0, _⟩ => fun c => dat0 (E3 m) c
  | ⟨1, _⟩ => fun c => dat1 (E5 m outs) c
  | ⟨2, _⟩ => fun c => dat2 (E7 m outs) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-! ## The calls as region records -/

/-- After a call its output array holds the contents named for it. -/
theorem V4_out (outs : Outs (F := F)) (c : Dev nD) : V4 m outs c main_v21 = outs 4 main_v21 c := by
  unfold V4; exact Function.update_self _ _ _
theorem V6_out (outs : Outs (F := F)) (c : Dev nD) : V6 m outs c main_v32 = outs 6 main_v32 c := by
  unfold V6; exact Function.update_self _ _ _
theorem V8_out (outs : Outs (F := F)) (c : Dev nD) : V8 m outs c main_v43 = outs 8 main_v43 c := by
  unfold V8; exact Function.update_self _ _ _

/-- After the first call each of its arrays holds what the pipeline leaves: an input's as entered, the output's the
    contents named for it. -/
theorem hF0 (outs : Outs (F := F)) (h : OutsOk m outs) (c : Dev nD) :
    ∀ w : Fin cfg0.W, (dat0 (E3 m) c).arrAt w cfg0.N = V4 m outs c (Pipeline.arrRef spec0 w)
    | ⟨0, _⟩ => ((dat0 (E3 m) c).arrAt_in 0 rfl _).trans ((A_eq0 (E3 m) c 0).trans (V4_of m outs c (Pipeline.arrRef spec0 0) (by decide)).symm)
    | ⟨1, _⟩ => ((dat0 (E3 m) c).arrAt_in 1 rfl _).trans ((A_eq0 (E3 m) c 1).trans (V4_of m outs c (Pipeline.arrRef spec0 1) (by decide)).symm)
    | ⟨2, _⟩ => ((dat0 (E3 m) c).arrAt_in 2 rfl _).trans ((A_eq0 (E3 m) c 2).trans (V4_of m outs c (Pipeline.arrRef spec0 2) (by decide)).symm)
    | ⟨3, _⟩ => (h.h4 c).symm.trans (V4_out m outs c).symm
    | ⟨n + 4, hn⟩ => absurd hn (Nat.not_lt.2 (Nat.le_add_left 4 n))
/-- and every other buffer what it held when the call was entered. -/
theorem hrest0 (outs : Outs (F := F)) (c : Dev nD) :
    ∀ b, b ∉ Finset.univ.image (Pipeline.arrRef spec0) → V4 m outs c b = V3 m c b :=
  fun b hb => V4_of m outs c b fun hmem => hb (Finset.mem_image.mpr ⟨3, Finset.mem_univ _, (List.mem_singleton.mp hmem).symm⟩)

set_option backward.isDefEq.respectTransparency.types false in
/-- THE FIRST CALL over the thread state: entered from every unscoped buffer at the contents before it, left at the
    contents after it. Its arrays split out of the unscoped buffers and put back at the exit contents; the generator
    register into the class invariant and out; nothing owed; no semaphore of the kernel's own. -/
def reg0 (outs : Outs (F := F)) (h : OutsOk m outs) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (E3 m c) (fun b => V4 m outs c b) ((pdats m outs 0 c).arrAt · cfg0.N) (hF0 m outs h c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After the second call each of its arrays holds what the pipeline leaves: an input's as entered, the output's the
    contents named for it. -/
theorem hF1 (outs : Outs (F := F)) (h : OutsOk m outs) (c : Dev nD) :
    ∀ w : Fin cfg1.W, (dat1 (E5 m outs) c).arrAt w cfg1.N = V6 m outs c (Pipeline.arrRef spec1 w)
    | ⟨0, _⟩ => ((dat1 (E5 m outs) c).arrAt_in 0 rfl _).trans ((A_eq1 (E5 m outs) c 0).trans (V6_of m outs c (Pipeline.arrRef spec1 0) (by decide)).symm)
    | ⟨1, _⟩ => ((dat1 (E5 m outs) c).arrAt_in 1 rfl _).trans ((A_eq1 (E5 m outs) c 1).trans (V6_of m outs c (Pipeline.arrRef spec1 1) (by decide)).symm)
    | ⟨2, _⟩ => ((dat1 (E5 m outs) c).arrAt_in 2 rfl _).trans ((A_eq1 (E5 m outs) c 2).trans (V6_of m outs c (Pipeline.arrRef spec1 2) (by decide)).symm)
    | ⟨3, _⟩ => ((dat1 (E5 m outs) c).arrAt_in 3 rfl _).trans ((A_eq1 (E5 m outs) c 3).trans (V6_of m outs c (Pipeline.arrRef spec1 3) (by decide)).symm)
    | ⟨4, _⟩ => (h.h6 c).symm.trans (V6_out m outs c).symm
    | ⟨n + 5, hn⟩ => absurd hn (Nat.not_lt.2 (Nat.le_add_left 5 n))
/-- and every other buffer what it held when the call was entered. -/
theorem hrest1 (outs : Outs (F := F)) (c : Dev nD) :
    ∀ b, b ∉ Finset.univ.image (Pipeline.arrRef spec1) → V6 m outs c b = V5 m outs c b :=
  fun b hb => V6_of m outs c b fun hmem => hb (Finset.mem_image.mpr ⟨4, Finset.mem_univ _, (List.mem_singleton.mp hmem).symm⟩)

set_option backward.isDefEq.respectTransparency.types false in
/-- THE SECOND CALL over the thread state: entered from every unscoped buffer at the contents before it, left at the
    contents after it. Its arrays split out of the unscoped buffers and put back at the exit contents; the generator
    register into the class invariant and out; nothing owed; no semaphore of the kernel's own. -/
def reg1 (outs : Outs (F := F)) (h : OutsOk m outs) : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m outs) c).loose
  hwaits := Pipeline.hwaits_of_owed_zero _ _ _ _ L lv 1 fun _ _ => rfl
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec1 c (E5 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (E5 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (E5 m outs c) (fun b => V6 m outs c b) ((pdats m outs 1 c).arrAt · cfg1.N) (hF1 m outs h c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After the third call each of its arrays holds what the pipeline leaves: an input's as entered, the output's the
    contents named for it. -/
theorem hF2 (outs : Outs (F := F)) (h : OutsOk m outs) (c : Dev nD) :
    ∀ w : Fin cfg2.W, (dat2 (E7 m outs) c).arrAt w cfg2.N = V8 m outs c (Pipeline.arrRef spec2 w)
    | ⟨0, _⟩ => ((dat2 (E7 m outs) c).arrAt_in 0 rfl _).trans ((A_eq2 (E7 m outs) c 0).trans (V8_of m outs c (Pipeline.arrRef spec2 0) (by decide)).symm)
    | ⟨1, _⟩ => ((dat2 (E7 m outs) c).arrAt_in 1 rfl _).trans ((A_eq2 (E7 m outs) c 1).trans (V8_of m outs c (Pipeline.arrRef spec2 1) (by decide)).symm)
    | ⟨2, _⟩ => ((dat2 (E7 m outs) c).arrAt_in 2 rfl _).trans ((A_eq2 (E7 m outs) c 2).trans (V8_of m outs c (Pipeline.arrRef spec2 2) (by decide)).symm)
    | ⟨3, _⟩ => ((dat2 (E7 m outs) c).arrAt_in 3 rfl _).trans ((A_eq2 (E7 m outs) c 3).trans (V8_of m outs c (Pipeline.arrRef spec2 3) (by decide)).symm)
    | ⟨4, _⟩ => (h.h8 c).symm.trans (V8_out m outs c).symm
    | ⟨n + 5, hn⟩ => absurd hn (Nat.not_lt.2 (Nat.le_add_left 5 n))
/-- and every other buffer what it held when the call was entered. -/
theorem hrest2 (outs : Outs (F := F)) (c : Dev nD) :
    ∀ b, b ∉ Finset.univ.image (Pipeline.arrRef spec2) → V8 m outs c b = V7 m outs c b :=
  fun b hb => V8_of m outs c b fun hmem => hb (Finset.mem_image.mpr ⟨4, Finset.mem_univ _, (List.mem_singleton.mp hmem).symm⟩)

set_option backward.isDefEq.respectTransparency.types false in
/-- THE THIRD CALL over the thread state: entered from every unscoped buffer at the contents before it, left at the
    contents after it. Its arrays split out of the unscoped buffers and put back at the exit contents; the generator
    register into the class invariant and out; nothing owed; no semaphore of the kernel's own. -/
def reg2 (outs : Outs (F := F)) (h : OutsOk m outs) : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E7 m outs) c).loose
  hwaits := Pipeline.hwaits_of_owed_zero _ _ _ _ L lv 2 fun _ _ => rfl
  pre c := iprop(StableHlo.held (c : Thread nD τ) (Pipeline.ucRefs τ sig) (V7 m outs c) ∗ R c)
  post c := iprop(StableHlo.held (c : Thread nD τ) (Pipeline.ucRefs τ sig) (V8 m outs c) ∗ R c)
  X c := iprop(∃ r, prngReg c r)
  Y c := iprop(∃ r, prngReg c r)
  Z c := Pipeline.unscopedRest (Ix := Unit) (Name := ℕ) (U := UR sig nD τ) (Lvl := ℕ) spec2 c (E7 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (E7 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E7 m outs) c)
    unfold Pipeline.ΦA
    iintro ⟨Hp, -, Hr⟩
    isplitl [Hr]; · iexact Hr
    iexact Hp
  hout c := by
    rw [Pipeline.ownSems0_none]
    refine BIBase.Entails.trans (hout2 (E7 m outs) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (E7 m outs c) (fun b => V8 m outs c b) ((pdats m outs 2 c).arrAt · cfg2.N) (hF2 m outs h c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- THE RUN, with the result named. -/
theorem run_main (outs : Outs (F := F)) (h : OutsOk m outs) :
    θ_run defs (onTc (τ := τ) (main (F := F))) ⟨m, fun _ => 0, ρ⟩ (fun r => ∀ c : Dev nD,
      r.2.mem ((c.tc : Thread nD τ).loc main_v52) = V9 m outs c main_v52
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_cond m emb₁ () 𝒱₀ L lv (fun _ _ => rfl) ρ outs (pdats m outs) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (reg0 m outs h) (fun _ => .rfl) (fun _ => .rfl)
    (reg1 m outs h) (fun _ => .rfl) (fun _ => .rfl)
    (reg2 m outs h) (fun _ => .rfl) (fun _ => .rfl)

/-- THE FRAME: the program runs to the end, faults nowhere, and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  obtain ⟨outs, h⟩ := exists_outs m
  exact (θ_run defs _ _).mono (fun _ hr c => (hr c).2) (run_main m ρ outs h)

end Cert.Kernel.Hand

end
-- ==== Proof.KI.Reg0.lean ====
/-
  THE FIRST PALLAS CALL, ONE GRID POINT AT A TIME. Its grid has 20 points; at point t the body is handed rows
  5000 t … 5000 t + 4999 of the node features, the whole first weight matrix, and the same rows of the column of
  factors D^(-1/2); it stores into the output block the rows' product with the matrix, each row scaled by its factor.
  Stated at any contents `V` of the buffers when the call is entered: what each window's block is (`iblk0`), what the
  body leaves in the output block as a function of the three input blocks (`out0_3`), the body's triple, the
  pipeline's proof data (`dat0`) and the body obligation at every point.
-/
import proofs.«420629_j61529701482954_2_alg».proof.Proof.Gen.KernelIdeal.Launch
import proofs.«420629_j61529701482954_2_alg».proof.Proof.Gen.KernelIdeal.Skeleton
import proofs.«420629_j61529701482954_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each memref whole. -/
abbrev r0_a : Rect S5000x128 := Rect.unit (s := S5000x128) ![0, 0] S5000x128.size inb_S5000x128_S5000x128_0_0
abbrev r0_w : Rect S128x128 := Rect.unit (s := S128x128) ![0, 0] S128x128.size inb_S128x128_S128x128_0_0
abbrev r0_d : Rect S5000x1 := Rect.unit (s := S5000x1) ![0, 0] S5000x1.size inb_S5000x1_S5000x1_0_0

/-- The output block after the body, from the three input blocks: its one store. -/
def out0_3 (x0 : Vec F S5000x128 .f32) (x1 : Vec F S128x128 .f32) (x2 : Vec F S5000x1 .f32) : Vec F S5000x128 .f32 :=
  View.canon [⟨r0_a, k0_pay1 (View.ld x0 r0_a) (View.ld x1 r0_w) (View.ld x2 r0_d)⟩]

/-- The one store covers the block. -/
theorem cover0_3 (p0 : Vec F S5000x128 .f32) (y : S5000x128.Idx) :
    ∃ pc ∈ ([⟨r0_a, p0⟩] : List (View.Piece (Elt F) S5000x128 .f32)), y ∈ pc.1.set :=
  View.cover_of_tiled [⟨r0_a, p0⟩] S5000x128.size (by rfl) y

set_option maxHeartbeats 1000000 in
/-- The body on whole staging memrefs, the inputs' at contents `x0 x1 x2` and the output's at anything, runs to the
    continuation holding the inputs' as they were and the output's at `out0_3` of them. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__affine_scale_kernel i arg1 harg1 arg2 harg2 arg3 harg3 arg4 harg4) K := by
  simp only [cc0__affine_scale_kernel_eq_skeleton]; unfold cc0__affine_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the call on core `c`: the arrays as the call finds them; after the body at point `t` each
    input's buffer at its block and the output's at `out0_3` of the input blocks; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  THE SECOND PALLAS CALL, ONE GRID POINT AT A TIME. Its grid has 20 points; at point t the body is handed rows
  5000 t … 5000 t + 4999 of the first round's sums and of the column of factors D^(-1/2), the first bias as a row, and
  the whole second weight matrix; it scales each row by its factor, adds the bias, rectifies, multiplies by the matrix
  and scales each row by its factor again. Stated at any contents `V` of the buffers when the call is entered: each
  window's block (`iblk1`), what the body leaves in the output block as a function of the four input blocks
  (`out1_4`), the body's triple, the pipeline's proof data (`dat1`) and the body obligation at every point.
-/
import proofs.«420629_j61529701482954_2_alg».proof.Proof.Gen.KernelIdeal.Launch
import proofs.«420629_j61529701482954_2_alg».proof.Proof.Gen.KernelIdeal.Skeleton
import proofs.«420629_j61529701482954_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each memref whole. -/
abbrev r1_a : Rect S5000x128 := Rect.unit (s := S5000x128) ![0, 0] S5000x128.size inb_S5000x128_S5000x128_0_0
abbrev r1_d : Rect S5000x1 := Rect.unit (s := S5000x1) ![0, 0] S5000x1.size inb_S5000x1_S5000x1_0_0
abbrev r1_bias : Rect S1x128 := Rect.unit (s := S1x128) ![0, 0] S1x128.size inb_S1x128_S1x128_0_0
abbrev r1_w : Rect S128x128 := Rect.unit (s := S128x128) ![0, 0] S128x128.size inb_S128x128_S128x128_0_0

/-- The output block after the body, from the four input blocks: its one store. -/
def out1_4 (x0 : Vec F S5000x128 .f32) (x1 : Vec F S5000x1 .f32) (x2 : Vec F S1x128 .f32) (x3 : Vec F S128x128 .f32) : Vec F S5000x128 .f32 :=
  View.canon [⟨r1_a, k1_pay1 (View.ld x0 r1_a) (View.ld x1 r1_d) (View.ld x2 r1_bias) (View.ld x3 r1_w)⟩]

/-- The one store covers the block. -/
theorem cover1_4 (p0 : Vec F S5000x128 .f32) (y : S5000x128.Idx) :
    ∃ pc ∈ ([⟨r1_a, p0⟩] : List (View.Piece (Elt F) S5000x128 .f32)), y ∈ pc.1.set :=
  View.cover_of_tiled [⟨r1_a, p0⟩] S5000x128.size (by rfl) y

set_option maxHeartbeats 1000000 in
/-- The body on whole staging memrefs, the inputs' at contents `x0 … x3` and the output's at anything, runs to the
    continuation holding the inputs' as they were and the output's at `out1_4` of them. -/
theorem sound_kernel1 (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S5000x128 .f32) (harg5 : arg5.IsWhole)
    (x0 : Vec F S5000x128 .f32) (x1 : Vec F S5000x1 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__gcn_mid_kernel i arg1 harg1 arg2 harg2 arg3 harg3 arg4 harg4 arg5 harg5) K := by
  simp only [cc1__gcn_mid_kernel_eq_skeleton]; unfold cc1__gcn_mid_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of the call on core `c`: the arrays as the call finds them; after the body at point `t` each
    input's buffer at its block and the output's at `out1_4` of the input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  THE THIRD PALLAS CALL, ONE GRID POINT AT A TIME. Its grid is 2 × 25: point t = 25 cc + i handles tile i of half cc,
  rows 2000 t … 2000 t + 1999 of the nodes. The body clears a 512 × 128 accumulator when i = 0, adds to it the product of
  the tile's 0/1 matrix (node's graph number against 0 … 511) with the tile's rectified rows, and when i = 24 copies the
  accumulator into half cc of the output. The accumulator is carried from point to point: `acc2` is what it holds after
  each point. Stated at any contents `V` of the buffers when the call is entered.
-/
import proofs.«420629_j61529701482954_2_alg».proof.Proof.Gen.KernelIdeal.Launch
import proofs.«420629_j61529701482954_2_alg».proof.Proof.Gen.KernelIdeal.Skeleton
import proofs.«420629_j61529701482954_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each memref whole. -/
abbrev r2_b : Rect S2000x1 := Rect.unit (s := S2000x1) ![0, 0] S2000x1.size inb_S2000x1_S2000x1_0_0
abbrev r2_a : Rect S2000x128 := Rect.unit (s := S2000x128) ![0, 0] S2000x128.size inb_S2000x128_S2000x128_0_0
abbrev r2_bias : Rect S1x128 := Rect.unit (s := S1x128) ![0, 0] S1x128.size inb_S1x128_S1x128_0_0
abbrev r2_s : Rect S512x128 := Rect.unit (s := S512x128) ![0, 0] S512x128.size inb_S512x128_S512x128_0_0
abbrev r2_o : Rect S1x512x128 := Rect.unit (s := S1x512x128) ![0, 0, 0] S1x512x128.size inb_S1x512x128_S1x512x128_0_0_0

/-- The accumulator, a whole scratch buffer. -/
abbrev scM2 : Memref sig .tc .vmem S512x128 .f32 := Memref.whole cc2_scratch0

/-- THE ACCUMULATION. What the accumulator holds after the body at position `n`: the point's tile product added to
    the cleared accumulator at the first tile of a half, to what the point before left otherwise. -/
def acc2 (c : Dev nD) : (n : ℕ) → n < cfg2.N → Vec F S512x128 .f32
  | 0, hn => k2_pay2 (iblk2 V c 0 ⟨0, hn⟩) (iblk2 V c 1 ⟨0, hn⟩) (iblk2 V c 2 ⟨0, hn⟩) (iblk2 V c 3 ⟨0, hn⟩) (k2_pay1 (F := F))
  | n + 1, hn => k2_pay2 (iblk2 V c 0 ⟨n + 1, hn⟩) (iblk2 V c 1 ⟨n + 1, hn⟩) (iblk2 V c 2 ⟨n + 1, hn⟩) (iblk2 V c 3 ⟨n + 1, hn⟩)
      (if (n + 1) % 25 = 0 then k2_pay1 (F := F) else acc2 c n (Nat.lt_of_succ_lt hn))

/-- The accumulation, one equation for every point. -/
theorem acc2_eq (c : Dev nD) (t : Fin cfg2.N) :
    acc2 V c t.val t.isLt = k2_pay2 (iblk2 V c 0 t) (iblk2 V c 1 t) (iblk2 V c 2 t) (iblk2 V c 3 t)
      (if t.val % 25 = 0 then k2_pay1 (F := F) else acc2 V c (t.val - 1) (Nat.lt_of_le_of_lt (Nat.sub_le _ _) t.isLt)) := by
  obtain ⟨n, hn⟩ := t
  cases n with
  | zero => rfl
  | succ n => rfl

/-- The zero offsets of a whole-block access, however spelt. -/
theorem r2_hz2 : (![0, 0] : Fin 2 → Nat) = fun _ => 0 := by funext a; fin_cases a <;> rfl
theorem r2_hz3 : (![0, 0, 0] : Fin 3 → Nat) = fun _ => 0 := by funext a; fin_cases a <;> rfl

/-- A store of a whole block, last, leaves its payload whatever was stored before it. -/
theorem r2_read_writes_cons_unit_zero {sg : RefSig} {κ : Kind} {sp : Space} {S : Shape} {e : EltTy} {Val : EltTy → Type}
    {off : Fin S.rank → Nat} (h : off = fun _ => 0) (inb : ∀ a, off a + S.size a ≤ S.size a)
    (v : View sg κ sp S e) (f : v.ty.Contents Val) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-! ## The two conditions of the body, in closed form over the grid -/

/-- The first condition: the tile is the first of its half. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 25 = 0 :=
  (by decide +kernel : ∀ t : Fin grid2.N, cond2_0 (grid2.coords t) ↔ t.val % 25 = 0)
/-- The second condition: the tile is the last of its half. -/
abbrev cond2_1 (i : grid2.Coords) : Prop := k2_cond2 i = 1#1
theorem hcond2_1 : ∀ t : Fin cfg2.N, cond2_1 (grid2.coords t) ↔ t.val % 25 = 24 :=
  (by decide +kernel : ∀ t : Fin grid2.N, cond2_1 (grid2.coords t) ↔ t.val % 25 = 24)

/-- The inputs are never idle; the output is idle exactly off the last tile of a half, where it is not written back. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem idleAt2_4 : ∀ t : Fin cfg2.N, ¬cond2_1 (grid2.coords t) → cfg2.idle 4 (grid2.coords t) = true :=
  (by decide +kernel : ∀ t : Fin grid2.N, ¬cond2_1 (grid2.coords t) → idle2 4 (grid2.coords t) = true)
theorem liveAt2_4 : ∀ t : Fin cfg2.N, cond2_1 (grid2.coords t) → cfg2.idle 4 (grid2.coords t) = false :=
  (by decide +kernel : ∀ t : Fin grid2.N, cond2_1 (grid2.coords t) → idle2 4 (grid2.coords t) = false)
theorem noFlush2_4 (t : Fin cfg2.N) (h : ¬t.val % 25 = 24) : (cfg2.win 4).flush t = false := by
  cases hf : (cfg2.win 4).flush t
  · rfl
  · exact absurd ((flush2_4 t).mp hf) h

/-! ## The body on whole memrefs, case by case -/

set_option maxHeartbeats 1000000 in
/-- First tile of a half: the accumulator, at anything, is cleared, read back and stored with the tile's product added; the output block is left as it was. -/
theorem sound_kernel2_A (c : Dev nD) (E : Set ℕ) (i : grid2.Coords) (hc0 : cond2_0 i) (hc1 : ¬cond2_1 i)
    (arg2 : Memref sig .tc .vmem S2000x1 .i32) (harg2 : arg2.IsWhole) (arg3 : Memref sig .tc .vmem S2000x128 .f32) (harg3 : arg3.IsWhole)
    (arg4 : Memref sig .tc .vmem S2000x1 .f32) (harg4 : arg4.IsWhole) (arg5 : Memref sig .tc .vmem S1x128 .f32) (harg5 : arg5.IsWhole)
    (arg6 : Memref sig .tc .vmem S1x512x128 .f32) (harg6 : arg6.IsWhole) (arg7 : Memref sig .tc .vmem S512x128 .f32) (harg7 : arg7.IsWhole)
    (x0 : Vec F S2000x1 .i32) (x1 : Vec F S2000x128 .f32) (x2 : Vec F S2000x1 .f32) (x3 : Vec F S1x128 .f32)
    (xo : Vec F S1x512x128 .f32) (xs : Vec F S512x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (xo)
            ∗ owns (c : Thread nD τ) arg7 fullShare (k2_pay2 x0 x1 x2 x3 (k2_pay1 (F := F)))) -∗ K ⟨⟩))
      ⊢ wp frame (wpE (defs₀ (F := F)) Variants.none c none) E (cc2__pool_kernel i arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_words
  rw [r2_read_writes_cons_unit_zero (S := S512x128) r2_hz2, View.readCov_unit_zero (S := S512x128) _ r2_hz2]
  simp only [View.readAt_eq_ld, View.ld_unit_zero (S := S2000x1) r2_hz2, View.ld_unit_zero (S := S2000x128) r2_hz2,
    View.ld_unit_zero (S := S1x128) r2_hz2, View.ld_unit_zero (S := S512x128) r2_hz2]

set_option maxHeartbeats 1000000 in
/-- A middle tile: the accumulator is read and stored with the tile's product added; the output block is left as it was. -/
theorem sound_kernel2_B (c : Dev nD) (E : Set ℕ) (i : grid2.Coords) (hc0 : ¬cond2_0 i) (hc1 : ¬cond2_1 i)
    (arg2 : Memref sig .tc .vmem S2000x1 .i32) (harg2 : arg2.IsWhole) (arg3 : Memref sig .tc .vmem S2000x128 .f32) (harg3 : arg3.IsWhole)
    (arg4 : Memref sig .tc .vmem S2000x1 .f32) (harg4 : arg4.IsWhole) (arg5 : Memref sig .tc .vmem S1x128 .f32) (harg5 : arg5.IsWhole)
    (arg6 : Memref sig .tc .vmem S1x512x128 .f32) (harg6 : arg6.IsWhole) (arg7 : Memref sig .tc .vmem S512x128 .f32) (harg7 : arg7.IsWhole)
    (x0 : Vec F S2000x1 .i32) (x1 : Vec F S2000x128 .f32) (x2 : Vec F S2000x1 .f32) (x3 : Vec F S1x128 .f32)
    (xo : Vec F S1x512x128 .f32) (xs : Vec F S512x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (xo)
            ∗ owns (c : Thread nD τ) arg7 fullShare (k2_pay2 x0 x1 x2 x3 xs)) -∗ K ⟨⟩))
      ⊢ wp frame (wpE (defs₀ (F := F)) Variants.none c none) E (cc2__pool_kernel i arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_words
  rw [r2_read_writes_cons_unit_zero (S := S512x128) r2_hz2]
  simp only [View.readAt_eq_ld, View.ld_unit_zero (S := S2000x1) r2_hz2, View.ld_unit_zero (S := S2000x128) r2_hz2,
    View.ld_unit_zero (S := S1x128) r2_hz2, View.ld_unit_zero (S := S512x128) r2_hz2]

set_option maxHeartbeats 1000000 in
/-- Last tile of a half: as a middle tile, then the accumulator is read back and stored whole as the output block. -/
theorem sound_kernel2_C (c : Dev nD) (E : Set ℕ) (i : grid2.Coords) (hc0 : ¬cond2_0 i) (hc1 : cond2_1 i)
    (arg2 : Memref sig .tc .vmem S2000x1 .i32) (harg2 : arg2.IsWhole) (arg3 : Memref sig .tc .vmem S2000x128 .f32) (harg3 : arg3.IsWhole)
    (arg4 : Memref sig .tc .vmem S2000x1 .f32) (harg4 : arg4.IsWhole) (arg5 : Memref sig .tc .vmem S1x128 .f32) (harg5 : arg5.IsWhole)
    (arg6 : Memref sig .tc .vmem S1x512x128 .f32) (harg6 : arg6.IsWhole) (arg7 : Memref sig .tc .vmem S512x128 .f32) (harg7 : arg7.IsWhole)
    (x0 : Vec F S2000x1 .i32) (x1 : Vec F S2000x128 .f32) (x2 : Vec F S2000x1 .f32) (x3 : Vec F S1x128 .f32)
    (xo : Vec F S1x512x128 .f32) (xs : Vec F S512x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay3 (k2_pay2 x0 x1 x2 x3 xs))
            ∗ owns (c : Thread nD τ) arg7 fullShare (k2_pay2 x0 x1 x2 x3 xs)) -∗ K ⟨⟩))
      ⊢ wp frame (wpE (defs₀ (F := F)) Variants.none c none) E (cc2__pool_kernel i arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [r2_read_writes_cons_unit_zero (S := S1x512x128) r2_hz3, View.readCov_unit_zero (S := S512x128) _ r2_hz2]
    simp only [View.readAt_eq_ld, View.ld_unit_zero (S := S2000x1) r2_hz2, View.ld_unit_zero (S := S2000x128) r2_hz2,
    View.ld_unit_zero (S := S1x128) r2_hz2, View.ld_unit_zero (S := S512x128) r2_hz2]
  iexists _; isplitr
  swap; · iexact H5
  ipureintro
  sl_unfold_words
  rw [r2_read_writes_cons_unit_zero (S := S512x128) r2_hz2]
  simp only [View.readAt_eq_ld, View.ld_unit_zero (S := S2000x1) r2_hz2, View.ld_unit_zero (S := S2000x128) r2_hz2,
    View.ld_unit_zero (S := S1x128) r2_hz2, View.ld_unit_zero (S := S512x128) r2_hz2]

/-! ## The invariant -/

/-- The core's other scoped buffers, each at some contents: what the body neither reads nor writes. -/
def rest2_15 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f))

/-- The class invariant with the accumulator named: the accumulator at some contents, the other scoped buffers, the generator register. -/
theorem PhiA2_eq (c : Dev nD) :
    (Pipeline.ΦA spec2 c : sProp 𝕄)
      = iprop((iprop(∃ d, owns (c : Thread nD τ) scM2 fullShare d) ∗ rest2_15 (F := F) c) ∗ (∃ r, prngReg c r)) := by
  unfold Pipeline.ΦA; rw [scopedRest2_eq]; simp only [scM2, owns_whole]
  refine congrArg (fun X : sProp 𝕄 => iprop(X ∗ (∃ r, prngReg c r))) ?_
  unfold rest2_15
  refine BI.equiv_iff.mp ⟨(?_ : (_ : sProp 𝕄) ⊢ (_ : sProp 𝕄)), (?_ : (_ : sProp 𝕄) ⊢ (_ : sProp 𝕄))⟩
  · iintro ⟨R1, R2, R3, R4, R5, R6, R7, R8, R9, R10, R11, R12, R13, R14, R15, HS⟩
    isplitl [HS]; · iexact HS
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  · iintro ⟨HS, R1, R2, R3, R4, R5, R6, R7, R8, R9, R10, R11, R12, R13, R14, R15⟩
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    iexact HS
/-- The region invariant before position `n`: before the first point the class's (every scratch at anything);
    afterwards the accumulator at what the point before left, the other scoped buffers at anything, the generator
    register at some state. -/
def PhiS2 (c : Dev nD) : (n : ℕ) → n ≤ cfg2.N → sProp 𝕄
  | 0, _ => Pipeline.ΦA spec2 c
  | n + 1, hn => iprop((owns (c : Thread nD τ) scM2 fullShare (acc2 V c n hn) ∗ rest2_15 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((owns (c : Thread nD τ) scM2 fullShare (acc2 V c n hn) ∗ rest2_15 (F := F) c) ∗ (∃ r, prngReg c r)) := rfl

theorem PhiS2_pos (c : Dev nD) (n : ℕ) (h : n ≤ cfg2.N) (hz : n ≠ 0) :
    PhiS2 V c n h = iprop((owns (c : Thread nD τ) scM2 fullShare (acc2 V c (n - 1) (by omega)) ∗ rest2_15 (F := F) c) ∗ (∃ r, prngReg c r)) := by
  cases n with
  | zero => exact absurd rfl hz
  | succ n => rfl

/-- Before any point the invariant hands over the accumulator at some contents. -/
theorem PhiS2_any (c : Dev nD) (n : ℕ) (h : n ≤ cfg2.N) :
    PhiS2 V c n h ⊢ iprop((iprop(∃ d, owns (c : Thread nD τ) scM2 fullShare d) ∗ rest2_15 (F := F) c) ∗ (∃ r, prngReg c r)) := by
  cases n with
  | zero => rw [PhiS2_zero V c 0 h rfl, PhiA2_eq]
  | succ n =>
    rw [PhiS2_succ]
    iintro ⟨⟨HS, HR⟩, Hg⟩
    isplitr [Hg]
    · isplitl [HS]; · iexists _; iexact HS
      iexact HR
    iexact Hg

/-- The proof data of the call on core `c`: the arrays as the call finds them; after the body at point `t` each input's
    buffer at its block and the output's at the accumulator's contents (consulted only where the block is written
    back: the last tile of a half); the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay3 (acc2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = k2_pay3 (acc2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- The invariant at a point's start, restated at its position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4000000 in
/-- The body at any point: by the position of the tile in its half. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
      unfold Dat.leavesExact; rw [liveAt2_0 t], after2_0]
  rw [show (dat2 V c).leavesExact 1 t = owns (c : Thread nD τ) (st2_1 t) fullShare ((dat2 V c).after 1 t) from by
      unfold Dat.leavesExact; rw [liveAt2_1 t], after2_1]
  rw [show (dat2 V c).leavesExact 2 t = owns (c : Thread nD τ) (st2_2 t) fullShare ((dat2 V c).after 2 t) from by
      unfold Dat.leavesExact; rw [liveAt2_2 t], after2_2]
  rw [show (dat2 V c).leavesExact 3 t = owns (c : Thread nD τ) (st2_3 t) fullShare ((dat2 V c).after 3 t) from by
      unfold Dat.leavesExact; rw [liveAt2_3 t], after2_3]
  have hN : t.val < 50 := lt_of_lt_of_eq t.isLt (show cfg2.N = 50 from N_2)
  rw [acc2_eq V c t, PhiS2_castSucc V c t]
  by_cases h0 : t.val % 25 = 0
  · have h1 : ¬t.val % 25 = 24 := by omega
    rw [if_pos h0, Dat.leavesExact_idle (dat2 V c) 4 t (idleAt2_4 t (fun h => h1 ((hcond2_1 t).mp h))) (noFlush2_4 t h1)]
    refine BIBase.Entails.trans (Laws.sep_mono_left (PhiS2_any V c _ _)) ?_
    iintro ⟨⟨⟨HS, HR⟩, Hg⟩, Ho, ⟨%d0, H0⟩, ⟨%d1, H1⟩, ⟨%d2, H2⟩, ⟨%d3, H3⟩, ⟨%d4, H4⟩⟩
    iapply (sound_kernel2_A c Set.univ (grid2.coords t) ((hcond2_0 t).mpr h0) (fun h => h1 ((hcond2_1 t).mp h)) _ _ _ _ _ _ _ _ _ _ _ _
      (iblk2 V c 0 t) (iblk2 V c 1 t) (iblk2 V c 2 t) (iblk2 V c 3 t) _ (k2_pay1 (F := F)) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [if_neg h0, PhiS2_pos V c _ _ hz]
    by_cases h1 : t.val % 25 = 24
    · rw [show (dat2 V c).leavesExact 4 t = owns (c : Thread nD τ) (st2_4 t) fullShare ((dat2 V c).after 4 t) from by
        unfold Dat.leavesExact; rw [liveAt2_4 t ((hcond2_1 t).mpr h1)], after2_4, acc2_eq V c t, if_neg h0]
      iintro ⟨⟨⟨HS, HR⟩, Hg⟩, Ho, ⟨%d0, H0⟩, ⟨%d1, H1⟩, ⟨%d2, H2⟩, ⟨%d3, H3⟩, ⟨%d4, H4⟩⟩
      iapply (sound_kernel2_C c Set.univ (grid2.coords t) (fun h => h0 ((hcond2_0 t).mp h)) ((hcond2_1 t).mpr h1) _ _ _ _ _ _ _ _ _ _ _ _
        (iblk2 V c 0 t) (iblk2 V c 1 t) (iblk2 V c 2 t) (iblk2 V c 3 t) (k2_pay3 (k2_pay1 (F := F))) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat2 V c) 4 t (idleAt2_4 t (fun h => h1 ((hcond2_1 t).mp h))) (noFlush2_4 t h1)]
      iintro ⟨⟨⟨HS, HR⟩, Hg⟩, Ho, ⟨%d0, H0⟩, ⟨%d1, H1⟩, ⟨%d2, H2⟩, ⟨%d3, H3⟩, ⟨%d4, H4⟩⟩
      iapply (sound_kernel2_B c Set.univ (grid2.coords t) (fun h => h0 ((hcond2_0 t).mp h)) (fun h => h1 ((hcond2_1 t).mp h)) _ _ _ _ _ _ _ _ _ _ _ _
        (iblk2 V c 0 t) (iblk2 V c 1 t) (iblk2 V c 2 t) (iblk2 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Entails.refl _

/-- After the last point the invariant gives the class's back: the accumulator's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl, PhiA2_eq]
  exact PhiS2_any V c _ _

end Cert.KernelIdeal.Hand

end
-- ==== Proof.KI.Run.lean ====
/-
  THE WHOLE PROGRAM'S RUN. @main is nine items: host stretches and the three pallas calls. Between two items every
  unscoped buffer is held at a known contents: the launch memory, then each host stretch applied, then, after a call,
  the call's output array at what its pipeline leaves (`Dat.arrAt … N`: the write-backs of its proof data folded).
  Each call is a region record over those states; the launch theorem for a list of such items gives: every weakly fair
  execution terminates, faults nowhere, ends with the arguments as launched and the result buffer at the last
  valuation's contents.
-/
import proofs.«420629_j61529701482954_2_alg».proof.Proof.KI.Reg0
import proofs.«420629_j61529701482954_2_alg».proof.Proof.KI.Reg1
import proofs.«420629_j61529701482954_2_alg».proof.Proof.KI.Reg2
import proofs.«420629_j61529701482954_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents when each call is entered, read at the TensorCore's references. -/
abbrev E3 : (c : Dev nD) → (b : Ref sig .tc) → Buf (Elt F) ((c : Thread nD τ).loc b) := fun c b => V3 m c b
abbrev E5 (outs : Outs (F := F)) : (c : Dev nD) → (b : Ref sig .tc) → Buf (Elt F) ((c : Thread nD τ).loc b) := fun c b => V5 m outs c b
abbrev E7 (outs : Outs (F := F)) : (c : Dev nD) → (b : Ref sig .tc) → Buf (Elt F) ((c : Thread nD τ).loc b) := fun c b => V7 m outs c b

/-- The contents the calls leave in their output arrays are what their pipelines' proof data compute. -/
structure OutsOk (outs : Outs (F := F)) : Prop where
  h4 : ∀ c, outs 4 main_v21 c = (dat0 (E3 m) c).arrAt 3 cfg0.N
  h6 : ∀ c, outs 6 main_v32 c = (dat1 (E5 m outs) c).arrAt 4 cfg1.N
  h8 : ∀ c, outs 8 main_v43 c = (dat2 (E7 m outs) c).arrAt 4 cfg2.N

/-! ## The contents the calls leave, built one call at a time -/

/-- After the first call: its output array at what its pipeline computes from the launch memory's stretch; every
    other point at the launch memory. -/
def outsA : Outs (F := F) := fun _ r c =>
  if h : r = main_v21 then h ▸ (dat0 (E3 m) c).arrAt 3 cfg0.N else m ((c : Thread nD τ).loc r)
/-- After the second call: its output array at what its pipeline computes from the state the first call left. -/
def outsB : Outs (F := F) := fun j r c =>
  if h : r = main_v32 then h ▸ (dat1 (E5 m (outsA m)) c).arrAt 4 cfg1.N else outsA m j r c
/-- After the third call: its output array at what its pipeline computes from the state the second call left. -/
def outsC : Outs (F := F) := fun j r c =>
  if h : r = main_v43 then h ▸ (dat2 (E7 m (outsB m)) c).arrAt 4 cfg2.N else outsB m j r c

/-- The state the second call is entered from reads the unknown contents at the first call's output only. -/
theorem V5_congr {o1 o2 : Outs (F := F)} (h4 : ∀ c, o1 4 main_v21 c = o2 4 main_v21 c) (c : Dev nD) :
    V5 m o1 c = V5 m o2 c := by
  unfold V5 V4; rw [h4 c]
/-- The state the third call is entered from reads them at the first two calls' outputs only. -/
theorem V7_congr {o1 o2 : Outs (F := F)} (h4 : ∀ c, o1 4 main_v21 c = o2 4 main_v21 c)
    (h6 : ∀ c, o1 6 main_v32 c = o2 6 main_v32 c) (c : Dev nD) : V7 m o1 c = V7 m o2 c := by
  unfold V7 V6; rw [V5_congr m h4 c, h6 c]

theorem outsA_4 (c : Dev nD) : outsA m 4 main_v21 c = (dat0 (E3 m) c).arrAt 3 cfg0.N := by
  unfold outsA; rw [dif_pos rfl]
theorem outsB_4 (c : Dev nD) : outsB m 4 main_v21 c = outsA m 4 main_v21 c := by
  unfold outsB; rw [dif_neg (by decide)]
theorem outsB_6 (c : Dev nD) : outsB m 6 main_v32 c = (dat1 (E5 m (outsA m)) c).arrAt 4 cfg1.N := by
  unfold outsB; rw [dif_pos rfl]
theorem outsC_4 (c : Dev nD) : outsC m 4 main_v21 c = outsB m 4 main_v21 c := by
  unfold outsC; rw [dif_neg (by decide)]
theorem outsC_6 (c : Dev nD) : outsC m 6 main_v32 c = outsB m 6 main_v32 c := by
  unfold outsC; rw [dif_neg (by decide)]
theorem outsC_8 (c : Dev nD) : outsC m 8 main_v43 c = (dat2 (E7 m (outsB m)) c).arrAt 4 cfg2.N := by
  unfold outsC; rw [dif_pos rfl]

theorem E5_outsC : E5 m (outsC m) = E5 m (outsA m) :=
  funext fun c => funext fun b => congrFun (V5_congr m (fun c => (outsC_4 m c).trans (outsB_4 m c)) c) b
theorem E7_outsC : E7 m (outsC m) = E7 m (outsB m) :=
  funext fun c => funext fun b => congrFun (V7_congr m (outsC_4 m) (outsC_6 m) c) b

/-- Such contents exist: each call's output is determined by what was there when it was entered. -/
theorem exists_outs : ∃ outs : Outs (F := F), OutsOk m outs :=
  ⟨outsC m, {
    h4 := fun c => (outsC_4 m c).trans ((outsB_4 m c).trans (outsA_4 m c))
    h6 := fun c => by rw [E5_outsC]; exact (outsC_6 m c).trans (outsB_6 m c)
    h8 := fun c => by rw [E7_outsC]; exact outsC_8 m c }⟩

/-! ## The run, given the calls' records -/

set_option backward.isDefEq.respectTransparency.types false in
/-- THE RUN, CONDITIONALLY. For any rest states the launch makes on every core at once and that end owing nothing, any
    contents the calls leave and any proof data: given, per call, a region record entered from the buffers' contents
    before it and left at those after it, every weakly fair execution of the program from memory `m` with zero counters
    terminates, and every final memory holds the result buffer at the last valuation's contents and each argument as
    launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c)) :
    θ_run defs (onTc (τ := τ) (main (F := F))) ⟨m, fun _ => 0, ρ⟩ (fun r => ∀ c : Dev nD,
      r.2.mem ((c.tc : Thread nD τ).loc main_v52) = V9 m outs c main_v52
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, .rfl, .rfl, hpre0 c, hpost0 c, hpre1 c, hpost1 c, hpre2 c, hpost2 c, sep_mono .rfl (hE3 c)⟩)
    (hinit := ?_) (QY := fun c s => s.mem ((c.tc : Thread nD τ).loc main_v52) = V9 m outs c main_v52 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact ⟨h (Proc.devRef .tc main_v52) (Finset.mem_filter.mpr ⟨StableHlo.devRef_mem_tcRefs main_v52, by decide⟩),
        (h (Proc.devRef .tc main_arg0) (Finset.mem_filter.mpr ⟨StableHlo.devRef_mem_tcRefs main_arg0, by decide⟩)).trans (V9_main_arg0 m outs c),
        (h (Proc.devRef .tc main_arg1) (Finset.mem_filter.mpr ⟨StableHlo.devRef_mem_tcRefs main_arg1, by decide⟩)).trans (V9_main_arg1 m outs c),
        (h (Proc.devRef .tc main_arg2) (Finset.mem_filter.mpr ⟨StableHlo.devRef_mem_tcRefs main_arg2, by decide⟩)).trans (V9_main_arg2 m outs c),
        (h (Proc.devRef .tc main_arg3) (Finset.mem_filter.mpr ⟨StableHlo.devRef_mem_tcRefs main_arg3, by decide⟩)).trans (V9_main_arg3 m outs c),
        (h (Proc.devRef .tc main_arg4) (Finset.mem_filter.mpr ⟨StableHlo.devRef_mem_tcRefs main_arg4, by decide⟩)).trans (V9_main_arg4 m outs c),
        (h (Proc.devRef .tc main_arg5) (Finset.mem_filter.mpr ⟨StableHlo.devRef_mem_tcRefs main_arg5, by decide⟩)).trans (V9_main_arg5 m outs c),
        (h (Proc.devRef .tc main_arg6) (Finset.mem_filter.mpr ⟨StableHlo.devRef_mem_tcRefs main_arg6, by decide⟩)).trans (V9_main_arg6 m outs c),
        (h (Proc.devRef .tc main_arg7) (Finset.mem_filter.mpr ⟨StableHlo.devRef_mem_tcRefs main_arg7, by decide⟩)).trans (V9_main_arg7 m outs c),
        (h (Proc.devRef .tc main_arg8) (Finset.mem_filter.mpr ⟨StableHlo.devRef_mem_tcRefs main_arg8, by decide⟩)).trans (V9_main_arg8 m outs c)⟩
    · iexact HSI

/-! ## The proof data family and the thread state -/

/-- Every call's proof data, each at the contents its call is entered from. -/
def pdats (outs : Outs (F := F)) : (p : Fin 3) → (c : Dev nD) → Dat τ (Elt F) Unit ℕ (UR sig nD τ) ℕ (cfgs p) c
  | ⟨0, _⟩ => fun c => dat0 (E3 m) c
  | ⟨1, _⟩ => fun c => dat1 (E5 m outs) c
  | ⟨2, _⟩ => fun c => dat2 (E7 m outs) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-! ## The calls as region records -/

/-- After a call its output array holds the contents named for it. -/
theorem V4_out (outs : Outs (F := F)) (c : Dev nD) : V4 m outs c main_v21 = outs 4 main_v21 c := by
  unfold V4; exact Function.update_self _ _ _
theorem V6_out (outs : Outs (F := F)) (c : Dev nD) : V6 m outs c main_v32 = outs 6 main_v32 c := by
  unfold V6; exact Function.update_self _ _ _
theorem V8_out (outs : Outs (F := F)) (c : Dev nD) : V8 m outs c main_v43 = outs 8 main_v43 c := by
  unfold V8; exact Function.update_self _ _ _

/-- After the first call each of its arrays holds what the pipeline leaves: an input's as entered, the output's the
    contents named for it. -/
theorem hF0 (outs : Outs (F := F)) (h : OutsOk m outs) (c : Dev nD) :
    ∀ w : Fin cfg0.W, (dat0 (E3 m) c).arrAt w cfg0.N = V4 m outs c (Pipeline.arrRef spec0 w)
    | ⟨0, _⟩ => ((dat0 (E3 m) c).arrAt_in 0 rfl _).trans ((A_eq0 (E3 m) c 0).trans (V4_of m outs c (Pipeline.arrRef spec0 0) (by decide)).symm)
    | ⟨1, _⟩ => ((dat0 (E3 m) c).arrAt_in 1 rfl _).trans ((A_eq0 (E3 m) c 1).trans (V4_of m outs c (Pipeline.arrRef spec0 1) (by decide)).symm)
    | ⟨2, _⟩ => ((dat0 (E3 m) c).arrAt_in 2 rfl _).trans ((A_eq0 (E3 m) c 2).trans (V4_of m outs c (Pipeline.arrRef spec0 2) (by decide)).symm)
    | ⟨3, _⟩ => (h.h4 c).symm.trans (V4_out m outs c).symm
    | ⟨n + 4, hn⟩ => absurd hn (Nat.not_lt.2 (Nat.le_add_left 4 n))
/-- and every other buffer what it held when the call was entered. -/
theorem hrest0 (outs : Outs (F := F)) (c : Dev nD) :
    ∀ b, b ∉ Finset.univ.image (Pipeline.arrRef spec0) → V4 m outs c b = V3 m c b :=
  fun b hb => V4_of m outs c b fun hmem => hb (Finset.mem_image.mpr ⟨3, Finset.mem_univ _, (List.mem_singleton.mp hmem).symm⟩)

set_option backward.isDefEq.respectTransparency.types false in
/-- THE FIRST CALL over the thread state: entered from every unscoped buffer at the contents before it, left at the
    contents after it. Its arrays split out of the unscoped buffers and put back at the exit contents; the generator
    register into the class invariant and out; nothing owed; no semaphore of the kernel's own. -/
def reg0 (outs : Outs (F := F)) (h : OutsOk m outs) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (E3 m c) (fun b => V4 m outs c b) ((pdats m outs 0 c).arrAt · cfg0.N) (hF0 m outs h c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After the second call each of its arrays holds what the pipeline leaves: an input's as entered, the output's the
    contents named for it. -/
theorem hF1 (outs : Outs (F := F)) (h : OutsOk m outs) (c : Dev nD) :
    ∀ w : Fin cfg1.W, (dat1 (E5 m outs) c).arrAt w cfg1.N = V6 m outs c (Pipeline.arrRef spec1 w)
    | ⟨0, _⟩ => ((dat1 (E5 m outs) c).arrAt_in 0 rfl _).trans ((A_eq1 (E5 m outs) c 0).trans (V6_of m outs c (Pipeline.arrRef spec1 0) (by decide)).symm)
    | ⟨1, _⟩ => ((dat1 (E5 m outs) c).arrAt_in 1 rfl _).trans ((A_eq1 (E5 m outs) c 1).trans (V6_of m outs c (Pipeline.arrRef spec1 1) (by decide)).symm)
    | ⟨2, _⟩ => ((dat1 (E5 m outs) c).arrAt_in 2 rfl _).trans ((A_eq1 (E5 m outs) c 2).trans (V6_of m outs c (Pipeline.arrRef spec1 2) (by decide)).symm)
    | ⟨3, _⟩ => ((dat1 (E5 m outs) c).arrAt_in 3 rfl _).trans ((A_eq1 (E5 m outs) c 3).trans (V6_of m outs c (Pipeline.arrRef spec1 3) (by decide)).symm)
    | ⟨4, _⟩ => (h.h6 c).symm.trans (V6_out m outs c).symm
    | ⟨n + 5, hn⟩ => absurd hn (Nat.not_lt.2 (Nat.le_add_left 5 n))
/-- and every other buffer what it held when the call was entered. -/
theorem hrest1 (outs : Outs (F := F)) (c : Dev nD) :
    ∀ b, b ∉ Finset.univ.image (Pipeline.arrRef spec1) → V6 m outs c b = V5 m outs c b :=
  fun b hb => V6_of m outs c b fun hmem => hb (Finset.mem_image.mpr ⟨4, Finset.mem_univ _, (List.mem_singleton.mp hmem).symm⟩)

set_option backward.isDefEq.respectTransparency.types false in
/-- THE SECOND CALL over the thread state: entered from every unscoped buffer at the contents before it, left at the
    contents after it. Its arrays split out of the unscoped buffers and put back at the exit contents; the generator
    register into the class invariant and out; nothing owed; no semaphore of the kernel's own. -/
def reg1 (outs : Outs (F := F)) (h : OutsOk m outs) : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m outs) c).loose
  hwaits := Pipeline.hwaits_of_owed_zero _ _ _ _ L lv 1 fun _ _ => rfl
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec1 c (E5 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (E5 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (E5 m outs c) (fun b => V6 m outs c b) ((pdats m outs 1 c).arrAt · cfg1.N) (hF1 m outs h c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After the third call each of its arrays holds what the pipeline leaves: an input's as entered, the output's the
    contents named for it. -/
theorem hF2 (outs : Outs (F := F)) (h : OutsOk m outs) (c : Dev nD) :
    ∀ w : Fin cfg2.W, (dat2 (E7 m outs) c).arrAt w cfg2.N = V8 m outs c (Pipeline.arrRef spec2 w)
    | ⟨0, _⟩ => ((dat2 (E7 m outs) c).arrAt_in 0 rfl _).trans ((A_eq2 (E7 m outs) c 0).trans (V8_of m outs c (Pipeline.arrRef spec2 0) (by decide)).symm)
    | ⟨1, _⟩ => ((dat2 (E7 m outs) c).arrAt_in 1 rfl _).trans ((A_eq2 (E7 m outs) c 1).trans (V8_of m outs c (Pipeline.arrRef spec2 1) (by decide)).symm)
    | ⟨2, _⟩ => ((dat2 (E7 m outs) c).arrAt_in 2 rfl _).trans ((A_eq2 (E7 m outs) c 2).trans (V8_of m outs c (Pipeline.arrRef spec2 2) (by decide)).symm)
    | ⟨3, _⟩ => ((dat2 (E7 m outs) c).arrAt_in 3 rfl _).trans ((A_eq2 (E7 m outs) c 3).trans (V8_of m outs c (Pipeline.arrRef spec2 3) (by decide)).symm)
    | ⟨4, _⟩ => (h.h8 c).symm.trans (V8_out m outs c).symm
    | ⟨n + 5, hn⟩ => absurd hn (Nat.not_lt.2 (Nat.le_add_left 5 n))
/-- and every other buffer what it held when the call was entered. -/
theorem hrest2 (outs : Outs (F := F)) (c : Dev nD) :
    ∀ b, b ∉ Finset.univ.image (Pipeline.arrRef spec2) → V8 m outs c b = V7 m outs c b :=
  fun b hb => V8_of m outs c b fun hmem => hb (Finset.mem_image.mpr ⟨4, Finset.mem_univ _, (List.mem_singleton.mp hmem).symm⟩)

set_option backward.isDefEq.respectTransparency.types false in
/-- THE THIRD CALL over the thread state: entered from every unscoped buffer at the contents before it, left at the
    contents after it. Its arrays split out of the unscoped buffers and put back at the exit contents; the generator
    register into the class invariant and out; nothing owed; no semaphore of the kernel's own. -/
def reg2 (outs : Outs (F := F)) (h : OutsOk m outs) : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E7 m outs) c).loose
  hwaits := Pipeline.hwaits_of_owed_zero _ _ _ _ L lv 2 fun _ _ => rfl
  pre c := iprop(StableHlo.held (c : Thread nD τ) (Pipeline.ucRefs τ sig) (V7 m outs c) ∗ R c)
  post c := iprop(StableHlo.held (c : Thread nD τ) (Pipeline.ucRefs τ sig) (V8 m outs c) ∗ R c)
  X c := iprop(∃ r, prngReg c r)
  Y c := iprop(∃ r, prngReg c r)
  Z c := Pipeline.unscopedRest (Ix := Unit) (Name := ℕ) (U := UR sig nD τ) (Lvl := ℕ) spec2 c (E7 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (E7 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E7 m outs) c)
    unfold Pipeline.ΦA
    iintro ⟨Hp, -, Hr⟩
    isplitl [Hr]; · iexact Hr
    iexact Hp
  hout c := by
    rw [Pipeline.ownSems0_none]
    refine BIBase.Entails.trans (hout2 (E7 m outs) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (E7 m outs c) (fun b => V8 m outs c b) ((pdats m outs 2 c).arrAt · cfg2.N) (hF2 m outs h c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- THE RUN, with the result named. -/
theorem run_main (outs : Outs (F := F)) (h : OutsOk m outs) :
    θ_run defs (onTc (τ := τ) (main (F := F))) ⟨m, fun _ => 0, ρ⟩ (fun r => ∀ c : Dev nD,
      r.2.mem ((c.tc : Thread nD τ).loc main_v52) = V9 m outs c main_v52
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_cond m emb₁ () 𝒱₀ L lv (fun _ _ => rfl) ρ outs (pdats m outs) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (reg0 m outs h) (fun _ => .rfl) (fun _ => .rfl)
    (reg1 m outs h) (fun _ => .rfl) (fun _ => .rfl)
    (reg2 m outs h) (fun _ => .rfl) (fun _ => .rfl)

/-- THE FRAME: the program runs to the end, faults nowhere, and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  obtain ⟨outs, h⟩ := exists_outs m
  exact (θ_run defs _ _).mono (fun _ hr c => (hr c).2) (run_main m ρ outs h)

end Cert.KernelIdeal.Hand

end
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.Spec.lean ====
/-
  THE MATHEMATICS OF THE TWO PROGRAMS, OVER THE EXTENDED REALS.
  A graph of 100000 nodes and 1700000 directed edges (the given ones and one self loop per node) is known only through
  columns of 32-bit words: each edge's source and destination, each node's graph number. An edge whose destination word
  reads signed as `n` LANDS on node `n`; a source (or a destination, where it is read and not scattered to) that is
  negative is wrapped by the node count and then clamped into the node range. Both programs apply two rounds of
      h ↦ relu (D^(-1/2) (A + I) D^(-1/2) (h W) + b),   D the in-degree counted over the landing edges,
  sum the rows of each graph, and project. They differ in where the two factors D^(-1/2) meet the messages: one program
  scales every message by the product of its two end factors (`rAgg`), the other scales the rows before they are
  gathered and the sums after they are scattered (`kScaled`, `kAct`), and it sums each graph's rows as a product with
  a 0/1 matrix, tile by tile, in two halves (`kHalf`). The two agree (`kOut_eq_rOut`) because a factor that is
  nonnegative and not +∞ distributes over any sum of extended reals, and because the landing destination of an edge is
  its clamped destination.
-/
import proofs.«420629_j61529701482954_2_alg».proof.Proof.LibGatherScatter
import Idealize.ShloMosaic.PureOps.Ideal
import Mathlib.Data.EReal.Operations
import Mathlib.Algebra.BigOperators.Fin

open scoped BigOperators

noncomputable section

namespace Cert.Spec

open Idealize.ShloMosaic Idealize.ShloMosaic.RowOps Idealize.ShloMosaic.StableHlo.Predicate Idealize.ShloMosaic.ValueIdx

/-- A column of `n` index words, as the gathers and scatters take it. -/
abbrev Col (n : Nat) := IVec ⟨2, ![n, 1]⟩ 32

/-- A negative word wrapped by the node count (numpy's negative indexing), any other word kept. -/
def wrap (w : BitVec 32) : BitVec 32 := if w.slt 0#32 then w + 100000#32 else w

/-- A word that reads signed as a nonnegative number is not wrapped. -/
theorem wrap_of_nonneg {w : BitVec 32} (h : 0 ≤ w.toInt) : wrap w = w := by
  have hs : w.slt 0#32 = false := by
    unfold BitVec.slt
    rw [decide_eq_false_iff_not, BitVec.toInt_zero]
    omega
  unfold wrap
  rw [hs]
  rfl

/-- The column whose row `e` is `v e`. -/
def colOf {n : Nat} (v : Fin n → BitVec 32) : Col n := fun j => v ⟨(j 0).val, (j 0).isLt⟩

/-- The index data: the wrapped sources, the destinations as given and wrapped, the graph numbers. -/
structure Cols where
  s : Col 1700000
  d : Col 1700000
  d' : Col 1700000
  b : Col 100000
  hd : ∀ (e : Fin 1700000) (n : Fin 100000), lands d e n.val → lands d' e n.val

/-- The columns of an edge list given by words: sources `sv`, destinations `dv`, graph numbers `bv`. -/
def Cols.ofVecs (sv dv : Fin 1700000 → BitVec 32) (bv : Fin 100000 → BitVec 32) : Cols where
  s := colOf fun e => wrap (sv e)
  d := colOf dv
  d' := colOf fun e => wrap (dv e)
  b := colOf bv
  hd := by
    intro e n h
    have h' : (dv e).toInt = (n.val : Int) := h
    show (wrap (dv e)).toInt = (n.val : Int)
    rw [wrap_of_nonneg (by omega)]
    exact h'

/-- The edge list of the two programs: the 1600000 given edges (row 0 of the edge array the sources, row 1 the
    destinations), then one self loop per node. -/
def srcW (a1 : (⟨2, ![2, 1600000]⟩ : Shape).Idx → BitVec 32) (e : Fin 1700000) : BitVec 32 :=
  if h : e.val < 1600000 then a1 (ix2 (0 : Fin 2) (⟨e.val, h⟩ : Fin 1600000)) else BitVec.ofNat 32 (e.val - 1600000)
def dstW (a1 : (⟨2, ![2, 1600000]⟩ : Shape).Idx → BitVec 32) (e : Fin 1700000) : BitVec 32 :=
  if h : e.val < 1600000 then a1 (ix2 (1 : Fin 2) (⟨e.val, h⟩ : Fin 1600000)) else BitVec.ofNat 32 (e.val - 1600000)
def batW (a2 : (⟨1, ![100000]⟩ : Shape).Idx → BitVec 32) (n : Fin 100000) : BitVec 32 := a2 (ix1 n)
/-- The index data of the two programs, from the edge array and the graph numbers. -/
def colsOf (a1 : (⟨2, ![2, 1600000]⟩ : Shape).Idx → BitVec 32) (a2 : (⟨1, ![100000]⟩ : Shape).Idx → BitVec 32) : Cols :=
  Cols.ofVecs (srcW a1) (dstW a1) (batW a2)

/-- A rank-2 array by coordinates, a rank-1 array by its coordinate. -/
def mat {A B : Nat} {α : Type} (a : (⟨2, ![A, B]⟩ : Shape).Idx → α) (p : Fin A) (q : Fin B) : α := a (ix2 p q)
def vec {A : Nat} {α : Type} (a : (⟨1, ![A]⟩ : Shape).Idx → α) (p : Fin A) : α := a (ix1 p)

variable (C : Cols)

/-- The node an edge's message is read from. -/
def srcRow (e : Fin 1700000) : Fin 100000 := clampRow 100000 (by decide) C.s e
/-- The node an edge's destination factor is read at. -/
def dstRow (e : Fin 1700000) : Fin 100000 := clampRow 100000 (by decide) C.d' e
/-- The edges that land on node `n`. -/
def inE (n : Fin 100000) : Finset (Fin 1700000) := Finset.univ.filter fun e => lands C.d e n.val
/-- The nodes of graph `g`. -/
def inG (g : Fin 512) : Finset (Fin 100000) := Finset.univ.filter fun n => lands C.b n g.val

/-- The float words of both programs, kept as words. -/
abbrev zero : EReal := Ideal.ofBits .f32 0x00000000#32
abbrev one : EReal := Ideal.ofBits .f32 0x3F800000#32
abbrev eps : EReal := Ideal.ofBits .f32 0x2B8CBCCC#32

/-- The in-degree: a one per landing edge. -/
def deg (n : Fin 100000) : EReal := zero + ∑ _e ∈ inE C n, one
/-- D^(-1/2), guarded as both programs guard it. -/
def dinv (n : Fin 100000) : EReal := if zero < deg C n then Ideal.rsqrt (max (deg C n) eps) else zero

/-- A feature array, a weight matrix, a bias. -/
abbrev Feat := Fin 100000 → Fin 128 → EReal
abbrev Wt := Fin 128 → Fin 128 → EReal
abbrev Bias := Fin 128 → EReal

/-- A row times a weight matrix. -/
def lin (X : Fin 100000 → Fin 128 → EReal) (W : Fin 128 → Fin 128 → EReal) (n : Fin 100000) (h : Fin 128) : EReal :=
  ∑ k : Fin 128, X n k * W k h

/-! ## Scaling the rows and the sums -/

/-- The transformed rows scaled by their own factor. -/
def kScaled (X : Fin 100000 → Fin 128 → EReal) (W : Fin 128 → Fin 128 → EReal) (n : Fin 100000) (h : Fin 128) : EReal :=
  lin X W n h * dinv C n
/-- The scaled rows of the landing edges' sources, summed. -/
def kAgg (X : Fin 100000 → Fin 128 → EReal) (W : Fin 128 → Fin 128 → EReal) (n : Fin 100000) (h : Fin 128) : EReal :=
  zero + ∑ e ∈ inE C n, kScaled C X W (srcRow C e) h
/-- One round: the sum scaled by the node's factor, the bias, the rectifier. -/
def kAct (X : Fin 100000 → Fin 128 → EReal) (W : Fin 128 → Fin 128 → EReal) (b : Fin 128 → EReal) (n : Fin 100000) (h : Fin 128) : EReal :=
  max (dinv C n * kAgg C X W n h + b h) zero
def kX2 (x : Feat) (W1 : Wt) (b1 : Bias) : Feat := kAct C x W1 b1
def kX3 (x : Feat) (W1 : Wt) (b1 : Bias) (W2 : Wt) (b2 : Bias) : Feat := kAct C (kX2 C x W1 b1) W2 b2

/-- Row `r` of tile `i` of half `cc`. -/
def node (cc : Fin 2) (i : Fin 25) (r : Fin 2000) : Fin 100000 := ⟨(cc.val * 25 + i.val) * 2000 + r.val, by omega⟩
/-- The 0/1 entry: node `n`'s graph word is the word of `g`. -/
def hot (n : Fin 100000) (g : Fin 512) : EReal := if C.b (ixP n) = BitVec.ofNat 32 g.val then 1 else 0
/-- One tile's contribution to graph `g`: the 0/1 matrix against the rows. -/
def kTile (x : Feat) (W1 : Wt) (b1 : Bias) (W2 : Wt) (b2 : Bias) (cc : Fin 2) (i : Fin 25) (g : Fin 512) (h : Fin 128) : EReal :=
  ∑ r : Fin 2000, hot C (node cc i r) g * kX3 C x W1 b1 W2 b2 (node cc i r) h
/-- The accumulator of half `cc` after its first `k` tiles: cleared, then one tile added at a time. -/
def kAcc (x : Feat) (W1 : Wt) (b1 : Bias) (W2 : Wt) (b2 : Bias) (cc : Fin 2) (g : Fin 512) (h : Fin 128) : ℕ → EReal
  | 0 => zero
  | k + 1 => kAcc x W1 b1 W2 b2 cc g h k + (if hk : k < 25 then kTile C x W1 b1 W2 b2 cc ⟨k, hk⟩ g h else 0)
def kPooled (x : Feat) (W1 : Wt) (b1 : Bias) (W2 : Wt) (b2 : Bias) (g : Fin 512) (h : Fin 128) : EReal := kAcc C x W1 b1 W2 b2 0 g h 25 + kAcc C x W1 b1 W2 b2 1 g h 25
def kOut (x : Feat) (W1 : Wt) (b1 : Bias) (W2 : Wt) (b2 : Bias) (Wl : Fin 128 → Fin 64 → EReal) (bl : Fin 64 → EReal) (g : Fin 512) (o : Fin 64) : EReal := (∑ h : Fin 128, kPooled C x W1 b1 W2 b2 g h * Wl h o) + bl o

/-! ## Scaling the messages -/

def rAgg (X : Fin 100000 → Fin 128 → EReal) (W : Fin 128 → Fin 128 → EReal) (n : Fin 100000) (h : Fin 128) : EReal :=
  zero + ∑ e ∈ inE C n, lin X W (srcRow C e) h * (dinv C (srcRow C e) * dinv C (dstRow C e))
def rAct (X : Fin 100000 → Fin 128 → EReal) (W : Fin 128 → Fin 128 → EReal) (b : Fin 128 → EReal) (n : Fin 100000) (h : Fin 128) : EReal :=
  max (rAgg C X W n h + b h) zero
def rX2 (x : Feat) (W1 : Wt) (b1 : Bias) : Feat := rAct C x W1 b1
def rX3 (x : Feat) (W1 : Wt) (b1 : Bias) (W2 : Wt) (b2 : Bias) : Feat := rAct C (rX2 C x W1 b1) W2 b2
def rPooled (x : Feat) (W1 : Wt) (b1 : Bias) (W2 : Wt) (b2 : Bias) (g : Fin 512) (h : Fin 128) : EReal := zero + ∑ n ∈ inG C g, rX3 C x W1 b1 W2 b2 n h
def rOut (x : Feat) (W1 : Wt) (b1 : Bias) (W2 : Wt) (b2 : Bias) (Wl : Fin 128 → Fin 64 → EReal) (bl : Fin 64 → EReal) (g : Fin 512) (o : Fin 64) : EReal := (∑ h : Fin 128, rPooled C x W1 b1 W2 b2 g h * Wl h o) + bl o

/-! ## The two agree -/

/-- The cleared word is the extended real 0. -/
theorem zero_eq : zero = 0 := Ideal.ofBits_zero_f32

/-- The inverse square root of a positive extended real is 0 (at +∞) or a positive real: nonnegative. -/
theorem rsqrt_nonneg_of_pos {y : EReal} (hy : 0 < y) : 0 ≤ Ideal.rsqrt y := by
  induction y using EReal.rec with
  | bot => exact absurd hy not_lt_bot
  | top => rw [Ideal.rsqrt_top]
  | coe r =>
    have hr : 0 < r := by exact_mod_cast hy
    rw [Ideal.rsqrt_coe, if_neg (not_lt.2 hr.le), if_neg hr.ne']
    exact_mod_cast inv_nonneg.2 (Real.sqrt_nonneg r)

/-- … and not +∞. -/
theorem rsqrt_ne_top_of_pos {y : EReal} (hy : 0 < y) : Ideal.rsqrt y ≠ ⊤ := by
  induction y using EReal.rec with
  | bot => exact absurd hy not_lt_bot
  | top => rw [Ideal.rsqrt_top]; exact EReal.zero_ne_top
  | coe r =>
    have hr : 0 < r := by exact_mod_cast hy
    rw [Ideal.rsqrt_coe, if_neg (not_lt.2 hr.le), if_neg hr.ne']
    exact EReal.coe_ne_top _

/-- The guarded factor is a nonnegative extended real that is not +∞. -/
theorem dinv_nonneg (n : Fin 100000) : 0 ≤ dinv C n := by
  unfold dinv
  split
  · next hlt =>
    rw [zero_eq] at hlt
    exact rsqrt_nonneg_of_pos (lt_of_lt_of_le hlt (le_max_left _ _))
  · rw [zero_eq]
theorem dinv_ne_top (n : Fin 100000) : dinv C n ≠ ⊤ := by
  unfold dinv
  split
  · next hlt =>
    rw [zero_eq] at hlt
    exact rsqrt_ne_top_of_pos (lt_of_lt_of_le hlt (le_max_left _ _))
  · rw [zero_eq]; exact EReal.zero_ne_top

/-- A nonnegative factor that is not +∞ distributes over any finite sum of extended reals. -/
theorem mul_sum_of_nonneg_of_ne_top {ι : Type} {a : EReal} (ha : 0 ≤ a) (hat : a ≠ ⊤) (s : Finset ι) (f : ι → EReal) :
    a * ∑ i ∈ s, f i = ∑ i ∈ s, a * f i := by
  classical
  induction s using Finset.induction_on with
  | empty => rw [Finset.sum_empty, Finset.sum_empty, mul_zero]
  | insert i s hi ih =>
    rw [Finset.sum_insert hi, Finset.sum_insert hi, EReal.left_distrib_of_nonneg_of_ne_top ha hat, ih]

/-- An edge that lands on node `n` reads its destination factor at `n`. -/
theorem dstRow_of_mem {n : Fin 100000} {e : Fin 1700000} (he : e ∈ inE C n) : dstRow C e = n :=
  clampRow_of_lands (by decide) C.d' e n (C.hd e n (Finset.mem_filter.1 he).2)

/-- The node's factor, carried inside the sum, meets each message's source factor. -/
theorem dinv_mul_kAgg (X : Fin 100000 → Fin 128 → EReal) (W : Fin 128 → Fin 128 → EReal) (n : Fin 100000) (h : Fin 128) :
    dinv C n * kAgg C X W n h = rAgg C X W n h := by
  unfold kAgg rAgg kScaled
  rw [zero_eq, zero_add, zero_add, mul_sum_of_nonneg_of_ne_top (dinv_nonneg C n) (dinv_ne_top C n)]
  refine Finset.sum_congr rfl fun e he => ?_
  rw [dstRow_of_mem C he, mul_left_comm (dinv C n), mul_comm (dinv C n) (dinv C (srcRow C e))]

/-- One round computes the same either way. -/
theorem kAct_eq_rAct (X : Fin 100000 → Fin 128 → EReal) (W : Fin 128 → Fin 128 → EReal) (b : Fin 128 → EReal) :
    kAct C X W b = rAct C X W b := by
  funext n h
  unfold kAct rAct
  rw [dinv_mul_kAgg]

/-- The word of a small number reads signed as that number. -/
theorem toInt_ofNat_of_lt {g : ℕ} (hg : g < 512) : (BitVec.ofNat 32 g).toInt = (g : Int) := by
  rw [BitVec.toInt_eq_toNat_cond, BitVec.toNat_ofNat]
  split <;> omega

/-- The 0/1 entry is 1 exactly on the nodes of the graph. -/
theorem hot_eq (n : Fin 100000) (g : Fin 512) : hot C n g = if lands C.b n g.val then 1 else 0 := by
  have hiff : C.b (ixP n) = BitVec.ofNat 32 g.val ↔ lands C.b n g.val := by
    unfold lands
    constructor
    · intro hw; rw [hw]; exact toInt_ofNat_of_lt g.isLt
    · intro hl; apply BitVec.eq_of_toInt_eq; rw [hl, toInt_ofNat_of_lt g.isLt]
  unfold hot
  by_cases hc : C.b (ixP n) = BitVec.ofNat 32 g.val
  · rw [if_pos hc, if_pos (hiff.1 hc)]
  · rw [if_neg hc, if_neg (fun hl => hc (hiff.2 hl))]

/-- The accumulator after `k` tiles is the cleared value plus the first `k` tiles. -/
theorem kAcc_eq_range (x : Feat) (W1 : Wt) (b1 : Bias) (W2 : Wt) (b2 : Bias) (cc : Fin 2) (g : Fin 512) (h : Fin 128) (k : ℕ) :
    kAcc C x W1 b1 W2 b2 cc g h k
      = zero + ∑ j ∈ Finset.range k, (if hj : j < 25 then kTile C x W1 b1 W2 b2 cc ⟨j, hj⟩ g h else 0) := by
  induction k with
  | zero => rw [Finset.range_zero, Finset.sum_empty, add_zero]; rfl
  | succ k ih => rw [Finset.sum_range_succ, ← add_assoc, ← ih]; rfl

/-- After all 25 tiles: the sum of the tiles. -/
theorem kAcc_full (x : Feat) (W1 : Wt) (b1 : Bias) (W2 : Wt) (b2 : Bias) (cc : Fin 2) (g : Fin 512) (h : Fin 128) :
    kAcc C x W1 b1 W2 b2 cc g h 25 = ∑ i : Fin 25, kTile C x W1 b1 W2 b2 cc i g h := by
  rw [kAcc_eq_range, zero_eq, zero_add, Finset.sum_range]
  refine Finset.sum_congr rfl fun i _ => ?_
  rw [dif_pos i.isLt]

/-- Half, tile and row number the nodes one to one. -/
def nodeEquiv : Fin 2 × Fin 25 × Fin 2000 ≃ Fin 100000 where
  toFun p := node p.1 p.2.1 p.2.2
  invFun n := (⟨n.val / 50000, by have := n.isLt; omega⟩, ⟨n.val / 2000 % 25, Nat.mod_lt _ (by decide)⟩,
    ⟨n.val % 2000, Nat.mod_lt _ (by decide)⟩)
  left_inv := by
    rintro ⟨cc, i, r⟩
    have := cc.isLt
    have := i.isLt
    have := r.isLt
    refine Prod.ext (Fin.ext ?_) (Prod.ext (Fin.ext ?_) (Fin.ext ?_))
    · show ((cc.val * 25 + i.val) * 2000 + r.val) / 50000 = cc.val
      omega
    · show ((cc.val * 25 + i.val) * 2000 + r.val) / 2000 % 25 = i.val
      omega
    · show ((cc.val * 25 + i.val) * 2000 + r.val) % 2000 = r.val
      omega
  right_inv := by
    intro n
    apply Fin.ext
    show (n.val / 50000 * 25 + n.val / 2000 % 25) * 2000 + n.val % 2000 = n.val
    omega

/-- The two halves' tile-by-tile 0/1 products are the sum over the graph's nodes. -/
theorem kPooled_eq_rPooled (x : Feat) (W1 : Wt) (b1 : Bias) (W2 : Wt) (b2 : Bias) (g : Fin 512) (h : Fin 128) :
    kPooled C x W1 b1 W2 b2 g h = rPooled C x W1 b1 W2 b2 g h := by
  have hX : kX3 C x W1 b1 W2 b2 = rX3 C x W1 b1 W2 b2 := by
    unfold kX3 rX3 kX2 rX2
    rw [kAct_eq_rAct, kAct_eq_rAct]
  have hF : ∀ n : Fin 100000, hot C n g * kX3 C x W1 b1 W2 b2 n h = if lands C.b n g.val then rX3 C x W1 b1 W2 b2 n h else 0 := by
    intro n
    rw [hot_eq, hX]
    split
    · rw [one_mul]
    · rw [zero_mul]
  unfold kPooled rPooled
  calc kAcc C x W1 b1 W2 b2 0 g h 25 + kAcc C x W1 b1 W2 b2 1 g h 25
      = ∑ cc : Fin 2, ∑ i : Fin 25, ∑ r : Fin 2000,
          (if lands C.b (node cc i r) g.val then rX3 C x W1 b1 W2 b2 (node cc i r) h else 0) := by
        rw [kAcc_full, kAcc_full, Fin.sum_univ_two]
        unfold kTile
        simp only [hF]
    _ = ∑ p : Fin 2 × Fin 25 × Fin 2000,
          (if lands C.b (nodeEquiv p) g.val then rX3 C x W1 b1 W2 b2 (nodeEquiv p) h else 0) := by
        rw [Fintype.sum_prod_type]
        refine Finset.sum_congr rfl fun cc _ => ?_
        rw [Fintype.sum_prod_type]
        rfl
    _ = ∑ n : Fin 100000, (if lands C.b n g.val then rX3 C x W1 b1 W2 b2 n h else 0) :=
        Fintype.sum_equiv nodeEquiv _ _ (fun _ => rfl)
    _ = zero + ∑ n ∈ inG C g, rX3 C x W1 b1 W2 b2 n h := by
        unfold inG
        rw [Finset.sum_filter, zero_eq, zero_add]

theorem kOut_eq_rOut (x : Feat) (W1 : Wt) (b1 : Bias) (W2 : Wt) (b2 : Bias) (Wl : Fin 128 → Fin 64 → EReal) (bl : Fin 64 → EReal) : kOut C x W1 b1 W2 b2 Wl bl = rOut C x W1 b1 W2 b2 Wl bl := by
  funext g o
  unfold kOut rOut
  simp only [kPooled_eq_rPooled]

end Cert.Spec

end
-- ==== Proof.Raw.lean ====
/-
  THE PIECES OF THE ROW-AND-SUM-SCALING PROGRAM, OVER PLAIN ARRAYS: one round's activation from a column of factors,
  an array of sums and a bias; a row-times-matrix scaled by the row's factor; a tile's 0/1 product and the accumulator
  over a half's tiles. `Spec`'s `kScaled`, `kAct`, `kTile`, `kAcc` are these at the graph's factors and sums.
-/
import proofs.«420629_j61529701482954_2_alg».proof.Proof.Spec

open scoped BigOperators

noncomputable section

namespace Cert.Spec

/-- The rows times a matrix, each row scaled by its factor. -/
def scaled (d : Fin 100000 → EReal) (X : Feat) (W : Wt) : Feat := fun n h => lin X W n h * d n
/-- The activation: the sums scaled by the node's factor, the bias, the rectifier. -/
def act (d : Fin 100000 → EReal) (A : Feat) (b : Bias) : Feat := fun n h => max (d n * A n h + b h) zero
/-- The 0/1 entry of a graph word against graph `g`. -/
def hotW (w : BitVec 32) (g : Fin 512) : EReal := if w = BitVec.ofNat 32 g.val then 1 else 0
/-- One tile's 0/1 product. -/
def tileSum (bw : Fin 100000 → BitVec 32) (Y : Feat) (cc : Fin 2) (i : Fin 25) (g : Fin 512) (h : Fin 128) : EReal :=
  ∑ r : Fin 2000, hotW (bw (node cc i r)) g * Y (node cc i r) h
/-- The accumulator of half `cc` after its first `k` tiles. -/
def accSum (bw : Fin 100000 → BitVec 32) (Y : Feat) (cc : Fin 2) (g : Fin 512) (h : Fin 128) : ℕ → EReal
  | 0 => zero
  | k + 1 => accSum bw Y cc g h k + (if hk : k < 25 then tileSum bw Y cc ⟨k, hk⟩ g h else 0)

end Cert.Spec

end
-- ==== Proof.KI.Args.lean ====
/-
  THE ARGUMENT ARRAYS OF THE PROGRAM AT LAUNCH, AS PLAIN FUNCTIONS OF THEIR INDICES, and the graph's index data read
  off the edge array and the graph numbers.
-/
import proofs.«420629_j61529701482954_2_alg».proof.Proof.Raw
import proofs.«420629_j61529701482954_2_alg».proof.Proof.Gen.KernelIdeal.Regions
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.HandValue

open Cert.KernelIdeal Cert.KernelIdeal.Gen
open Idealize.ShloMosaic Idealize.ShloMosaic.TcCoe Idealize.ShloMosaic.ValueIdx Idealize.ShloMosaic.StableHlo Idealize.ShloMosaic.RowOps Idealize.SL.Sem

variable (m : (ℓ : Loc nD τ sig) → Buf (Elt Ideal) ℓ) (outs : Outs (F := Ideal)) (c : Dev nD)

/-- The nine argument arrays on core `c`. -/
abbrev a0 : (⟨2, ![100000, 128]⟩ : Shape).Idx → EReal := m ((c.tc : Thread nD τ).loc main_arg0)
abbrev a1 : (⟨2, ![2, 1600000]⟩ : Shape).Idx → BitVec 32 := m ((c.tc : Thread nD τ).loc main_arg1)
abbrev a2 : (⟨1, ![100000]⟩ : Shape).Idx → BitVec 32 := m ((c.tc : Thread nD τ).loc main_arg2)
abbrev a3 : (⟨2, ![128, 128]⟩ : Shape).Idx → EReal := m ((c.tc : Thread nD τ).loc main_arg3)
abbrev a4 : (⟨1, ![128]⟩ : Shape).Idx → EReal := m ((c.tc : Thread nD τ).loc main_arg4)
abbrev a5 : (⟨2, ![128, 128]⟩ : Shape).Idx → EReal := m ((c.tc : Thread nD τ).loc main_arg5)
abbrev a6 : (⟨1, ![128]⟩ : Shape).Idx → EReal := m ((c.tc : Thread nD τ).loc main_arg6)
abbrev a7 : (⟨2, ![128, 64]⟩ : Shape).Idx → EReal := m ((c.tc : Thread nD τ).loc main_arg7)
abbrev a8 : (⟨1, ![64]⟩ : Shape).Idx → EReal := m ((c.tc : Thread nD τ).loc main_arg8)

/-- What the three calls leave in their output arrays, as plain functions of their indices. -/
abbrev o21 : (⟨2, ![100000, 128]⟩ : Shape).Idx → EReal := outs 4 main_v21 c
abbrev o32 : (⟨2, ![100000, 128]⟩ : Shape).Idx → EReal := outs 6 main_v32 c
abbrev o43 : (⟨3, ![2, 512, 128]⟩ : Shape).Idx → EReal := outs 8 main_v43 c

/-- The graph's index data. -/
def gC : Cert.Spec.Cols := Cert.Spec.colsOf (a1 m c) (a2 m c)

end Cert.KernelIdeal.HandValue

end
-- ==== Proof.KI.Host0.lean ====
/-
  THE HOST STRETCHES BEFORE THE FIRST PALLAS CALL, READ AT AN INDEX: the column of factors D^(-1/2) (the in-degree a
  scatter-add of ones over the destination column, then the guarded reciprocal square root), the biases as rows, the
  graph numbers as a column; and that later stretches leave these buffers as they are.
-/
import proofs.«420629_j61529701482954_2_alg».proof.Proof.Raw
import proofs.«420629_j61529701482954_2_alg».proof.Proof.Gen.KernelIdeal.Regions
import proofs.«420629_j61529701482954_2_alg».proof.Proof.KI.Args
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws
import Idealize.ShloMosaic.Shape

set_option maxRecDepth 16384

open scoped BigOperators

noncomputable section

namespace Cert.KernelIdeal.HandValue

open Cert.KernelIdeal Cert.KernelIdeal.Gen
open Idealize.ShloMosaic Idealize.ShloMosaic.TcCoe Idealize.ShloMosaic.ValueIdx Idealize.ShloMosaic.StableHlo Idealize.ShloMosaic.RowOps Idealize.SL.Sem

variable (m : (ℓ : Loc nD τ sig) → Buf (Elt Ideal) ℓ) (outs : Outs (F := Ideal)) (c : Dev nD)

abbrev FV (s : Shape) := (⟨s, .f32⟩ : BufTy).Contents (Elt Ideal)
abbrev IV (s : Shape) := (⟨s, .i32⟩ : BufTy).Contents (Elt Ideal)
abbrev Val0 := Valuation τ sig (Elt Ideal)

/-! ## The first stretch, buffer by buffer, from any contents -/

/-- The joined destination words: row 1 of the edge array, then the node numbers. -/
theorem after0_v6 (W : Val0) : (StableHlo.after hostOps0 W (Proc.devRef .tc main_v6) : IV S1700000)
    = concatenate S1700000 0 [⟨S1600000, shapeCast S1600000 (extractStridedSlice S1x1600000 ![1, 0] (W (Proc.devRef .tc main_arg1) : IV S2x1600000) slices_S2x1600000_S1x1600000_1_0) shapeCasts_S1x1600000_S1600000⟩, ⟨S100000, iotaInDim S100000 32 0⟩] concatenates_S1600000_S100000_S1700000_d0 := by
  after_results
  rfl

/-- The in-degree: ones scattered onto zeros at the destination column. -/
theorem after0_v10 (W : Val0) : (StableHlo.after hostOps0 W (Proc.devRef .tc main_v10) : FV S100000)
    = Host.scatterAdd (F := Ideal) (φ := .f32) scatter_S100000_S1700000x1_S1700000_n_0_0_1
        (broadcastInDim S100000 ![] bcast_S_S100000 (constant (F := Ideal) S_ .f32 0x00000000#32))
        (broadcastInDim S1700000x1 ![0] bcast_S1700000_S1700000x1_0 (StableHlo.after hostOps0 W (Proc.devRef .tc main_v6) : IV S1700000))
        (broadcastInDim S1700000 ![] bcast_S_S1700000 (constant (F := Ideal) S_ .f32 0x3F800000#32)) := by
  after_results

set_option maxHeartbeats 400000 in
/-- Where the in-degree is positive. -/
theorem after0_v12 (W : Val0) : (StableHlo.after hostOps0 W (Proc.devRef .tc main_v12) : (⟨S100000, .i1⟩ : BufTy).Contents (Elt Ideal))
    = cmpf (F := Ideal) (φ := .f32) (s := S100000) .ogt (StableHlo.after hostOps0 W (Proc.devRef .tc main_v10) : FV S100000) (broadcastInDim S100000 ![] bcast_S_S100000 (constant (F := Ideal) S_ .f32 0x00000000#32)) := by
  after_results

set_option maxHeartbeats 400000 in
/-- The reciprocal square root of the in-degree kept away from zero. -/
theorem after0_v15 (W : Val0) : (StableHlo.after hostOps0 W (Proc.devRef .tc main_v15) : FV S100000)
    = Host.rsqrt (F := Ideal) (φ := .f32) (s := S100000) (maximumf (F := Ideal) (φ := .f32) (s := S100000) (StableHlo.after hostOps0 W (Proc.devRef .tc main_v10) : FV S100000) (broadcastInDim S100000 ![] bcast_S_S100000 (constant (F := Ideal) S_ .f32 0x2B8CBCCC#32))) := by
  after_results

/-- The cleared word the guard falls back to. -/
theorem after0_cst3 (W : Val0) : (StableHlo.after hostOps0 W (Proc.devRef .tc main_cst_3) : FV S_) = constant (F := Ideal) S_ .f32 0x00000000#32 := by
  after_results

/-! ## The destination column -/

/-- The joined destination words at an edge: the given edge's row-1 word, or the self loop's node number. -/
theorem v6_at (e : Fin 1700000) : (V1 m c main_v6 : IV S1700000) (ix1 e) = Cert.Spec.dstW (a1 m c) e := by
  refine (congrFun (after0_v6 (V0 m c)) (ix1 e)).trans ?_
  unfold Cert.Spec.dstW
  by_cases h : e.val < 1600000
  · rw [dif_pos h]
    rw [concatenate_pair_apply_left (t := S1700000) (s₁ := S1600000) (s₂ := S100000) (0 : Fin 1) _ _
      concatenates_S1600000_S100000_S1700000_d0 (ix1 e) rfl
      (ix1 (⟨e.val, h⟩ : Fin 1600000)) (fun b => by match b with | ⟨0, _⟩ => rfl)]
    rw [shapeCast_apply _ shapeCasts_S1x1600000_S1600000 (ix1 (⟨e.val, h⟩ : Fin 1600000)) (ix2 (0 : Fin 1) (⟨e.val, h⟩ : Fin 1600000))
      (by
        show ((⟨2, ![1, 1600000]⟩ : Shape).rowMajor (ix2 (0 : Fin 1) (⟨e.val, h⟩ : Fin 1600000))).val
          = ((⟨1, ![1600000]⟩ : Shape).rowMajor (ix1 (⟨e.val, h⟩ : Fin 1600000))).val
        rw [Shape.rowMajor_val_two, Shape.rowMajor_val_one]
        show 0 * 1600000 + e.val = e.val
        omega)]
    exact extractStridedSlice_apply _ _ _ _ (ix2 (1 : Fin 2) (⟨e.val, h⟩ : Fin 1600000)) (fun a => by
      match a with
      | ⟨0, _⟩ => rfl
      | ⟨1, _⟩ => exact (Nat.zero_add _).symm)
  · rw [dif_neg h]
    have he := e.isLt
    rw [concatenate_pair_apply_right (t := S1700000) (s₁ := S1600000) (s₂ := S100000) (0 : Fin 1) _ _
      concatenates_S1600000_S100000_S1700000_d0 (ix1 e) rfl rfl
      (ix1 (⟨e.val - 1600000, by omega⟩ : Fin 100000)) (fun b hb => absurd (Subsingleton.elim _ _) hb)
      (by show e.val - 1600000 + 1600000 = e.val; omega)]
    rfl

/-- The column of destinations the scatter takes is the graph's. -/
theorem v9_eq : broadcastInDim S1700000x1 ![0] bcast_S1700000_S1700000x1_0 (V1 m c main_v6 : IV S1700000) = (gC m c).d := by
  funext j
  rw [broadcastInDim_apply _ _ _ j (ix1 (⟨(j 0).val, (j 0).isLt⟩ : Fin 1700000)) (fun a => by
    match a with
    | ⟨0, _⟩ =>
      show (j 0).val = if (1700000 : ℕ) = 1 then 0 else (j 0).val
      rw [if_neg (by decide)])]
  exact v6_at m c ⟨(j 0).val, (j 0).isLt⟩

/-! ## The in-degree and its guarded reciprocal square root -/

/-- A scatter-add of a vector at a column of positions: position `n` gains every update whose word reads signed as `n`. -/
theorem scat1 (x : (⟨1, ![100000]⟩ : Shape).Idx → EReal) (idx : IVec ⟨2, ![1700000, 1]⟩ 32)
    (upd : (⟨1, ![1700000]⟩ : Shape).Idx → EReal) (n : Fin 100000) :
    Host.scatterAdd (F := Ideal) (φ := .f32) scatter_S100000_S1700000x1_S1700000_n_0_0_1 x idx upd (ix1 n)
      = x (ix1 n) + ∑ e ∈ Finset.univ.filter (fun e : Fin 1700000 => lands idx e n.val), upd (ix1 e) :=
  scatterAdd_row1 _ rfl rfl rfl rfl x idx upd n

/-- The in-degree at a node: a one per landing edge. -/
theorem v10_at (n : Fin 100000) : (V1 m c main_v10 : FV S100000) (ix1 n) = Cert.Spec.deg (gC m c) n := by
  refine (congrFun (after0_v10 (V0 m c)) (ix1 n)).trans ?_
  rw [scat1]
  rw [show (broadcastInDim S1700000x1 ![0] bcast_S1700000_S1700000x1_0 (StableHlo.after hostOps0 (V0 m c) (Proc.devRef .tc main_v6) : IV S1700000)) = (gC m c).d from v9_eq m c]
  rfl

/-- The guard: the select on a comparison against the cleared word is the case split of the mathematics. -/
theorem dinv_sel (d : EReal) :
    Scalar.select (FloatOps.cmpf (F := Ideal) (φ := .f32) .ogt d Cert.Spec.zero)
        (FloatOps.hostUnary (F := Ideal) (φ := .f32) .rsqrt (FloatOps.maximumf (F := Ideal) (φ := .f32) d Cert.Spec.eps)) Cert.Spec.zero
      = if Cert.Spec.zero < d then Ideal.rsqrt (max d Cert.Spec.eps) else Cert.Spec.zero := by
  show (if BitVec.ofBool (decide (Cert.Spec.zero < d)) = 1 then Ideal.rsqrt (max d Cert.Spec.eps) else Cert.Spec.zero) = _
  by_cases h : Cert.Spec.zero < d
  · rw [if_pos h, decide_eq_true h, if_pos (by decide)]
  · rw [if_neg h, decide_eq_false h, if_neg (by decide)]

/-! ## The later stretches, from any contents -/

/-- The middle stretch selects, where the in-degree is positive, the reciprocal square root, elsewhere the cleared word. -/
theorem after1_v16 (W : Val0) : (StableHlo.after hostOps0_1 W (Proc.devRef .tc main_v16) : FV S100000)
    = select (W (Proc.devRef .tc main_v12) : (⟨S100000, .i1⟩ : BufTy).Contents (Elt Ideal)) (W (Proc.devRef .tc main_v15) : FV S100000)
        (broadcastInDim S100000 ![] bcast_S_S100000 (W (Proc.devRef .tc main_cst_3) : FV S_)) := by
  after_results
  simp only [TRef.ofBuf, TRef.toBuf, cast_eq]
  rfl

/-- The last stretch broadcasts the vector of factors to a column. -/
theorem after2_v17 (W : Val0) : (StableHlo.after hostOps0_2 W (Proc.devRef .tc main_v17) : FV S100000x1)
    = broadcastInDim S100000x1 ![0] bcast_S100000_S100000x1_0 (W (Proc.devRef .tc main_v16) : FV S100000) := by
  after_results

/-- The vector of factors, over the in-degree the first stretch leaves. -/
theorem v16_eq : (V2 m c main_v16 : FV S100000)
    = select
        (cmpf (F := Ideal) (φ := .f32) (s := S100000) .ogt (V1 m c main_v10 : FV S100000)
          (broadcastInDim S100000 ![] bcast_S_S100000 (constant (F := Ideal) S_ .f32 0x00000000#32)))
        (Host.rsqrt (F := Ideal) (φ := .f32) (s := S100000) (maximumf (F := Ideal) (φ := .f32) (s := S100000) (V1 m c main_v10 : FV S100000)
          (broadcastInDim S100000 ![] bcast_S_S100000 (constant (F := Ideal) S_ .f32 0x2B8CBCCC#32))))
        (broadcastInDim S100000 ![] bcast_S_S100000 (constant (F := Ideal) S_ .f32 0x00000000#32)) :=
  (after1_v16 (V1 m c)).trans
    (congr (congr (congrArg select (after0_v12 (V0 m c))) (after0_v15 (V0 m c)))
      (congrArg (broadcastInDim S100000 ![] bcast_S_S100000) (after0_cst3 (V0 m c))))

/-- The guarded factor of any vector of in-degrees, read at a node. -/
theorem sel_read (x : FV S100000) (n : Fin 100000) :
    select
        (cmpf (F := Ideal) (φ := .f32) (s := S100000) .ogt x
          (broadcastInDim S100000 ![] bcast_S_S100000 (constant (F := Ideal) S_ .f32 0x00000000#32)))
        (Host.rsqrt (F := Ideal) (φ := .f32) (s := S100000) (maximumf (F := Ideal) (φ := .f32) (s := S100000) x
          (broadcastInDim S100000 ![] bcast_S_S100000 (constant (F := Ideal) S_ .f32 0x2B8CBCCC#32))))
        (broadcastInDim S100000 ![] bcast_S_S100000 (constant (F := Ideal) S_ .f32 0x00000000#32)) (ix1 n)
      = Scalar.select (FloatOps.cmpf (F := Ideal) (φ := .f32) .ogt (x (ix1 n)) Cert.Spec.zero)
          (FloatOps.hostUnary (F := Ideal) (φ := .f32) .rsqrt (FloatOps.maximumf (F := Ideal) (φ := .f32) (x (ix1 n)) Cert.Spec.eps))
          Cert.Spec.zero := rfl

/-- The column of factors the three calls read is the graph's D^(-1/2). -/
theorem dinv_col (n : Fin 100000) : (V3 m c main_v17) (ix2 n (0 : Fin 1)) = Cert.Spec.dinv (gC m c) n := by
  refine (congrFun (after2_v17 (V2 m c)) (ix2 n (0 : Fin 1))).trans ?_
  refine (broadcastInDim_apply _ _ _ _ (ix1 n) (fun a => by
    match a with
    | ⟨0, _⟩ =>
      show n.val = if (100000 : ℕ) = 1 then 0 else n.val
      rw [if_neg (by decide)])).trans ?_
  refine (congrFun (v16_eq m c) (ix1 n)).trans ?_
  refine (sel_read (V1 m c main_v10) n).trans ?_
  refine (congrArg (fun d : EReal => Scalar.select (FloatOps.cmpf (F := Ideal) (φ := .f32) .ogt d Cert.Spec.zero)
      (FloatOps.hostUnary (F := Ideal) (φ := .f32) .rsqrt (FloatOps.maximumf (F := Ideal) (φ := .f32) d Cert.Spec.eps)) Cert.Spec.zero)
    (v10_at m c n)).trans ?_
  exact dinv_sel _

/-- The biases as rows, the graph numbers as a column, the arguments as launched. -/
theorem bias1_row (k : Fin 128) : (V3 m c main_v18) (ix2 (0 : Fin 1) k) = a4 m c (ix1 k) := by
  show StableHlo.after hostOps0_2 (V2 m c) (Proc.devRef .tc main_v18) (ix2 (0 : Fin 1) k) = _
  after_results
  show shapeCast S1x128 (a4 m c) shapeCasts_S128_S1x128 (ix2 (0 : Fin 1) k) = a4 m c (ix1 k)
  refine shapeCast_apply _ _ _ _ ?_
  rw [Shape.rowMajor_val_one]
  show k.val = ((⟨2, ![1, 128]⟩ : Shape).rowMajor (ix2 (0 : Fin 1) k)).val
  rw [Shape.rowMajor_val_two]
  show k.val = 0 * 128 + k.val
  omega
theorem bias2_row (k : Fin 128) : (V3 m c main_v19) (ix2 (0 : Fin 1) k) = a6 m c (ix1 k) := by
  show StableHlo.after hostOps0_2 (V2 m c) (Proc.devRef .tc main_v19) (ix2 (0 : Fin 1) k) = _
  after_results
  show shapeCast S1x128 (a6 m c) shapeCasts_S128_S1x128 (ix2 (0 : Fin 1) k) = a6 m c (ix1 k)
  refine shapeCast_apply _ _ _ _ ?_
  rw [Shape.rowMajor_val_one]
  show k.val = ((⟨2, ![1, 128]⟩ : Shape).rowMajor (ix2 (0 : Fin 1) k)).val
  rw [Shape.rowMajor_val_two]
  show k.val = 0 * 128 + k.val
  omega
theorem batch_col (n : Fin 100000) : (V3 m c main_v20) (ix2 n (0 : Fin 1)) = a2 m c (ix1 n) := by
  show StableHlo.after hostOps0_2 (V2 m c) (Proc.devRef .tc main_v20) (ix2 n (0 : Fin 1)) = _
  after_results
  refine broadcastInDim_apply _ _ _ _ (ix1 n) fun a => ?_
  match a with
  | ⟨0, _⟩ =>
    show n.val = if (100000 : ℕ) = 1 then 0 else n.val
    rw [if_neg (by decide)]
theorem V3_arg0 : V3 m c main_arg0 = a0 m c :=
  (V3_of m c main_arg0 (by decide)).trans <| (V2_of m c main_arg0 (by decide)).trans <| (V1_of m c main_arg0 (by decide)).trans rfl
theorem V3_arg3 : V3 m c main_arg3 = a3 m c :=
  (V3_of m c main_arg3 (by decide)).trans <| (V2_of m c main_arg3 (by decide)).trans <| (V1_of m c main_arg3 (by decide)).trans rfl

/-- What the later items leave alone. -/
theorem V5_v17 : V5 m outs c main_v17 = V3 m c main_v17 :=
  (V5_of m outs c main_v17 (by decide)).trans (V4_of m outs c main_v17 (by decide))
theorem V5_v18 : V5 m outs c main_v18 = V3 m c main_v18 :=
  (V5_of m outs c main_v18 (by decide)).trans (V4_of m outs c main_v18 (by decide))
theorem V5_arg5 : V5 m outs c main_arg5 = a5 m c :=
  (V5_of m outs c main_arg5 (by decide)).trans <| (V4_of m outs c main_arg5 (by decide)).trans <|
    (V3_of m c main_arg5 (by decide)).trans <| (V2_of m c main_arg5 (by decide)).trans <| (V1_of m c main_arg5 (by decide)).trans rfl
theorem V7_v17 : V7 m outs c main_v17 = V3 m c main_v17 :=
  (V7_of m outs c main_v17 (by decide)).trans <| (V6_of m outs c main_v17 (by decide)).trans <|
    (V5_of m outs c main_v17 (by decide)).trans (V4_of m outs c main_v17 (by decide))
theorem V7_v19 : V7 m outs c main_v19 = V3 m c main_v19 :=
  (V7_of m outs c main_v19 (by decide)).trans <| (V6_of m outs c main_v19 (by decide)).trans <|
    (V5_of m outs c main_v19 (by decide)).trans (V4_of m outs c main_v19 (by decide))
theorem V7_v20 : V7 m outs c main_v20 = V3 m c main_v20 :=
  (V7_of m outs c main_v20 (by decide)).trans <| (V6_of m outs c main_v20 (by decide)).trans <|
    (V5_of m outs c main_v20 (by decide)).trans (V4_of m outs c main_v20 (by decide))

end Cert.KernelIdeal.HandValue

end
-- ==== Proof.KI.Host1.lean ====
/-
  THE HOST STRETCHES BETWEEN AND AFTER THE PALLAS CALLS, READ AT AN INDEX. Between two calls: the previous call's
  output rows are gathered at the wrapped, clamped source of every edge and scatter-added at the destination column:
  node n receives the rows of the sources of the edges that land on it. After the last call: the two halves are added,
  multiplied by the last weight matrix, and the last bias is added.
-/
import proofs.«420629_j61529701482954_2_alg».proof.Proof.Raw
import proofs.«420629_j61529701482954_2_alg».proof.Proof.Gen.KernelIdeal.Regions
import proofs.«420629_j61529701482954_2_alg».proof.Proof.KI.Args
import proofs.«420629_j61529701482954_2_alg».proof.Proof.Spec
import proofs.«420629_j61529701482954_2_alg».proof.Proof.LibGatherScatter
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Group.Finset.Defs
import Mathlib.Algebra.BigOperators.Group.Finset.Basic

set_option maxRecDepth 16384

open scoped BigOperators

noncomputable section

namespace Cert.KernelIdeal.HandValue

open Cert.KernelIdeal Cert.KernelIdeal.Gen
open Idealize.ShloMosaic Idealize.ShloMosaic.TcCoe Idealize.ShloMosaic.ValueIdx Idealize.ShloMosaic.StableHlo Idealize.ShloMosaic.RowOps Idealize.SL.Sem

variable (m : (ℓ : Loc nD τ sig) → Buf (Elt Ideal) ℓ) (outs : Outs (F := Ideal)) (c : Dev nD)

open Idealize.ShloMosaic.StableHlo.Predicate

/-! ## The edge columns -/

/-- Row `r` of the edge array, then the node numbers, at position `e`. -/
theorem join_at (x : IVec S2x1600000 32) (r : Fin 2) (off : Fin 2 → Nat) (hoff : off = ![r.val, 0])
    (hs : S2x1600000.Slices off S1x1600000) (e : Fin 1700000) :
    concatenate S1700000 0 [⟨S1600000, shapeCast S1600000 (extractStridedSlice S1x1600000 off x hs) shapeCasts_S1x1600000_S1600000⟩,
        ⟨S100000, iotaInDim S100000 32 0⟩] concatenates_S1600000_S100000_S1700000_d0 (ix1 e)
      = if h : e.val < 1600000 then x (ix2 r (⟨e.val, h⟩ : Fin 1600000)) else BitVec.ofNat 32 (e.val - 1600000) := by
  subst hoff
  by_cases h : e.val < 1600000
  · rw [dif_pos h]
    rw [concatenate_pair_apply_left (t := S1700000) (s₁ := S1600000) (s₂ := S100000) (0 : Fin 1) _ _
      concatenates_S1600000_S100000_S1700000_d0 (ix1 e) rfl (ix1 (⟨e.val, h⟩ : Fin 1600000)) (fun b => by match b with | ⟨0, _⟩ => rfl)]
    rw [shapeCast_apply _ shapeCasts_S1x1600000_S1600000 (ix1 (⟨e.val, h⟩ : Fin 1600000)) (ix2 (0 : Fin 1) (⟨e.val, h⟩ : Fin 1600000))
      (by rewrite [Shape.rowMajor_val_two, Shape.rowMajor_val_one]; show 0 * 1600000 + e.val = e.val; omega)]
    exact extractStridedSlice_apply _ x hs (ix2 (0 : Fin 1) (⟨e.val, h⟩ : Fin 1600000)) (ix2 r (⟨e.val, h⟩ : Fin 1600000)) (fun a => match a with
      | ⟨0, _⟩ => by show r.val = r.val + 0; omega
      | ⟨1, _⟩ => by show e.val = 0 + e.val; omega)
  · rw [dif_neg h]
    have he := e.isLt
    rw [concatenate_pair_apply_right (t := S1700000) (s₁ := S1600000) (s₂ := S100000) (0 : Fin 1) _ _
      concatenates_S1600000_S100000_S1700000_d0 (ix1 e) rfl rfl (ix1 (⟨e.val - 1600000, by omega⟩ : Fin 100000))
      (fun b hb => absurd (Subsingleton.elim _ _) hb) (by show e.val - 1600000 + 1600000 = e.val; omega)]
    rfl

/-- The joined source words the first stretch writes: the given edges' row 0, then the node numbers. -/
theorem V1_v3_at (e : Fin 1700000) : V1 m c main_v3 (ix1 e) = Cert.Spec.srcW (a1 m c) e := by
  show StableHlo.after hostOps0 (V0 m c) (Proc.devRef .tc main_v3) (ix1 e) = _
  after_results
  exact join_at (a1 m c) (0 : Fin 2) ![0, 0] rfl slices_S2x1600000_S1x1600000_0_0 e

/-- The joined destination words: the given edges' row 1, then the node numbers. -/
theorem V1_v6_at (e : Fin 1700000) : V1 m c main_v6 (ix1 e) = Cert.Spec.dstW (a1 m c) e := by
  show StableHlo.after hostOps0 (V0 m c) (Proc.devRef .tc main_v6) (ix1 e) = _
  after_results
  exact join_at (a1 m c) (1 : Fin 2) ![1, 0] rfl slices_S2x1600000_S1x1600000_1_0 e

/-! ## The index columns -/

/-- The select of a signed comparison against zero is the wrap of a negative word. -/
theorem wrap_sel (w : BitVec 32) :
    Scalar.select (IntOp.cmpi .slt w 0#32) (IntOp.addi w 100000#32) w = Cert.Spec.wrap w := by
  unfold Cert.Spec.wrap Scalar.select IntOp.cmpi IntOp.addi
  cases h : w.slt 0#32 <;> simp

/-- A vector as an [n × 1] column is the column of its entries. -/
theorem col_eq (v : IVec S1700000 32) :
    broadcastInDim S1700000x1 ![0] bcast_S1700000_S1700000x1_0 v = Cert.Spec.colOf (fun e => v (ix1 e)) := by
  funext j
  exact broadcastInDim_apply _ bcast_S1700000_S1700000x1_0 v j (ix1 (⟨(j 0).val, (j 0).isLt⟩ : Fin 1700000)) (fun a => match a with
    | ⟨0, _⟩ => by show (j 0).val = if (1700000 : Nat) = 1 then 0 else (j 0).val; rw [if_neg (by decide)])

/-- The column of a vector's words, each negative one wrapped by the node count. -/
theorem wrap_col (v : IVec S1700000 32) :
    broadcastInDim S1700000x1 ![0] bcast_S1700000_S1700000x1_0
        (select (cmpi .slt v (broadcastInDim S1700000 ![] bcast_S_S1700000 (constantI S_ 32 0#32)))
          (addi v (broadcastInDim S1700000 ![] bcast_S_S1700000 (constantI S_ 32 100000#32))) v)
      = Cert.Spec.colOf (fun e => Cert.Spec.wrap (v (ix1 e))) := by
  rw [col_eq]
  refine congrArg Cert.Spec.colOf (funext fun e => ?_)
  exact wrap_sel _

/-! ## The gather and the scatter-add of this program, read at an index -/

theorem gath2 (x : (⟨2, ![100000, 128]⟩ : Shape).Idx → EReal) (idx : IVec ⟨2, ![1700000, 1]⟩ 32) (e : Fin 1700000)
    (h : Fin 128) :
    Host.gather gather_S100000x128_S1700000x1_S1700000x128_1_0_n_n_0_1_1128 x idx (ix2 e h)
      = x (ix2 (clampRow 100000 (by decide) idx e) h) :=
  gather_rows _ rfl rfl rfl rfl rfl rfl x idx e h (by decide)

theorem scat2 (x : (⟨2, ![100000, 128]⟩ : Shape).Idx → EReal) (idx : IVec ⟨2, ![1700000, 1]⟩ 32)
    (upd : (⟨2, ![1700000, 128]⟩ : Shape).Idx → EReal) (n : Fin 100000) (h : Fin 128) :
    Host.scatterAdd (F := Ideal) (φ := .f32) scatter_S100000x128_S1700000x1_S1700000x128_1_0_0_1 x idx upd (ix2 n h)
      = x (ix2 n h) + ∑ e ∈ Finset.univ.filter (fun e : Fin 1700000 => lands idx e n.val), upd (ix2 e h) :=
  scatterAdd_rows _ rfl rfl rfl rfl x idx upd n h

/-- One aggregation: the rows of `y` gathered at the wrapped, clamped sources and scatter-added at the destinations
    give, at node `n`, the sum over the edges landing on `n` of the rows of their sources. -/
theorem agg_apply (y : (⟨2, ![100000, 128]⟩ : Shape).Idx → EReal) (v3 v6 : IVec S1700000 32)
    (h3 : ∀ e, v3 (ix1 e) = Cert.Spec.srcW (a1 m c) e) (h6 : ∀ e, v6 (ix1 e) = Cert.Spec.dstW (a1 m c) e)
    (n : Fin 100000) (h : Fin 128) :
    Host.scatterAdd (F := Ideal) (φ := .f32) scatter_S100000x128_S1700000x1_S1700000x128_1_0_0_1
        (broadcastInDim S100000x128 ![] bcast_S_S100000x128 (constant S_ .f32 0x00000000#32))
        (broadcastInDim S1700000x1 ![0] bcast_S1700000_S1700000x1_0 v6)
        (Host.gather gather_S100000x128_S1700000x1_S1700000x128_1_0_n_n_0_1_1128 y
          (broadcastInDim S1700000x1 ![0] bcast_S1700000_S1700000x1_0
            (select (cmpi .slt v3 (broadcastInDim S1700000 ![] bcast_S_S1700000 (constantI S_ 32 0#32)))
              (addi v3 (broadcastInDim S1700000 ![] bcast_S_S1700000 (constantI S_ 32 100000#32))) v3)))
        (ix2 n h)
      = Cert.Spec.zero + ∑ e ∈ Cert.Spec.inE (gC m c) n, y (ix2 (Cert.Spec.srcRow (gC m c) e) h) := by
  have hs : Cert.Spec.colOf (fun e => Cert.Spec.wrap (v3 (ix1 e))) = (gC m c).s := by
    show _ = Cert.Spec.colOf (fun e => Cert.Spec.wrap (Cert.Spec.srcW (a1 m c) e))
    refine congrArg Cert.Spec.colOf (funext fun e => ?_)
    rw [h3]
  have hd : Cert.Spec.colOf (fun e => v6 (ix1 e)) = (gC m c).d := by
    show _ = Cert.Spec.colOf (Cert.Spec.dstW (a1 m c))
    exact congrArg Cert.Spec.colOf (funext fun e => h6 e)
  rw [scat2, wrap_col, col_eq, hs, hd]
  unfold Cert.Spec.inE
  refine congrArg₂ (· + ·) rfl (Finset.sum_congr rfl fun e _ => ?_)
  exact gath2 y _ e h

/-! ## What the two stretches read of what came before -/

theorem V4_v21 : V4 m outs c main_v21 = o21 outs c := by
  show Function.update (V3 m c) (Proc.devRef .tc main_v21) (outs 4 main_v21 c) (Proc.devRef .tc main_v21) = _
  rw [Function.update_self]
theorem V6_v32 : V6 m outs c main_v32 = o32 outs c := by
  show Function.update (V5 m outs c) (Proc.devRef .tc main_v32) (outs 6 main_v32 c) (Proc.devRef .tc main_v32) = _
  rw [Function.update_self]
theorem V4_v3_at (e : Fin 1700000) : V4 m outs c main_v3 (ix1 e) = Cert.Spec.srcW (a1 m c) e := by
  rw [V4_of m outs c main_v3 (by decide), V3_of m c main_v3 (by decide), V2_of m c main_v3 (by decide)]
  exact V1_v3_at m c e
theorem V4_v6_at (e : Fin 1700000) : V4 m outs c main_v6 (ix1 e) = Cert.Spec.dstW (a1 m c) e := by
  rw [V4_of m outs c main_v6 (by decide), V3_of m c main_v6 (by decide), V2_of m c main_v6 (by decide)]
  exact V1_v6_at m c e
theorem V6_v3_at (e : Fin 1700000) : V6 m outs c main_v3 (ix1 e) = Cert.Spec.srcW (a1 m c) e := by
  rw [V6_of m outs c main_v3 (by decide), V5_of m outs c main_v3 (by decide)]
  exact V4_v3_at m outs c e
theorem V6_v6_at (e : Fin 1700000) : V6 m outs c main_v6 (ix1 e) = Cert.Spec.dstW (a1 m c) e := by
  rw [V6_of m outs c main_v6 (by decide), V5_of m outs c main_v6 (by decide)]
  exact V4_v6_at m outs c e

/-! ## The two aggregations -/

/-- The second call's first operand: the first call's output rows summed over the landing edges' sources. -/
theorem agg1 (n : Fin 100000) (h : Fin 128) :
    (V5 m outs c main_v31) (ix2 n h)
      = Cert.Spec.zero + ∑ e ∈ Cert.Spec.inE (gC m c) n, o21 outs c (ix2 (Cert.Spec.srcRow (gC m c) e) h) := by
  show StableHlo.after hostOps1 (V4 m outs c) (Proc.devRef .tc main_v31) (ix2 n h) = _
  after_results
  rw [V4_v21]
  exact agg_apply m c (o21 outs c) _ _ (V4_v3_at m outs c) (V4_v6_at m outs c) n h

/-- The third call's second operand: the same of the second call's output rows. -/
theorem agg2 (n : Fin 100000) (h : Fin 128) :
    (V7 m outs c main_v42) (ix2 n h)
      = Cert.Spec.zero + ∑ e ∈ Cert.Spec.inE (gC m c) n, o32 outs c (ix2 (Cert.Spec.srcRow (gC m c) e) h) := by
  show StableHlo.after hostOps2 (V6 m outs c) (Proc.devRef .tc main_v42) (ix2 n h) = _
  after_results
  rw [V6_v32]
  exact agg_apply m c (o32 outs c) _ _ (V6_v3_at m outs c) (V6_v6_at m outs c) n h

/-! ## What the stretches read of what came before -/

/-- The third call's output array after the call. -/
theorem V8_v43 : V8 m outs c main_v43 = o43 outs c := by
  show Function.update (V7 m outs c) (Proc.devRef .tc main_v43) (outs 8 main_v43 c) (Proc.devRef .tc main_v43) = _
  rw [Function.update_self]
/-- The last weight matrix and the last bias are the launch arrays. -/
theorem V8_arg7 : V8 m outs c main_arg7 = a7 m c :=
  (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m c main_arg7 (by decide)).trans <| (V2_of m c main_arg7 (by decide)).trans <| (V1_of m c main_arg7 (by decide)).trans rfl
theorem V8_arg8 : V8 m outs c main_arg8 = a8 m c :=
  (V8_of m outs c main_arg8 (by decide)).trans <| (V7_of m outs c main_arg8 (by decide)).trans <| (V6_of m outs c main_arg8 (by decide)).trans <| (V5_of m outs c main_arg8 (by decide)).trans <| (V4_of m outs c main_arg8 (by decide)).trans <| (V3_of m c main_arg8 (by decide)).trans <| (V2_of m c main_arg8 (by decide)).trans <| (V1_of m c main_arg8 (by decide)).trans rfl

/-! ## The last stretch -/

/-- Half `cc` of a [2 × 512 × 128] array, its unit axis dropped, at (g, h). -/
theorem half_apply (x : FVec Ideal S2x512x128 .f32) (cc : Fin 2) (off : Fin 3 → Nat)
    (hoff : off = ![cc.val, 0, 0]) (hs : S2x512x128.Slices off S1x512x128) (g : Fin 512) (h : Fin 128) :
    shapeCast S512x128 (extractStridedSlice S1x512x128 off x hs) shapeCasts_S1x512x128_S512x128 (ix2 g h)
      = x (ix3 cc g h) := by
  subst hoff
  rw [shapeCast_apply _ shapeCasts_S1x512x128_S512x128 (ix2 g h) (ix3 (0 : Fin 1) g h)
    (by rewrite [Shape.rowMajor_val_two, Shape.rowMajor_val_three]; show (0 * 512 + g.val) * 128 + h.val = g.val * 128 + h.val; omega)]
  exact extractStridedSlice_apply _ x hs (ix3 (0 : Fin 1) g h) (ix3 cc g h) (fun a => match a with
    | ⟨0, _⟩ => by show cc.val = cc.val + 0; omega
    | ⟨1, _⟩ => by show g.val = 0 + g.val; omega
    | ⟨2, _⟩ => by show h.val = 0 + h.val; omega)

/-- The projection at (g, o): the sum over the contracted axis. -/
theorem proj_apply (y : FVec Ideal S512x128 .f32) (w : FVec Ideal S128x64 .f32) (g : Fin 512) (o : Fin 64) :
    Host.dotGeneral (F := Ideal) dot_S512x128_S128x64_S512x64_1_0_0_1_n_n none y w (ix2 g o) = ∑ k : Fin 128, y (ix2 g k) * w (ix2 k o) := by
  simp only [Host.dotGeneral]
  rw [Ideal.dotGeneral_apply, ← Equiv.sum_comp (ValueIdx.contrEquiv1 dot_S512x128_S128x64_S512x64_1_0_0_1_n_n 128 rfl rfl).symm]
  refine Finset.sum_congr rfl fun k _ => ?_
  have hk := ValueIdx.contrEquiv1_symm_val dot_S512x128_S128x64_S512x64_1_0_0_1_n_n 128 rfl rfl k
  have l0 : ∀ q, (dot_S512x128_S128x64_S512x64_1_0_0_1_n_n.lhsIdx (ix2 g o) q 0).val = g.val := fun q => by
    unfold DotDims.lhsIdx
    rw [dif_neg (show ¬(0 : Fin S512x128.rank) ∈ dot_S512x128_S128x64_S512x64_1_0_0_1_n_n.lhsBatch by decide), dif_pos (show (0 : Fin S512x128.rank) ∈ dot_S512x128_S128x64_S512x64_1_0_0_1_n_n.lhsNonContracting by decide)]
    rfl
  have r1 : ∀ q, (dot_S512x128_S128x64_S512x64_1_0_0_1_n_n.rhsIdx (ix2 g o) q 1).val = o.val := fun q => by
    unfold DotDims.rhsIdx
    rw [dif_neg (show ¬(1 : Fin S128x64.rank) ∈ dot_S512x128_S128x64_S512x64_1_0_0_1_n_n.rhsBatch by decide), dif_pos (show (1 : Fin S128x64.rank) ∈ dot_S512x128_S128x64_S512x64_1_0_0_1_n_n.rhsNonContracting by decide)]
    rfl
  have el : dot_S512x128_S128x64_S512x64_1_0_0_1_n_n.lhsIdx (ix2 g o) ((ValueIdx.contrEquiv1 dot_S512x128_S128x64_S512x64_1_0_0_1_n_n 128 rfl rfl).symm k) = ix2 g k := funext fun a => Fin.ext (by
    match a with
    | ⟨0, _⟩ => exact l0 _
    | ⟨1, _⟩ => exact (dot_S512x128_S128x64_S512x64_1_0_0_1_n_n.lhsIdx_val_of_single rfl (ix2 g o) _).trans hk)
  have er : dot_S512x128_S128x64_S512x64_1_0_0_1_n_n.rhsIdx (ix2 g o) ((ValueIdx.contrEquiv1 dot_S512x128_S128x64_S512x64_1_0_0_1_n_n 128 rfl rfl).symm k) = ix2 k o := funext fun a => Fin.ext (by
    match a with
    | ⟨0, _⟩ => exact (dot_S512x128_S128x64_S512x64_1_0_0_1_n_n.rhsIdx_val_of_single rfl (ix2 g o) _).trans hk
    | ⟨1, _⟩ => exact r1 _)
  rw [el, er]

/-- The bias laid along the rows reads, at (g, o), the bias at `o`. -/
theorem bias_apply (b : FVec Ideal S64 .f32) (g : Fin 512) (o : Fin 64) :
    broadcastInDim S512x64 ![0, 1] bcast_S1x64_S512x64_0_1 (broadcastInDim S1x64 ![1] bcast_S64_S1x64_1 b) (ix2 g o) = b (ix1 o) := by
  rw [broadcastInDim_apply _ bcast_S1x64_S512x64_0_1 _ (ix2 g o) (ix2 (0 : Fin 1) o) (fun a => match a with
    | ⟨0, _⟩ => by show 0 = if (1 : Nat) = 1 then 0 else g.val; rw [if_pos rfl]
    | ⟨1, _⟩ => by show o.val = if (64 : Nat) = 1 then 0 else o.val; rw [if_neg (by decide)])]
  exact broadcastInDim_apply _ bcast_S64_S1x64_1 b (ix2 (0 : Fin 1) o) (ix1 o) (fun a => match a with
    | ⟨0, _⟩ => by show o.val = if (64 : Nat) = 1 then 0 else o.val; rw [if_neg (by decide)])

/-- The result: the two halves of the third call's output added, projected, biased. -/
theorem result (g : Fin 512) (o : Fin 64) :
    (V9 m outs c main_v52) (ix2 g o)
      = (∑ h : Fin 128, (o43 outs c (ix3 (0 : Fin 2) g h) + o43 outs c (ix3 (1 : Fin 2) g h)) * a7 m c (ix2 h o))
          + a8 m c (ix1 o) := by
  show StableHlo.after hostOps3 (V8 m outs c) (Proc.devRef .tc main_v52) (ix2 g o) = _
  after_results
  rw [V8_v43, V8_arg7, V8_arg8, addf_apply, proj_apply, bias_apply]
  congr 1
  refine Finset.sum_congr rfl fun h _ => ?_
  rw [addf_apply]
  show (shapeCast S512x128 (extractStridedSlice S1x512x128 ![0, 0, 0] (o43 outs c) slices_S2x512x128_S1x512x128_0_0_0) shapeCasts_S1x512x128_S512x128 (ix2 g h)
      + shapeCast S512x128 (extractStridedSlice S1x512x128 ![1, 0, 0] (o43 outs c) slices_S2x512x128_S1x512x128_1_0_0) shapeCasts_S1x512x128_S512x128 (ix2 g h)) * a7 m c (ix2 h o) = _
  rw [half_apply (o43 outs c) (0 : Fin 2) ![0, 0, 0] rfl, half_apply (o43 outs c) (1 : Fin 2) ![1, 0, 0] rfl]

end Cert.KernelIdeal.HandValue

end
-- ==== Proof.KI.Val01.lean ====
/-
  WHAT THE FIRST TWO PALLAS CALLS LEAVE IN THEIR OUTPUT ARRAYS, INDEX BY INDEX, OVER THE EXTENDED REALS. Each of the 20
  grid points writes back one block of 5000 rows; the blocks tile the array, so row n of the array is row n mod 5000 of
  what point n / 5000 stored: the row's product with the weight matrix (a sum over the contracted axis: the format
  changes are the identity and the accumulator starts at zero), scaled by the row's factor — for the second call the
  row first scaled by its factor, biased and rectified.
-/
import proofs.«420629_j61529701482954_2_alg».proof.Proof.Raw
import proofs.«420629_j61529701482954_2_alg».proof.Proof.KI.Reg0
import proofs.«420629_j61529701482954_2_alg».proof.Proof.KI.Reg1
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

/-! ## The layout and the product at an index -/

/-- A column [a,1] broadcast over [a,b] reads, at (p, c), the column's entry at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of a block of rows with the matrix, at an index -/

theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's product with the matrix into a cleared accumulator: entry (p, q) is the sum over the contracted axis. -/
theorem mm_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- The first call's stored block at (p, q): row p of the rows' block times column q of the matrix, scaled by factor p. -/
theorem pay0_apply (x0 : Vec Ideal S5000x128 .f32) (x1 : Vec Ideal S128x128 .f32) (x2 : Vec Ideal S5000x1 .f32) (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  rw [mulf_apply, mm_apply, shapeCast_self, shapeCast_self, broadcastTo_a1_ab_apply]
  rfl

/-- The second call's stored block at (p, q): row p scaled by its factor, biased and rectified, times column q of the
    matrix, scaled by factor p again. -/
theorem pay1_apply (x0 : Vec Ideal S5000x128 .f32) (x1 : Vec Ideal S5000x1 .f32) (x2 : Vec Ideal S1x128 .f32) (x3 : Vec Ideal S128x128 .f32)
    (p : Fin 5000) (q : Fin 128) :
    k1_pay1 (F := Ideal) x0 x1 x2 x3 (ix2 p q)
      = (∑ k : Fin 128, max (x1 (ix2 p (0 : Fin 1)) * x0 (ix2 p k) + x2 (ix2 (0 : Fin 1) k)) (Ideal.ofBits .f32 0x00000000#32) * x3 (ix2 k q))
          * x1 (ix2 p (0 : Fin 1)) := by
  unfold k1_pay1
  rw [mulf_apply, mm_apply, shapeCast_self, shapeCast_self, shapeCast_self, shapeCast_self, broadcastTo_a1_ab_apply]
  refine congrArg (· * x1 (ix2 p (0 : Fin 1))) (Finset.sum_congr rfl fun k _ => ?_)
  rw [truncf_apply, truncf_apply, maximumf_apply, addf_apply, mulf_apply, broadcast_apply, broadcastTo_a1_ab_apply, broadcastTo_1b_ab_apply]
  rfl

variable (V : (c : Dev nD) → (b : Ref sig .tc) → Buf (Elt Ideal) ((c : Thread nD τ).loc b))

theorem hz : (![0, 0] : Fin 2 → Nat) = fun _ => 0 := funext fun a => by fin_cases a <;> rfl

/-! ## The first call: from blocks to the array -/

/-- Entry (n, h) of the rows times the matrix, scaled by factor n, as one function of the three whole arrays. -/
abbrev G0 (a0 : S100000x128.Idx → EReal) (a1 : S128x128.Idx → EReal) (a2 : S100000x1.Idx → EReal) : S100000x128.Idx → EReal :=
  fun i => (∑ k : Fin 128, a0 (ix2 (i 0 : Fin 100000) k) * a1 (ix2 k (i 1 : Fin 128))) * a2 (ix2 (i 0 : Fin 100000) (0 : Fin 1))

/-- The index maps over the grid: the rows', the factors' and the output's block index is the point's number on the row
    axis and zero on the other; the matrix's is zero on both. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The stored block's entry (p, q) is the whole-array function at i, once the three blocks read the arrays where i says. -/
theorem pay0_eq_G0 (a0 : S100000x128.Idx → EReal) (a1 : S128x128.Idx → EReal) (a2 : S100000x1.Idx → EReal)
    (x0 : Vec Ideal S5000x128 .f32) (x1 : Vec Ideal S128x128 .f32) (x2 : Vec Ideal S5000x1 .f32) (p : Fin 5000) (q : Fin 128)
    (i : S100000x128.Idx) (h0 : ∀ k : Fin 128, x0 (ix2 p k) = a0 (ix2 (i 0 : Fin 100000) k))
    (h1 : ∀ k : Fin 128, x1 (ix2 k q) = a1 (ix2 k (i 1 : Fin 128))) (h2 : x2 (ix2 p (0 : Fin 1)) = a2 (ix2 (i 0 : Fin 100000) (0 : Fin 1))) :
    k0_pay1 (F := Ideal) x0 x1 x2 (ix2 p q) = G0 a0 a1 a2 i := by
  rw [pay0_apply, h2]
  simp only [h0, h1]

/-- What point t writes back is block t of that one function of the arrays as the call finds them: the rows' and the
    factors' blocks at t are rows 5000 t … 5000 t + 4999, the matrix's block is the matrix. -/
theorem flushed0_eq (c : Dev nD) (t : Fin cfg0.N) :
    (dat0 (F := Ideal) V c).flushed 3 t
      = ((cfg0.win 3).blk t).view.read (Elt Ideal) (G0 (V c main_arg0) (V c main_arg3) (V c main_v17)) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e00, e01, e10, e11, e20, e21, e30, e31⟩ := idx_facts0 t
  funext j
  have hp : (j 0).val < 5000 := (j 0).isLt
  have hq : (j 1).val < 128 := (j 1).isLt
  refine (congrArg (k0_pay1 (F := Ideal) (iblk0 V c 0 t) (iblk0 V c 1 t) (iblk0 V c 2 t)) (eq_ix2 (n0 := 5000) (n1 := 128) j)).trans ?_
  refine pay0_eq_G0 (V c main_arg0) (V c main_arg3) (V c main_v17) (iblk0 V c 0 t) (iblk0 V c 1 t) (iblk0 V c 2 t) (j 0) (j 1)
    (((cfg0.win 3).blk t).view.emb j) (fun k => ?_) (fun k => ?_) ?_
  · refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  · refine congrArg (V c main_v17) (funext fun a => Fin.ext ?_)
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega

/-- An index of the array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v21).slice (win0_3.rect t)).set ↔ _
  rw [View.set_slice_whole, Rect.mem_set_unit]
  exact Iff.rfl

/-- Row n is in the block of point n / 5000, and every point writes its block back. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨-, -, -, -, -, -, e30, e31⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The first call's output array: row n of (x W) scaled by factor n. -/
theorem arr0 (c : Dev nD) (n : Fin 100000) (h : Fin 128) :
    (dat0 (F := Ideal) V c).arrAt 3 cfg0.N (ix2 n h)
      = Cert.Spec.scaled (fun n => (V c main_v17) (ix2 n (0 : Fin 1))) (Cert.Spec.mat (V c main_arg0)) (Cert.Spec.mat (V c main_arg3)) n h := by
  refine (congrFun ((dat0 (F := Ideal) V c).arrAt_eq_of_cover 3 (G0 (V c main_arg0) (V c main_arg3) (V c main_v17))
    (fun t _ => flushed0_eq V c t) cover0) (ix2 n h)).trans ?_
  rfl

/-! ## The second call: from blocks to the array -/

/-- Entry (n, h) of the activated rows times the matrix, scaled by factor n, as one function of the four whole arrays:
    the activation of row n is its entries scaled by factor n, biased, and rectified against the cleared word. -/
abbrev G1 (a0 : S100000x128.Idx → EReal) (a1 : S100000x1.Idx → EReal) (a2 : S1x128.Idx → EReal) (a3 : S128x128.Idx → EReal) :
    S100000x128.Idx → EReal :=
  fun i => (∑ k : Fin 128, max (a1 (ix2 (i 0 : Fin 100000) (0 : Fin 1)) * a0 (ix2 (i 0 : Fin 100000) k) + a2 (ix2 (0 : Fin 1) k))
      (Ideal.ofBits .f32 0x00000000#32) * a3 (ix2 k (i 1 : Fin 128))) * a1 (ix2 (i 0 : Fin 100000) (0 : Fin 1))

/-- The stored block's entry (p, q) is the whole-array function at i, once the four blocks read the arrays where i says. -/
theorem pay1_eq_G1 (a0 : S100000x128.Idx → EReal) (a1 : S100000x1.Idx → EReal) (a2 : S1x128.Idx → EReal) (a3 : S128x128.Idx → EReal)
    (x0 : Vec Ideal S5000x128 .f32) (x1 : Vec Ideal S5000x1 .f32) (x2 : Vec Ideal S1x128 .f32) (x3 : Vec Ideal S128x128 .f32)
    (p : Fin 5000) (q : Fin 128) (i : S100000x128.Idx)
    (h0 : ∀ k : Fin 128, x0 (ix2 p k) = a0 (ix2 (i 0 : Fin 100000) k))
    (h1 : x1 (ix2 p (0 : Fin 1)) = a1 (ix2 (i 0 : Fin 100000) (0 : Fin 1)))
    (h2 : ∀ k : Fin 128, x2 (ix2 (0 : Fin 1) k) = a2 (ix2 (0 : Fin 1) k))
    (h3 : ∀ k : Fin 128, x3 (ix2 k q) = a3 (ix2 k (i 1 : Fin 128))) :
    k1_pay1 (F := Ideal) x0 x1 x2 x3 (ix2 p q) = G1 a0 a1 a2 a3 i := by
  rw [pay1_apply, h1]
  simp only [h0, h2, h3]

/-- The index maps over the grid: the rows', the factors' and the output's block index is the point's number on the row
    axis and zero on the other; the bias row's and the matrix's are zero on both. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of that one function of the arrays as the call finds them: the rows' and the
    factors' blocks at t are rows 5000 t … 5000 t + 4999, the bias row's and the matrix's blocks are the whole arrays. -/
theorem flushed1_eq (c : Dev nD) (t : Fin cfg1.N) :
    (dat1 (F := Ideal) V c).flushed 4 t
      = ((cfg1.win 4).blk t).view.read (Elt Ideal) (G1 (V c main_v31) (V c main_v17) (V c main_v18) (V c main_arg5)) := by
  show (cfg1.win 4).cut (grid1.coords t) ((dat1 (F := Ideal) V c).after 4 t) = _
  rw [after1_4]
  unfold out1_4
  rw [View.canon_unit_zero hz]
  simp only [View.ld_unit_zero (S := S5000x128) hz, View.ld_unit_zero (S := S128x128) hz, View.ld_unit_zero (S := S5000x1) hz,
    View.ld_unit_zero (S := S1x128) hz]
  obtain ⟨e00, e01, e10, e11, e20, e21, e30, e31, e40, e41⟩ := idx_facts1 t
  funext j
  have hp : (j 0).val < 5000 := (j 0).isLt
  have hq : (j 1).val < 128 := (j 1).isLt
  refine (congrArg (k1_pay1 (F := Ideal) (iblk1 V c 0 t) (iblk1 V c 1 t) (iblk1 V c 2 t) (iblk1 V c 3 t)) (eq_ix2 (n0 := 5000) (n1 := 128) j)).trans ?_
  refine pay1_eq_G1 (V c main_v31) (V c main_v17) (V c main_v18) (V c main_arg5)
    (iblk1 V c 0 t) (iblk1 V c 1 t) (iblk1 V c 2 t) (iblk1 V c 3 t) (j 0) (j 1)
    (((cfg1.win 4).blk t).view.emb j) (fun k => ?_) ?_ (fun k => ?_) (fun k => ?_)
  · refine congrArg (V c main_v31) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  · refine congrArg (V c main_v17) (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 1 + 1 * 0 = 0; omega
  · refine congrArg (V c main_v18) (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  · refine congrArg (V c main_arg5) (funext fun a => Fin.ext ?_)
    match a with
    | ⟨0, _⟩ => show win1_3.index t (0 : Fin 2) * 128 + 1 * k.val = k.val; omega
    | ⟨1, _⟩ => show win1_3.index t (1 : Fin 2) * 128 + 1 * (j 1).val = win1_4.index t (1 : Fin 2) * 128 + 1 * (j 1).val; omega

/-- An index of the array is in point t's block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v32).slice (win1_4.rect t)).set ↔ _
  rw [View.set_slice_whole, Rect.mem_set_unit]
  exact Iff.rfl

/-- Row n is in the block of point n / 5000, and every point writes its block back. -/
theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by show (i 0).val / 5000 < grid1.N; rw [N_1]; omega⟩, rfl⟩
  obtain ⟨-, -, -, -, -, -, -, -, e40, e41⟩ := idx_facts1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The second call's output array: row n of (act W) scaled by factor n, act the activation of the call's first operand. -/
theorem arr1 (c : Dev nD) (n : Fin 100000) (h : Fin 128) :
    (dat1 (F := Ideal) V c).arrAt 4 cfg1.N (ix2 n h)
      = Cert.Spec.scaled (fun n => (V c main_v17) (ix2 n (0 : Fin 1)))
          (Cert.Spec.act (fun n => (V c main_v17) (ix2 n (0 : Fin 1))) (Cert.Spec.mat (V c main_v31)) (fun k => (V c main_v18) (ix2 (0 : Fin 1) k)))
          (Cert.Spec.mat (V c main_arg5)) n h := by
  refine (congrFun ((dat1 (F := Ideal) V c).arrAt_eq_of_cover 4 (G1 (V c main_v31) (V c main_v17) (V c main_v18) (V c main_arg5))
    (fun t _ => flushed1_eq V c t) cover1) (ix2 n h)).trans ?_
  rfl

end Cert.KernelIdeal.HandValue

end
-- ==== Proof.KI.Val2.lean ====
/-
  WHAT THE THIRD PALLAS CALL LEAVES IN ITS OUTPUT ARRAY, INDEX BY INDEX, OVER THE EXTENDED REALS. Half cc of the
  [2, 512, 128] output is written back once, at the last tile of the half, from the accumulator; the accumulator after
  tile i of a half is the cleared accumulator plus the tiles' 0/1 products so far (induction over the grid points).
-/
import proofs.«420629_j61529701482954_2_alg».proof.Proof.Raw
import proofs.«420629_j61529701482954_2_alg».proof.Proof.KI.Reg2
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

/-! ## The product's operand indices -/

theorem lhs_pool_0 (i : S512x128.Idx) (q : dot_S2000x512_S2000x128_S512x128_0_0_1_1_n_n.contr.Idx) :
    (dot_S2000x512_S2000x128_S512x128_0_0_1_1_n_n.lhsIdx i q 0).val = (q ⟨0, by decide⟩).val :=
  dot_S2000x512_S2000x128_S512x128_0_0_1_1_n_n.lhsIdx_val_of_single rfl i q
theorem lhs_pool_1 (i : S512x128.Idx) (q : dot_S2000x512_S2000x128_S512x128_0_0_1_1_n_n.contr.Idx) :
    (dot_S2000x512_S2000x128_S512x128_0_0_1_1_n_n.lhsIdx i q 1).val = (i 0).val := by
  unfold DotDims.lhsIdx
  rw [dif_neg (show ¬(1 : Fin S2000x512.rank) ∈ dot_S2000x512_S2000x128_S512x128_0_0_1_1_n_n.lhsBatch by decide), dif_pos (show (1 : Fin S2000x512.rank) ∈ dot_S2000x512_S2000x128_S512x128_0_0_1_1_n_n.lhsNonContracting by decide)]
  rfl
theorem rhs_pool_0 (i : S512x128.Idx) (q : dot_S2000x512_S2000x128_S512x128_0_0_1_1_n_n.contr.Idx) :
    (dot_S2000x512_S2000x128_S512x128_0_0_1_1_n_n.rhsIdx i q 0).val = (q ⟨0, by decide⟩).val :=
  dot_S2000x512_S2000x128_S512x128_0_0_1_1_n_n.rhsIdx_val_of_single rfl i q
theorem rhs_pool_1 (i : S512x128.Idx) (q : dot_S2000x512_S2000x128_S512x128_0_0_1_1_n_n.contr.Idx) :
    (dot_S2000x512_S2000x128_S512x128_0_0_1_1_n_n.rhsIdx i q 1).val = (i 1).val := by
  unfold DotDims.rhsIdx
  rw [dif_neg (show ¬(1 : Fin S2000x128.rank) ∈ dot_S2000x512_S2000x128_S512x128_0_0_1_1_n_n.rhsBatch by decide), dif_pos (show (1 : Fin S2000x128.rank) ∈ dot_S2000x512_S2000x128_S512x128_0_0_1_1_n_n.rhsNonContracting by decide)]
  rfl

/-- The 0/1 entry: the word of row r against the lane number g, widened and read as a number. -/
theorem hot_entry (xb : Vec Ideal S2000x1 .i32) (r : Fin 2000) (g : Fin 512) :
    (sitofp .f32 (extui 32 (cmpi .eq (broadcastTo S2000x512 (shapeCast S2000x1 xb shapeCasts_S2000x1_S2000x1) broadcasts_S2000x1_S2000x512)
        (iota .tc S2000x512 32 [1] iota_S2000x512_d1_w32)) natLt_1_32) : FVec Ideal S2000x512 .f32) (ix2 r g)
      = Cert.Spec.hotW (xb (ix2 r (0 : Fin 1))) g := by
  rw [sitofp_apply, extui_apply]
  show FloatOps.sitofp .f32 ((IntOp.cmpi .eq (broadcastTo S2000x512 (shapeCast S2000x1 xb shapeCasts_S2000x1_S2000x1) broadcasts_S2000x1_S2000x512 (ix2 r g))
        (iota .tc S2000x512 32 [1] iota_S2000x512_d1_w32 (ix2 r g))).setWidth 32) = _
  rw [iota_single_apply, shapeCast_self, broadcastTo_apply xb broadcasts_S2000x1_S2000x512 (ix2 r g) (ix2 r (0 : Fin 1)) (fun a => by
    match a with
    | ⟨0, _⟩ => rfl
    | ⟨1, _⟩ => rfl)]
  unfold Cert.Spec.hotW
  show FloatOps.sitofp .f32 (BitVec.setWidth 32 (IntOp.cmpi .eq (xb (ix2 r (0 : Fin 1))) (BitVec.ofNat 32 g.val))) = _
  by_cases hw : xb (ix2 r (0 : Fin 1)) = BitVec.ofNat 32 g.val
  · rw [if_pos hw]
    have e : IntOp.cmpi .eq (xb (ix2 r (0 : Fin 1))) (BitVec.ofNat 32 g.val) = 1#1 := by rw [hw]; simp [IntOp.cmpi]
    rw [e]
    show (((BitVec.setWidth 32 1#1).toInt : ℝ) : EReal) = 1
    rw [show (BitVec.setWidth 32 1#1).toInt = 1 from by decide]; simp
  · rw [if_neg hw]
    have e : IntOp.cmpi .eq (xb (ix2 r (0 : Fin 1))) (BitVec.ofNat 32 g.val) = 0#1 := by
      show BitVec.ofBool (xb (ix2 r (0 : Fin 1)) == BitVec.ofNat 32 g.val) = 0#1
      rw [beq_eq_false_iff_ne.mpr hw]; rfl
    rw [e]
    show (((BitVec.setWidth 32 0#1).toInt : ℝ) : EReal) = 0
    rw [show (BitVec.setWidth 32 0#1).toInt = 0 from by decide]; simp

/-- The body's update at an index: what the accumulator held plus the tile's 0/1 product, the sum over the tile's rows
    (the format changes are the identity, the product's accumulator starts at zero). -/
theorem pay2_apply (xb : Vec Ideal S2000x1 .i32) (xa : Vec Ideal S2000x128 .f32) (xd : Vec Ideal S2000x1 .f32) (xbias : Vec Ideal S1x128 .f32)
    (s : Vec Ideal S512x128 .f32) (g : Fin 512) (h : Fin 128) :
    k2_pay2 xb xa xd xbias s (ix2 g h)
      = s (ix2 g h) + ∑ r : Fin 2000, Cert.Spec.hotW (xb (ix2 r (0 : Fin 1))) g
          * max (xd (ix2 r (0 : Fin 1)) * xa (ix2 r h) + xbias (ix2 (0 : Fin 1) h)) Cert.Spec.zero := by
  unfold k2_pay2
  dsimp only
  rw [shapeCast_self, addf_apply]
  refine congrArg (s (ix2 g h) + ·) ?_
  refine (Ideal.matmul_constant_zero_apply dot_S2000x512_S2000x128_S512x128_0_0_1_1_n_n none _ _ (ix2 g h)).trans ?_
  rw [← Equiv.sum_comp (ValueIdx.contrEquiv1 dot_S2000x512_S2000x128_S512x128_0_0_1_1_n_n 2000 rfl rfl).symm]
  refine Finset.sum_congr rfl fun r _ => ?_
  have hk := ValueIdx.contrEquiv1_symm_val dot_S2000x512_S2000x128_S512x128_0_0_1_1_n_n 2000 rfl rfl r
  have el : dot_S2000x512_S2000x128_S512x128_0_0_1_1_n_n.lhsIdx (ix2 g h) ((ValueIdx.contrEquiv1 dot_S2000x512_S2000x128_S512x128_0_0_1_1_n_n 2000 rfl rfl).symm r) = ix2 r g := funext fun a => Fin.ext (by
    match a with
    | ⟨0, _⟩ => exact (lhs_pool_0 _ _).trans hk
    | ⟨1, _⟩ => exact lhs_pool_1 _ _)
  have er : dot_S2000x512_S2000x128_S512x128_0_0_1_1_n_n.rhsIdx (ix2 g h) ((ValueIdx.contrEquiv1 dot_S2000x512_S2000x128_S512x128_0_0_1_1_n_n 2000 rfl rfl).symm r) = ix2 r h := funext fun a => Fin.ext (by
    match a with
    | ⟨0, _⟩ => exact (rhs_pool_0 _ _).trans hk
    | ⟨1, _⟩ => exact rhs_pool_1 _ _)
  rw [el, er, truncf_apply, truncf_apply, hot_entry, maximumf_apply, addf_apply, mulf_apply, broadcast_apply, shapeCast_self, shapeCast_self, shapeCast_self, shapeCast_self]
  rw [broadcastTo_apply xd broadcasts_S2000x1_S2000x128 (ix2 r h) (ix2 r (0 : Fin 1)) (fun a => by
      match a with
      | ⟨0, _⟩ => rfl
      | ⟨1, _⟩ => rfl),
    broadcastTo_apply xbias broadcasts_S1x128_S2000x128 (ix2 r h) (ix2 (0 : Fin 1) h) (fun a => by
      match a with
      | ⟨0, _⟩ => rfl
      | ⟨1, _⟩ => rfl)]
  rfl

variable (V : (c : Dev nD) → (b : Ref sig .tc) → Buf (Elt Ideal) ((c : Thread nD τ).loc b))

/-! ## The blocks the body reads, where the tile sits in the arrays -/

/-- The input blocks of point t and the arrays they are cut from, at their literal types. -/
abbrev wblk (c : Dev nD) (t : Fin cfg2.N) : Vec Ideal S2000x1 .i32 := iblk2 V c 0 t
abbrev ablk (c : Dev nD) (t : Fin cfg2.N) : Vec Ideal S2000x128 .f32 := iblk2 V c 1 t
abbrev dblk (c : Dev nD) (t : Fin cfg2.N) : Vec Ideal S2000x1 .f32 := iblk2 V c 2 t
abbrev bblk (c : Dev nD) (t : Fin cfg2.N) : Vec Ideal S1x128 .f32 := iblk2 V c 3 t
abbrev warr (c : Dev nD) : Vec Ideal S100000x1 .i32 := V c main_v20
abbrev aarr (c : Dev nD) : Vec Ideal S100000x128 .f32 := V c main_v42
abbrev darr (c : Dev nD) : Vec Ideal S100000x1 .f32 := V c main_v17
abbrev barr (c : Dev nD) : Vec Ideal S1x128 .f32 := V c main_v19

/-- The index maps over the grid: the three tiled inputs read block t, the bias its one block, the output block t / 25. -/
theorem idx_facts2 : ∀ t : Fin cfg2.N,
    (win2_0.index t 0 = t.val ∧ win2_0.index t 1 = 0) ∧ (win2_1.index t 0 = t.val ∧ win2_1.index t 1 = 0)
    ∧ (win2_2.index t 0 = t.val ∧ win2_2.index t 1 = 0) ∧ (win2_3.index t 0 = 0 ∧ win2_3.index t 1 = 0)
    ∧ (win2_4.index t 0 = t.val / 25 ∧ win2_4.index t 1 = 0 ∧ win2_4.index t 2 = 0) :=
  (by decide +kernel : ∀ t : Fin grid2.N, _)

theorem wblk_apply (c : Dev nD) (t : Fin cfg2.N) (r : Fin 2000) (n : Fin 100000) (hn : n.val = 2000 * t.val + r.val) :
    wblk V c t (ix2 r (0 : Fin 1)) = warr V c (ix2 n (0 : Fin 1)) := by
  have hi := (idx_facts2 t).1
  unfold wblk iblk2
  rw [View.read_apply]
  show V c main_v20 _ = V c main_v20 _
  congr 1
  funext a
  apply Fin.ext
  match a with
  | ⟨0, _⟩ => show win2_0.index t 0 * 2000 + 1 * r.val = n.val; rw [hi.1, hn]; omega
  | ⟨1, _⟩ => show win2_0.index t 1 * 1 + 1 * 0 = 0; rw [hi.2]

theorem dblk_apply (c : Dev nD) (t : Fin cfg2.N) (r : Fin 2000) (n : Fin 100000) (hn : n.val = 2000 * t.val + r.val) :
    dblk V c t (ix2 r (0 : Fin 1)) = darr V c (ix2 n (0 : Fin 1)) := by
  have hi := (idx_facts2 t).2.2.1
  unfold dblk iblk2
  rw [View.read_apply]
  show V c main_v17 _ = V c main_v17 _
  congr 1
  funext a
  apply Fin.ext
  match a with
  | ⟨0, _⟩ => show win2_2.index t 0 * 2000 + 1 * r.val = n.val; rw [hi.1, hn]; omega
  | ⟨1, _⟩ => show win2_2.index t 1 * 1 + 1 * 0 = 0; rw [hi.2]

theorem ablk_apply (c : Dev nD) (t : Fin cfg2.N) (r : Fin 2000) (h : Fin 128) (n : Fin 100000) (hn : n.val = 2000 * t.val + r.val) :
    ablk V c t (ix2 r h) = aarr V c (ix2 n h) := by
  have hi := (idx_facts2 t).2.1
  unfold ablk iblk2
  rw [View.read_apply]
  show V c main_v42 _ = V c main_v42 _
  congr 1
  funext a
  apply Fin.ext
  match a with
  | ⟨0, _⟩ => show win2_1.index t 0 * 2000 + 1 * r.val = n.val; rw [hi.1, hn]; omega
  | ⟨1, _⟩ => show win2_1.index t 1 * 128 + 1 * h.val = h.val; rw [hi.2]; omega

theorem bblk_apply (c : Dev nD) (t : Fin cfg2.N) (h : Fin 128) :
    bblk V c t (ix2 (0 : Fin 1) h) = barr V c (ix2 (0 : Fin 1) h) := by
  have hi := (idx_facts2 t).2.2.2.1
  unfold bblk iblk2
  rw [View.read_apply]
  show V c main_v19 _ = V c main_v19 _
  congr 1
  funext a
  apply Fin.ext
  match a with
  | ⟨0, _⟩ => show win2_3.index t 0 * 1 + 1 * 0 = 0; rw [hi.1]
  | ⟨1, _⟩ => show win2_3.index t 1 * 128 + 1 * h.val = h.val; rw [hi.2]; omega

/-! ## The accumulator over a half's tiles -/

/-- The graph words and the activation, as the call's operands give them. -/
abbrev bwOf (c : Dev nD) : Fin 100000 → BitVec 32 := fun n => (V c main_v20) (ix2 n (0 : Fin 1))
abbrev YOf (c : Dev nD) : Cert.Spec.Feat :=
  Cert.Spec.act (fun n => (V c main_v17) (ix2 n (0 : Fin 1))) (Cert.Spec.mat (V c main_v42)) (fun k => (V c main_v19) (ix2 (0 : Fin 1) k))

/-- One point's update at an index: tile i of half cc adds its 0/1 product. -/
theorem step_apply (c : Dev nD) (t : Fin cfg2.N) (cc : Fin 2) (i : Fin 25) (ht : t.val = 25 * cc.val + i.val)
    (s : Vec Ideal S512x128 .f32) (g : Fin 512) (h : Fin 128) :
    k2_pay2 (wblk V c t) (ablk V c t) (dblk V c t) (bblk V c t) s (ix2 g h)
      = s (ix2 g h) + Cert.Spec.tileSum (bwOf V c) (YOf V c) cc i g h := by
  refine (pay2_apply (wblk V c t) (ablk V c t) (dblk V c t) (bblk V c t) s g h).trans ?_
  refine congrArg (s (ix2 g h) + ·) ?_
  unfold Cert.Spec.tileSum
  refine Finset.sum_congr rfl fun r _ => ?_
  have hn : (Cert.Spec.node cc i r).val = 2000 * t.val + r.val := by
    show (cc.val * 25 + i.val) * 2000 + r.val = _
    rw [ht]; omega
  rw [wblk_apply V c t r _ hn, dblk_apply V c t r _ hn, ablk_apply V c t r h _ hn, bblk_apply V c t h]
  rfl

/-- The cleared accumulator reads the zero word everywhere. -/
theorem clearedPay_apply (g : Fin 512) (h : Fin 128) : (k2_pay1 (F := Ideal)) (ix2 g h) = Cert.Spec.zero := by
  unfold k2_pay1
  rw [shapeCast_self, broadcast_apply]
  rfl

theorem accSum_succ (bw : Fin 100000 → BitVec 32) (Y : Cert.Spec.Feat) (cc : Fin 2) (g : Fin 512) (h : Fin 128) (k : ℕ) (hk : k < 25) :
    Cert.Spec.accSum bw Y cc g h (k + 1) = Cert.Spec.accSum bw Y cc g h k + Cert.Spec.tileSum bw Y cc ⟨k, hk⟩ g h := by
  rw [Cert.Spec.accSum, dif_pos hk]

/-- The accumulation's equation at the first tile of a half and at a later one. -/
theorem acc2_first (c : Dev nD) (t : Fin cfg2.N) (h0 : t.val % 25 = 0) :
    acc2 V c t.val t.isLt = k2_pay2 (wblk V c t) (ablk V c t) (dblk V c t) (bblk V c t) (k2_pay1 (F := Ideal)) := by
  rw [acc2_eq V c t, if_pos h0]
theorem acc2_next (c : Dev nD) (t : Fin cfg2.N) (h0 : ¬ t.val % 25 = 0) :
    acc2 V c t.val t.isLt = k2_pay2 (wblk V c t) (ablk V c t) (dblk V c t) (bblk V c t)
      (acc2 V c (t.val - 1) (Nat.lt_of_le_of_lt (Nat.sub_le _ _) t.isLt)) := by
  rw [acc2_eq V c t, if_neg h0]
theorem acc2_congr (c : Dev nD) {n n' : ℕ} (e : n = n') (hn : n < cfg2.N) (hn' : n' < cfg2.N) : acc2 V c n hn = acc2 V c n' hn' := by
  subst e; rfl

/-- After tile k of half cc the accumulator holds the cleared word plus the first k + 1 tiles' products. -/
theorem acc2_apply (c : Dev nD) (cc : Fin 2) (g : Fin 512) (h : Fin 128) (k : ℕ) :
    ∀ (hk : k < 25) (hlt : 25 * cc.val + k < cfg2.N),
      acc2 V c (25 * cc.val + k) hlt (ix2 g h) = Cert.Spec.accSum (bwOf V c) (YOf V c) cc g h (k + 1) := by
  induction k with
  | zero =>
    intro hk hlt
    refine (congrFun (acc2_first V c ⟨25 * cc.val + 0, hlt⟩ (by show (25 * cc.val + 0) % 25 = 0; omega)) (ix2 g h)).trans ?_
    refine (step_apply V c ⟨25 * cc.val + 0, hlt⟩ cc ⟨0, hk⟩ rfl (k2_pay1 (F := Ideal)) g h).trans ?_
    rw [clearedPay_apply, accSum_succ _ _ _ _ _ 0 hk]
    rfl
  | succ k ih =>
    intro hk hlt
    have hlt' : 25 * cc.val + k < cfg2.N := Nat.lt_trans (by omega) hlt
    refine (congrFun (acc2_next V c ⟨25 * cc.val + (k + 1), hlt⟩ (by show ¬ (25 * cc.val + (k + 1)) % 25 = 0; omega)) (ix2 g h)).trans ?_
    refine (step_apply V c ⟨25 * cc.val + (k + 1), hlt⟩ cc ⟨k + 1, hk⟩ rfl _ g h).trans ?_
    rw [accSum_succ _ _ _ _ _ (k + 1) hk]
    refine congrArg (· + Cert.Spec.tileSum (bwOf V c) (YOf V c) cc ⟨k + 1, hk⟩ g h) ?_
    refine (congrFun (acc2_congr V c (show 25 * cc.val + (k + 1) - 1 = 25 * cc.val + k by omega) _ hlt') (ix2 g h)).trans ?_
    exact ih (by omega) hlt'

/-! ## The output array -/

/-- The write-back's payload adds a leading unit axis. -/
theorem pay3_apply (s : Vec Ideal S512x128 .f32) (j : S1x512x128.Idx) (g : Fin 512) (h : Fin 128) (hg : (j 1).val = g.val) (hh : (j 2).val = h.val) :
    k2_pay3 s j = s (ix2 g h) := by
  unfold k2_pay3
  refine (shapeCast_addUnit_apply ![512, 128] s shapeCasts_S512x128_S1x512x128 j).trans ?_
  refine congrArg s (funext fun a => Fin.ext ?_)
  match a with
  | ⟨0, _⟩ => exact hg
  | ⟨1, _⟩ => exact hh

/-- The whole array the call leaves: half cc at (g, h) the accumulator of the half's 25 tiles. -/
def out2 (c : Dev nD) : Vec Ideal S2x512x128 .f32 := fun j => Cert.Spec.accSum (bwOf V c) (YOf V c) (j 0) (j 1) (j 2) 25

theorem out2_apply (c : Dev nD) (J : S2x512x128.Idx) (cc : Fin 2) (g : Fin 512) (h : Fin 128)
    (h0 : (J 0).val = cc.val) (h1 : (J 1).val = g.val) (h2 : (J 2).val = h.val) :
    out2 V c J = Cert.Spec.accSum (bwOf V c) (YOf V c) cc g h 25 := by
  obtain ⟨a, b, d, rfl⟩ : ∃ (a : Fin 2) (b : Fin 512) (d : Fin 128), J = ix3 a b d := ⟨J 0, J 1, J 2, eq_ix3 J⟩
  obtain rfl : a = cc := Fin.ext h0
  obtain rfl : b = g := Fin.ext h1
  obtain rfl : d = h := Fin.ext h2
  rfl

/-- The output's blocks over the grid: each a whole half. -/
theorem xs_facts2 : ∀ t : Fin cfg2.N,
    win2_4.xsize (grid2.coords t) 0 = 1 ∧ win2_4.xsize (grid2.coords t) 1 = 512 ∧ win2_4.xsize (grid2.coords t) 2 = 128 :=
  (by decide +kernel : ∀ t : Fin grid2.N, _)

/-- What the last tile of a half writes back is that half of the array. -/
theorem flushed2_eq (c : Dev nD) (t : Fin cfg2.N) (hf : (cfg2.win 4).flush t = true) :
    (dat2 (F := Ideal) V c).flushed 4 t = ((cfg2.win 4).blk t).view.read (Elt Ideal) (out2 V c) := by
  have h24 : t.val % 25 = 24 := (flush2_4 t).mp hf
  have htl : t.val < 50 := lt_of_lt_of_eq t.isLt N_2
  have hi := (idx_facts2 t).2.2.2.2
  funext y
  have hy0 : (y 0).val < 1 := (((cfg2.win 4).xinj (grid2.coords t) y) 0).isLt
  have hy1 : (y 1).val < 512 := (((cfg2.win 4).xinj (grid2.coords t) y) 1).isLt
  have hy2 : (y 2).val < 128 := (((cfg2.win 4).xinj (grid2.coords t) y) 2).isLt
  show (cfg2.win 4).cut (cfg2.grid.coords t) ((dat2 V c).after 4 t) y = _
  rw [after2_4, View.read_apply]
  show k2_pay3 (acc2 V c t.val t.isLt) ((cfg2.win 4).xinj (grid2.coords t) y) = out2 V c (((cfg2.win 4).blk t).view.emb y)
  refine (pay3_apply _ _ ⟨(y 1).val, hy1⟩ ⟨(y 2).val, hy2⟩ rfl rfl).trans ?_
  refine Eq.trans ?_ (out2_apply V c _ ⟨t.val / 25, by omega⟩ ⟨(y 1).val, hy1⟩ ⟨(y 2).val, hy2⟩ ?_ ?_ ?_).symm
  · have hlt : 25 * (t.val / 25) + 24 < cfg2.N := lt_of_lt_of_eq (by omega) N_2.symm
    refine (congrFun (acc2_congr V c (show t.val = 25 * (t.val / 25) + 24 by omega) t.isLt hlt) _).trans ?_
    exact acc2_apply V c ⟨t.val / 25, by omega⟩ _ _ 24 (by omega) hlt
  · show win2_4.index t 0 * 1 + 1 * (y 0).val = t.val / 25
    rw [hi.1]; omega
  · show win2_4.index t 1 * 512 + 1 * (y 1).val = (y 1).val
    rw [hi.2.1]; omega
  · show win2_4.index t 2 * 128 + 1 * (y 2).val = (y 2).val
    rw [hi.2.2]; omega

/-- The two write-backs cover the array: half cc is written at the last tile of half cc. -/
theorem cover2 (c : Dev nD) (i : S2x512x128.Idx) :
    ∃ t : Fin cfg2.N, (cfg2.win 4).flush t = true ∧ i ∈ ((cfg2.win 4).blk t).view.set := by
  have h0 : (i 0 : ℕ) < 2 := (i 0).isLt
  have h1 : (i 1 : ℕ) < 512 := (i 1).isLt
  have h2 : (i 2 : ℕ) < 128 := (i 2).isLt
  obtain ⟨T, hT⟩ : ∃ T : Fin cfg2.N, T.val = 25 * (i 0 : ℕ) + 24 := ⟨⟨25 * (i 0 : ℕ) + 24, lt_of_lt_of_eq (by omega) N_2.symm⟩, rfl⟩
  refine ⟨T, (flush2_4 T).mpr (by rw [hT]; omega), ?_⟩
  have hi := (idx_facts2 T).2.2.2.2
  have hx := xs_facts2 T
  show i ∈ ((View.whole main_v43).slice (win2_4.rect T)).set
  rw [View.set_slice_whole, Rect.mem_set_unit]
  intro a
  match a with
  | ⟨0, _⟩ =>
    show win2_4.index T 0 * 1 ≤ (i 0 : ℕ) ∧ (i 0 : ℕ) < win2_4.index T 0 * 1 + win2_4.xsize (grid2.coords T) 0
    rw [hi.1, hx.1, hT]; omega
  | ⟨1, _⟩ =>
    show win2_4.index T 1 * 512 ≤ (i 1 : ℕ) ∧ (i 1 : ℕ) < win2_4.index T 1 * 512 + win2_4.xsize (grid2.coords T) 1
    rw [hi.2.1, hx.2.1]; omega
  | ⟨2, _⟩ =>
    show win2_4.index T 2 * 128 ≤ (i 2 : ℕ) ∧ (i 2 : ℕ) < win2_4.index T 2 * 128 + win2_4.xsize (grid2.coords T) 2
    rw [hi.2.2, hx.2.2]; omega

/-- The third call's output array: half cc at (g, h) is the accumulator of the half's 25 tiles, the tile product taken
    over the activation of the call's operands. -/
theorem arr2 (c : Dev nD) (cc : Fin 2) (g : Fin 512) (h : Fin 128) :
    (dat2 (F := Ideal) V c).arrAt 4 cfg2.N (ix3 cc g h)
      = Cert.Spec.accSum (fun n => (V c main_v20) (ix2 n (0 : Fin 1)))
          (Cert.Spec.act (fun n => (V c main_v17) (ix2 n (0 : Fin 1))) (Cert.Spec.mat (V c main_v42)) (fun k => (V c main_v19) (ix2 (0 : Fin 1) k)))
          cc g h 25 := by
  have e := (dat2 (F := Ideal) V c).arrAt_eq_of_cover 4 (out2 V c) (flushed2_eq V c) (cover2 c)
  exact (congrFun e (ix3 cc g h)).trans rfl

end Cert.KernelIdeal.HandValue

end
-- ==== Proof.KI.Value.lean ====
/-
  THE VALUE OF THE ROW-AND-SUM-SCALING PROGRAM. Chaining what each host stretch reads and what each pallas call leaves:
  the program's result at (g, o) is `Spec.kOut` of the argument arrays.
-/
import proofs.«420629_j61529701482954_2_alg».proof.Proof.Raw
import proofs.«420629_j61529701482954_2_alg».proof.Proof.Gen.KernelIdeal.Regions
import proofs.«420629_j61529701482954_2_alg».proof.Proof.KI.Args
import proofs.«420629_j61529701482954_2_alg».proof.Proof.KI.Host0
import proofs.«420629_j61529701482954_2_alg».proof.Proof.KI.Host1
import proofs.«420629_j61529701482954_2_alg».proof.Proof.KI.Val01
import proofs.«420629_j61529701482954_2_alg».proof.Proof.KI.Val2
import proofs.«420629_j61529701482954_2_alg».proof.Proof.KI.Run
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.HandValue

open Cert.KernelIdeal Cert.KernelIdeal.Gen
open Idealize.ShloMosaic Idealize.ShloMosaic.TcCoe Idealize.ShloMosaic.ValueIdx Idealize.ShloMosaic.StableHlo Idealize.ShloMosaic.RowOps Idealize.SL.Sem

variable (m : (ℓ : Loc nD τ sig) → Buf (Elt Ideal) ℓ) (outs : Outs (F := Ideal)) (c : Dev nD)

open Cert.KernelIdeal.Hand

/-- The graph word of node `n` in the index data is the graph-number argument at `n`. -/
theorem gC_b (n : Fin 100000) : (gC m c).b (Predicate.ixP n) = a2 m c (ix1 n) := rfl

/-- The column of factors, the bias rows and the graph-number column, as functions. -/
theorem dcol : (fun n => (V3 m c main_v17) (ix2 n (0 : Fin 1))) = Cert.Spec.dinv (gC m c) := funext (dinv_col m c)
theorem b1row : (fun k => (V3 m c main_v18) (ix2 (0 : Fin 1) k)) = Cert.Spec.vec (a4 m c) := funext (bias1_row m c)
theorem b2row : (fun k => (V3 m c main_v19) (ix2 (0 : Fin 1) k)) = Cert.Spec.vec (a6 m c) := funext (bias2_row m c)
theorem bcol : (fun n => (V3 m c main_v20) (ix2 n (0 : Fin 1))) = (fun n => a2 m c (ix1 n)) := funext (batch_col m c)

/-- The first call's output: the rows times the first weight matrix, each scaled by its node's factor. -/
theorem L1 (hok : OutsOk (F := Ideal) m outs) :
    (fun (n : Fin 100000) (h : Fin 128) => o21 outs c (ix2 n h))
      = Cert.Spec.kScaled (gC m c) (Cert.Spec.mat (a0 m c)) (Cert.Spec.mat (a3 m c)) := by
  funext n h
  refine (congrFun (hok.h4 c) (ix2 n h)).trans ?_
  rw [arr0 (E3 m) c n h]
  show Cert.Spec.scaled (fun n => (V3 m c main_v17) (ix2 n (0 : Fin 1))) (Cert.Spec.mat (V3 m c main_arg0))
      (Cert.Spec.mat (V3 m c main_arg3)) n h = _
  rw [V3_arg0 m c, V3_arg3 m c, dcol m c]
  rfl

/-- The second call's first operand: the scaled rows summed over the landing edges. -/
theorem L2 (hok : OutsOk (F := Ideal) m outs) :
    Cert.Spec.mat (V5 m outs c main_v31)
      = Cert.Spec.kAgg (gC m c) (Cert.Spec.mat (a0 m c)) (Cert.Spec.mat (a3 m c)) := by
  funext n h
  refine (agg1 m outs c n h).trans ?_
  unfold Cert.Spec.kAgg
  refine congrArg (fun t => Cert.Spec.zero + t) (Finset.sum_congr rfl fun e _ => ?_)
  exact congrFun (congrFun (L1 m outs c hok) (Cert.Spec.srcRow (gC m c) e)) h

/-- The second call's output: the first round's activation times the second weight matrix, scaled. -/
theorem L3 (hok : OutsOk (F := Ideal) m outs) :
    (fun (n : Fin 100000) (h : Fin 128) => o32 outs c (ix2 n h))
      = Cert.Spec.kScaled (gC m c)
          (Cert.Spec.kX2 (gC m c) (Cert.Spec.mat (a0 m c)) (Cert.Spec.mat (a3 m c)) (Cert.Spec.vec (a4 m c)))
          (Cert.Spec.mat (a5 m c)) := by
  funext n h
  refine (congrFun (hok.h6 c) (ix2 n h)).trans ?_
  rw [arr1 (E5 m outs) c n h]
  show Cert.Spec.scaled (fun n => (V5 m outs c main_v17) (ix2 n (0 : Fin 1)))
      (Cert.Spec.act (fun n => (V5 m outs c main_v17) (ix2 n (0 : Fin 1))) (Cert.Spec.mat (V5 m outs c main_v31))
        (fun k => (V5 m outs c main_v18) (ix2 (0 : Fin 1) k)))
      (Cert.Spec.mat (V5 m outs c main_arg5)) n h = _
  rw [V5_v17 m outs c, V5_v18 m outs c, V5_arg5 m outs c, L2 m outs c hok, dcol m c, b1row m c]
  rfl

/-- The third call's second operand: the second call's scaled rows summed over the landing edges. -/
theorem L4 (hok : OutsOk (F := Ideal) m outs) :
    Cert.Spec.mat (V7 m outs c main_v42)
      = Cert.Spec.kAgg (gC m c)
          (Cert.Spec.kX2 (gC m c) (Cert.Spec.mat (a0 m c)) (Cert.Spec.mat (a3 m c)) (Cert.Spec.vec (a4 m c)))
          (Cert.Spec.mat (a5 m c)) := by
  funext n h
  refine (agg2 m outs c n h).trans ?_
  unfold Cert.Spec.kAgg
  refine congrArg (fun t => Cert.Spec.zero + t) (Finset.sum_congr rfl fun e _ => ?_)
  exact congrFun (congrFun (L3 m outs c hok) (Cert.Spec.srcRow (gC m c) e)) h

/-- The activation the third call sums is the second round's. -/
theorem L5 (hok : OutsOk (F := Ideal) m outs) :
    Cert.Spec.act (fun n => (V7 m outs c main_v17) (ix2 n (0 : Fin 1))) (Cert.Spec.mat (V7 m outs c main_v42))
        (fun k => (V7 m outs c main_v19) (ix2 (0 : Fin 1) k))
      = Cert.Spec.kX3 (gC m c) (Cert.Spec.mat (a0 m c)) (Cert.Spec.mat (a3 m c)) (Cert.Spec.vec (a4 m c))
          (Cert.Spec.mat (a5 m c)) (Cert.Spec.vec (a6 m c)) := by
  rw [V7_v17 m outs c, V7_v19 m outs c, L4 m outs c hok, dcol m c, b2row m c]
  rfl

/-- The accumulator over the graph-number argument's words is the accumulator of the index data. -/
theorem L6 (x : Cert.Spec.Feat) (W1 : Cert.Spec.Wt) (b1 : Cert.Spec.Bias) (W2 : Cert.Spec.Wt) (b2 : Cert.Spec.Bias)
    (cc : Fin 2) (g : Fin 512) (h : Fin 128) (k : ℕ) :
    Cert.Spec.accSum (fun n => a2 m c (ix1 n)) (Cert.Spec.kX3 (gC m c) x W1 b1 W2 b2) cc g h k
      = Cert.Spec.kAcc (gC m c) x W1 b1 W2 b2 cc g h k := by
  induction k with
  | zero => rfl
  | succ k ih =>
    show Cert.Spec.accSum _ _ cc g h k + (if hk : k < 25 then Cert.Spec.tileSum _ _ cc ⟨k, hk⟩ g h else 0)
        = Cert.Spec.kAcc (gC m c) x W1 b1 W2 b2 cc g h k
          + (if hk : k < 25 then Cert.Spec.kTile (gC m c) x W1 b1 W2 b2 cc ⟨k, hk⟩ g h else 0)
    rw [ih]
    rfl

/-- Half `cc` of the third call's output is the accumulator of the half's 25 tiles. -/
theorem half (hok : OutsOk (F := Ideal) m outs) (cc : Fin 2) (g : Fin 512) (h : Fin 128) :
    o43 outs c (ix3 cc g h)
      = Cert.Spec.kAcc (gC m c) (Cert.Spec.mat (a0 m c)) (Cert.Spec.mat (a3 m c)) (Cert.Spec.vec (a4 m c))
          (Cert.Spec.mat (a5 m c)) (Cert.Spec.vec (a6 m c)) cc g h 25 := by
  refine (congrFun (hok.h8 c) (ix3 cc g h)).trans ?_
  rw [arr2 (E7 m outs) c cc g h]
  show Cert.Spec.accSum (fun n => (V7 m outs c main_v20) (ix2 n (0 : Fin 1)))
      (Cert.Spec.act (fun n => (V7 m outs c main_v17) (ix2 n (0 : Fin 1))) (Cert.Spec.mat (V7 m outs c main_v42))
        (fun k => (V7 m outs c main_v19) (ix2 (0 : Fin 1) k))) cc g h 25 = _
  rw [L5 m outs c hok, V7_v20 m outs c, bcol m c]
  exact L6 m c _ _ _ _ _ cc g h 25

/-- The result buffer after the run, at (g, o). -/
theorem value (hok : OutsOk (F := Ideal) m outs) (g : Fin 512) (o : Fin 64) :
    (V9 m outs c main_v52) (ix2 g o)
      = Cert.Spec.kOut (gC m c) (Cert.Spec.mat (a0 m c)) (Cert.Spec.mat (a3 m c)) (Cert.Spec.vec (a4 m c)) (Cert.Spec.mat (a5 m c))
          (Cert.Spec.vec (a6 m c)) (Cert.Spec.mat (a7 m c)) (Cert.Spec.vec (a8 m c)) g o := by
  refine (result m outs c g o).trans ?_
  unfold Cert.Spec.kOut
  refine congrArg (fun t => t + a8 m c (ix1 o)) (Finset.sum_congr rfl fun h _ => ?_)
  rw [half m outs c hok 0 g h, half m outs c hok 1 g h]
  rfl

end Cert.KernelIdeal.HandValue

end
-- ==== Proof.RefValue.lean ====
/-
  WHAT THE REFERENCE COMPUTES, INDEX BY INDEX. The reference's result, read one operation at a time, is the
  message-scaling form of the two rounds, the sum over each graph's nodes and the projection (`Spec.rOut`) of the
  argument arrays: the gathers read rows at clamped wrapped indices, the scatter-adds sum the rows of the landing
  edges, the matrix products are sums over the contracted axis.
-/
import proofs.«420629_j61529701482954_2_alg».proof.Proof.RefRead
import proofs.«420629_j61529701482954_2_alg».proof.Proof.Spec

open scoped BigOperators

noncomputable section

namespace Cert.ReferenceIdeal.RefValue

open Cert.ReferenceIdeal Cert.ReferenceIdeal.Gen Cert.ReferenceIdeal.ReadP
open Idealize.ShloMosaic Idealize.ShloMosaic.TcCoe Idealize.ShloMosaic.StableHlo Idealize.ShloMosaic.ValueIdx Idealize.ShloMosaic.RowOps

open Idealize.ShloMosaic.StableHlo.Predicate

abbrev A1 := (⟨S2x1600000, .i32⟩ : BufTy).Contents (Elt Ideal)

/-! ## The edge columns -/

/-- The joined source words: the given edges' row 0, then the node numbers. -/
theorem v3_at (a1 : A1) (e : Fin 1700000) : val_main_v3 (F := Ideal) a1 (ix1 e) = Cert.Spec.srcW a1 e := by
  unfold val_main_v3 Cert.Spec.srcW
  by_cases h : e.val < 1600000
  · rw [dif_pos h]
    rw [concatenate_pair_apply_left (t := S1700000) (s₁ := S1600000) (s₂ := S100000) (0 : Fin 1)
      (val_main_v2 (F := Ideal) a1) (val_main_v0 (F := Ideal)) concatenates_S1600000_S100000_S1700000_d0 (ix1 e) rfl
      (ix1 (⟨e.val, h⟩ : Fin 1600000)) (fun b => by match b with | ⟨0, _⟩ => rfl)]
    rw [val_main_v2_apply, val_main_v1_apply]
    congr 1
    funext a
    match a with
    | ⟨0, _⟩ => rfl
    | ⟨1, _⟩ => exact Fin.ext (Nat.mod_eq_of_lt h)
  · rw [dif_neg h]
    have he := e.isLt
    rw [concatenate_pair_apply_right (t := S1700000) (s₁ := S1600000) (s₂ := S100000) (0 : Fin 1)
      (val_main_v2 (F := Ideal) a1) (val_main_v0 (F := Ideal)) concatenates_S1600000_S100000_S1700000_d0 (ix1 e) rfl rfl
      (ix1 (⟨e.val - 1600000, by omega⟩ : Fin 100000)) (fun b hb => absurd (Subsingleton.elim _ _) hb)
      (by show e.val - 1600000 + 1600000 = e.val; omega)]
    rw [val_main_v0_apply]

/-- The joined destination words: the given edges' row 1, then the node numbers. -/
theorem v6_at (a1 : A1) (e : Fin 1700000) : val_main_v6 (F := Ideal) a1 (ix1 e) = Cert.Spec.dstW a1 e := by
  unfold val_main_v6 Cert.Spec.dstW
  by_cases h : e.val < 1600000
  · rw [dif_pos h]
    rw [concatenate_pair_apply_left (t := S1700000) (s₁ := S1600000) (s₂ := S100000) (0 : Fin 1)
      (val_main_v5 (F := Ideal) a1) (val_main_v0 (F := Ideal)) concatenates_S1600000_S100000_S1700000_d0 (ix1 e) rfl
      (ix1 (⟨e.val, h⟩ : Fin 1600000)) (fun b => by match b with | ⟨0, _⟩ => rfl)]
    rw [val_main_v5_apply, val_main_v4_apply]
    congr 1
    funext a
    match a with
    | ⟨0, _⟩ => rfl
    | ⟨1, _⟩ => exact Fin.ext (Nat.mod_eq_of_lt h)
  · rw [dif_neg h]
    have he := e.isLt
    rw [concatenate_pair_apply_right (t := S1700000) (s₁ := S1600000) (s₂ := S100000) (0 : Fin 1)
      (val_main_v5 (F := Ideal) a1) (val_main_v0 (F := Ideal)) concatenates_S1600000_S100000_S1700000_d0 (ix1 e) rfl rfl
      (ix1 (⟨e.val - 1600000, by omega⟩ : Fin 100000)) (fun b hb => absurd (Subsingleton.elim _ _) hb)
      (by show e.val - 1600000 + 1600000 = e.val; omega)]
    rw [val_main_v0_apply]

/-- The select of a signed comparison against zero is the wrap of a negative word. -/
theorem wrap_sel (w : BitVec 32) :
    Scalar.select (IntOp.cmpi .slt w 0#32) (IntOp.addi w 100000#32) w = Cert.Spec.wrap w := by
  unfold Cert.Spec.wrap Scalar.select IntOp.cmpi IntOp.addi
  cases h : w.slt 0#32 <;> simp

theorem v22_at (a1 : A1) (e : Fin 1700000) :
    val_main_v22 (F := Ideal) a1 (ix1 e) = Cert.Spec.wrap (Cert.Spec.srcW a1 e) := by
  rw [val_main_v22_apply, val_main_v19_apply, val_main_v21_apply, val_main_v18_apply, val_main_v20_apply,
    val_main_c_apply, val_main_c_4_apply, v3_at]
  exact wrap_sel _
theorem v23_eq (a1 : A1) :
    val_main_v23 (F := Ideal) a1 = Cert.Spec.colOf (fun e => Cert.Spec.wrap (Cert.Spec.srcW a1 e)) := by
  funext j
  rw [val_main_v23_apply, show idx_main_v23 j = ix1 (⟨(j 0).val, (j 0).isLt⟩ : Fin 1700000) from
    funext fun a => by match a with | ⟨0, _⟩ => rfl]
  exact v22_at a1 ⟨(j 0).val, (j 0).isLt⟩

theorem v37_at (a1 : A1) (e : Fin 1700000) :
    val_main_v37 (F := Ideal) a1 (ix1 e) = Cert.Spec.wrap (Cert.Spec.srcW a1 e) := by
  rw [val_main_v37_apply, val_main_v34_apply, val_main_v36_apply, val_main_v33_apply, val_main_v35_apply,
    val_main_c_7_apply, val_main_c_8_apply, v3_at]
  exact wrap_sel _
theorem v38_eq (a1 : A1) :
    val_main_v38 (F := Ideal) a1 = Cert.Spec.colOf (fun e => Cert.Spec.wrap (Cert.Spec.srcW a1 e)) := by
  funext j
  rw [val_main_v38_apply, show idx_main_v38 j = ix1 (⟨(j 0).val, (j 0).isLt⟩ : Fin 1700000) from
    funext fun a => by match a with | ⟨0, _⟩ => rfl]
  exact v37_at a1 ⟨(j 0).val, (j 0).isLt⟩

theorem v65_at (a1 : A1) (e : Fin 1700000) :
    val_main_v65 (F := Ideal) a1 (ix1 e) = Cert.Spec.wrap (Cert.Spec.srcW a1 e) := by
  rw [val_main_v65_apply, val_main_v62_apply, val_main_v64_apply, val_main_v61_apply, val_main_v63_apply,
    val_main_c_15_apply, val_main_c_16_apply, v3_at]
  exact wrap_sel _
theorem v66_eq (a1 : A1) :
    val_main_v66 (F := Ideal) a1 = Cert.Spec.colOf (fun e => Cert.Spec.wrap (Cert.Spec.srcW a1 e)) := by
  funext j
  rw [val_main_v66_apply, show idx_main_v66 j = ix1 (⟨(j 0).val, (j 0).isLt⟩ : Fin 1700000) from
    funext fun a => by match a with | ⟨0, _⟩ => rfl]
  exact v65_at a1 ⟨(j 0).val, (j 0).isLt⟩

theorem v80_at (a1 : A1) (e : Fin 1700000) :
    val_main_v80 (F := Ideal) a1 (ix1 e) = Cert.Spec.wrap (Cert.Spec.srcW a1 e) := by
  rw [val_main_v80_apply, val_main_v77_apply, val_main_v79_apply, val_main_v76_apply, val_main_v78_apply,
    val_main_c_19_apply, val_main_c_20_apply, v3_at]
  exact wrap_sel _
theorem v81_eq (a1 : A1) :
    val_main_v81 (F := Ideal) a1 = Cert.Spec.colOf (fun e => Cert.Spec.wrap (Cert.Spec.srcW a1 e)) := by
  funext j
  rw [val_main_v81_apply, show idx_main_v81 j = ix1 (⟨(j 0).val, (j 0).isLt⟩ : Fin 1700000) from
    funext fun a => by match a with | ⟨0, _⟩ => rfl]
  exact v80_at a1 ⟨(j 0).val, (j 0).isLt⟩

theorem v29_at (a1 : A1) (e : Fin 1700000) :
    val_main_v29 (F := Ideal) a1 (ix1 e) = Cert.Spec.wrap (Cert.Spec.dstW a1 e) := by
  rw [val_main_v29_apply, val_main_v26_apply, val_main_v28_apply, val_main_v25_apply, val_main_v27_apply,
    val_main_c_5_apply, val_main_c_6_apply, v6_at]
  exact wrap_sel _
theorem v30_eq (a1 : A1) :
    val_main_v30 (F := Ideal) a1 = Cert.Spec.colOf (fun e => Cert.Spec.wrap (Cert.Spec.dstW a1 e)) := by
  funext j
  rw [val_main_v30_apply, show idx_main_v30 j = ix1 (⟨(j 0).val, (j 0).isLt⟩ : Fin 1700000) from
    funext fun a => by match a with | ⟨0, _⟩ => rfl]
  exact v29_at a1 ⟨(j 0).val, (j 0).isLt⟩

theorem v72_at (a1 : A1) (e : Fin 1700000) :
    val_main_v72 (F := Ideal) a1 (ix1 e) = Cert.Spec.wrap (Cert.Spec.dstW a1 e) := by
  rw [val_main_v72_apply, val_main_v69_apply, val_main_v71_apply, val_main_v68_apply, val_main_v70_apply,
    val_main_c_17_apply, val_main_c_18_apply, v6_at]
  exact wrap_sel _
theorem v73_eq (a1 : A1) :
    val_main_v73 (F := Ideal) a1 = Cert.Spec.colOf (fun e => Cert.Spec.wrap (Cert.Spec.dstW a1 e)) := by
  funext j
  rw [val_main_v73_apply, show idx_main_v73 j = ix1 (⟨(j 0).val, (j 0).isLt⟩ : Fin 1700000) from
    funext fun a => by match a with | ⟨0, _⟩ => rfl]
  exact v72_at a1 ⟨(j 0).val, (j 0).isLt⟩

theorem v10_eq (a1 : A1) : val_main_v10 (F := Ideal) a1 = Cert.Spec.colOf (Cert.Spec.dstW a1) := by
  funext j
  rw [val_main_v10_apply, show idx_main_v10 j = ix1 (⟨(j 0).val, (j 0).isLt⟩ : Fin 1700000) from
    funext fun a => by match a with | ⟨0, _⟩ => rfl]
  exact v6_at a1 ⟨(j 0).val, (j 0).isLt⟩

theorem v44_eq (a1 : A1) : val_main_v44 (F := Ideal) a1 = Cert.Spec.colOf (Cert.Spec.dstW a1) := by
  funext j
  rw [val_main_v44_apply, show idx_main_v44 j = ix1 (⟨(j 0).val, (j 0).isLt⟩ : Fin 1700000) from
    funext fun a => by match a with | ⟨0, _⟩ => rfl]
  exact v6_at a1 ⟨(j 0).val, (j 0).isLt⟩

theorem v53_eq (a1 : A1) : val_main_v53 (F := Ideal) a1 = Cert.Spec.colOf (Cert.Spec.dstW a1) := by
  funext j
  rw [val_main_v53_apply, show idx_main_v53 j = ix1 (⟨(j 0).val, (j 0).isLt⟩ : Fin 1700000) from
    funext fun a => by match a with | ⟨0, _⟩ => rfl]
  exact v6_at a1 ⟨(j 0).val, (j 0).isLt⟩

theorem v87_eq (a1 : A1) : val_main_v87 (F := Ideal) a1 = Cert.Spec.colOf (Cert.Spec.dstW a1) := by
  funext j
  rw [val_main_v87_apply, show idx_main_v87 j = ix1 (⟨(j 0).val, (j 0).isLt⟩ : Fin 1700000) from
    funext fun a => by match a with | ⟨0, _⟩ => rfl]
  exact v6_at a1 ⟨(j 0).val, (j 0).isLt⟩

theorem v94_eq (a2 : (⟨S100000, .i32⟩ : BufTy).Contents (Elt Ideal)) :
    val_main_v94 (F := Ideal) a2 = Cert.Spec.colOf (Cert.Spec.batW a2) := by
  funext j
  rw [val_main_v94_apply, show idx_main_v94 j = ix1 (⟨(j 0).val, (j 0).isLt⟩ : Fin 100000) from
    funext fun a => by match a with | ⟨0, _⟩ => rfl]
  rfl

/-! ## The gathers and scatter-adds of this program, read at an index -/

theorem gath1 (x : (⟨1, ![100000]⟩ : Shape).Idx → EReal) (idx : IVec ⟨2, ![1700000, 1]⟩ 32) (e : Fin 1700000) :
    Host.gather gather_S100000_S1700000x1_S1700000_n_0_n_n_0_1_1 x idx (ix1 e)
      = x (ix1 (clampRow 100000 (by decide) idx e)) :=
  gather_row1 _ rfl rfl rfl rfl x idx e (by decide)

theorem gath2 (x : (⟨2, ![100000, 128]⟩ : Shape).Idx → EReal) (idx : IVec ⟨2, ![1700000, 1]⟩ 32) (e : Fin 1700000)
    (h : Fin 128) :
    Host.gather gather_S100000x128_S1700000x1_S1700000x128_1_0_n_n_0_1_1128 x idx (ix2 e h)
      = x (ix2 (clampRow 100000 (by decide) idx e) h) :=
  gather_rows _ rfl rfl rfl rfl rfl rfl x idx e h (by decide)

theorem scat1 (x : (⟨1, ![100000]⟩ : Shape).Idx → EReal) (idx : IVec ⟨2, ![1700000, 1]⟩ 32)
    (upd : (⟨1, ![1700000]⟩ : Shape).Idx → EReal) (n : Fin 100000) :
    Host.scatterAdd (F := Ideal) (φ := .f32) scatter_S100000_S1700000x1_S1700000_n_0_0_1 x idx upd (ix1 n)
      = x (ix1 n) + ∑ e ∈ Finset.univ.filter (fun e : Fin 1700000 => lands idx e n.val), upd (ix1 e) :=
  scatterAdd_row1 _ rfl rfl rfl rfl x idx upd n

theorem scat2 (x : (⟨2, ![100000, 128]⟩ : Shape).Idx → EReal) (idx : IVec ⟨2, ![1700000, 1]⟩ 32)
    (upd : (⟨2, ![1700000, 128]⟩ : Shape).Idx → EReal) (n : Fin 100000) (h : Fin 128) :
    Host.scatterAdd (F := Ideal) (φ := .f32) scatter_S100000x128_S1700000x1_S1700000x128_1_0_0_1 x idx upd (ix2 n h)
      = x (ix2 n h) + ∑ e ∈ Finset.univ.filter (fun e : Fin 1700000 => lands idx e n.val), upd (ix2 e h) :=
  scatterAdd_rows _ rfl rfl rfl rfl x idx upd n h

theorem scatB (x : (⟨2, ![512, 128]⟩ : Shape).Idx → EReal) (idx : IVec ⟨2, ![100000, 1]⟩ 32)
    (upd : (⟨2, ![100000, 128]⟩ : Shape).Idx → EReal) (g : Fin 512) (h : Fin 128) :
    Host.scatterAdd (F := Ideal) (φ := .f32) scatter_S512x128_S100000x1_S100000x128_1_0_0_1 x idx upd (ix2 g h)
      = x (ix2 g h) + ∑ n ∈ Finset.univ.filter (fun n : Fin 100000 => lands idx n g.val), upd (ix2 n h) :=
  scatterAdd_rows _ rfl rfl rfl rfl x idx upd g h

abbrev A2 := (⟨S100000, .i32⟩ : BufTy).Contents (Elt Ideal)

/-! ## The in-degree and its guarded inverse square root -/

theorem deg_at (a1 : A1) (a2 : A2) (n : Fin 100000) :
    val_main_v11 (F := Ideal) a1 (ix1 n) = Cert.Spec.deg (Cert.Spec.colsOf a1 a2) n := by
  unfold val_main_v11
  rw [scat1, v10_eq]
  rfl

theorem dinv_sel (d : EReal) :
    Scalar.select (FloatOps.cmpf (F := Ideal) (φ := .f32) .ogt d Cert.Spec.zero)
        (FloatOps.hostUnary (F := Ideal) (φ := .f32) .rsqrt (FloatOps.maximumf (F := Ideal) (φ := .f32) d Cert.Spec.eps)) Cert.Spec.zero
      = if Cert.Spec.zero < d then Ideal.rsqrt (max d Cert.Spec.eps) else Cert.Spec.zero := by
  show (if BitVec.ofBool (decide (Cert.Spec.zero < d)) = 1 then Ideal.rsqrt (max d Cert.Spec.eps) else Cert.Spec.zero) = _
  by_cases h : Cert.Spec.zero < d
  · rw [if_pos h, decide_eq_true h, if_pos (by decide)]
  · rw [if_neg h, decide_eq_false h, if_neg (by decide)]

theorem dinv_at (a1 : A1) (a2 : A2) (n : Fin 100000) :
    val_main_v17 (F := Ideal) a1 (ix1 n) = Cert.Spec.dinv (Cert.Spec.colsOf a1 a2) n := by
  rw [val_main_v17_apply, val_main_v13_apply, val_main_v16_apply, val_main_v15_apply, val_main_v12_apply,
    val_main_v14_apply, val_main_call0_v1_apply, val_main_call0_v0_apply, val_main_cst_1_apply, val_main_cst_2_apply,
    val_main_cst_3_apply, deg_at a1 a2]
  exact dinv_sel _

/-! ## The matrix products -/

theorem v7_at (a0 : (⟨S100000x128, .f32⟩ : BufTy).Contents (Elt Ideal)) (a3 : (⟨S128x128, .f32⟩ : BufTy).Contents (Elt Ideal)) (n : Fin 100000) (h : Fin 128) :
    val_main_v7 (F := Ideal) a0 a3 (ix2 n h) = Cert.Spec.lin (Cert.Spec.mat a0) (Cert.Spec.mat a3) n h := by
  rw [val_main_v7_apply]
  unfold Cert.Spec.lin Cert.Spec.mat
  refine Finset.sum_congr rfl fun k _ => ?_
  rw [show lidx_main_v7 (ix2 n h) k = ix2 n k from funext fun a => by match a with | ⟨0, _⟩ => rfl | ⟨1, _⟩ => rfl,
    show ridx_main_v7 (ix2 n h) k = ix2 k h from funext fun a => by match a with | ⟨0, _⟩ => rfl | ⟨1, _⟩ => rfl]

/-! ## The first round -/

theorem v24_at (a1 : A1) (a2 : A2) (e : Fin 1700000) :
    val_main_v24 (F := Ideal) a1 (ix1 e) = Cert.Spec.dinv (Cert.Spec.colsOf a1 a2) (Cert.Spec.srcRow (Cert.Spec.colsOf a1 a2) e) := by
  unfold val_main_v24
  rw [gath1, v23_eq]
  exact dinv_at a1 a2 _

theorem v31_at (a1 : A1) (a2 : A2) (e : Fin 1700000) :
    val_main_v31 (F := Ideal) a1 (ix1 e) = Cert.Spec.dinv (Cert.Spec.colsOf a1 a2) (Cert.Spec.dstRow (Cert.Spec.colsOf a1 a2) e) := by
  unfold val_main_v31
  rw [gath1, v30_eq]
  exact dinv_at a1 a2 _

theorem v41_at (a1 : A1) (a2 : A2) (e : Fin 1700000) (h : Fin 128) :
    val_main_v41 (F := Ideal) a1 (ix2 e h)
      = Cert.Spec.dinv (Cert.Spec.colsOf a1 a2) (Cert.Spec.srcRow (Cert.Spec.colsOf a1 a2) e)
        * Cert.Spec.dinv (Cert.Spec.colsOf a1 a2) (Cert.Spec.dstRow (Cert.Spec.colsOf a1 a2) e) := by
  rw [val_main_v41_apply, val_main_v40_apply,
    show idx_main_v40 (idx_main_v41 (ix2 e h)) = ix1 e from funext fun a => by match a with | ⟨0, _⟩ => rfl,
    val_main_v32_apply, v24_at a1 a2, v31_at a1 a2]
  rfl

theorem v39_at (a0 : (⟨S100000x128, .f32⟩ : BufTy).Contents (Elt Ideal)) (a1 : A1) (a3 : (⟨S128x128, .f32⟩ : BufTy).Contents (Elt Ideal)) (a2 : A2) (e : Fin 1700000) (h : Fin 128) :
    val_main_v39 (F := Ideal) a0 a1 a3 (ix2 e h)
      = Cert.Spec.lin (Cert.Spec.mat a0) (Cert.Spec.mat a3) (Cert.Spec.srcRow (Cert.Spec.colsOf a1 a2) e) h := by
  unfold val_main_v39
  rw [gath2, v38_eq]
  exact v7_at a0 a3 _ _

theorem v45_at (a0 : (⟨S100000x128, .f32⟩ : BufTy).Contents (Elt Ideal)) (a1 : A1) (a3 : (⟨S128x128, .f32⟩ : BufTy).Contents (Elt Ideal)) (a2 : A2) (n : Fin 100000) (h : Fin 128) :
    val_main_v45 (F := Ideal) a0 a1 a3 (ix2 n h)
      = Cert.Spec.rAgg (Cert.Spec.colsOf a1 a2) (Cert.Spec.mat a0) (Cert.Spec.mat a3) n h := by
  unfold val_main_v45
  rw [scat2, v44_eq, val_main_v43_apply, val_main_cst_9_apply]
  unfold Cert.Spec.rAgg Cert.Spec.inE
  rw [show (Cert.Spec.colsOf a1 a2).d = Cert.Spec.colOf (Cert.Spec.dstW a1) from rfl]
  show Cert.Spec.zero + _ = Cert.Spec.zero + _
  refine congrArg (Cert.Spec.zero + ·) (Finset.sum_congr rfl fun e _ => ?_)
  rw [val_main_v42_apply, v39_at a0 a1 a3 a2, v41_at a1 a2]
  rfl

theorem v49_at (a0 : (⟨S100000x128, .f32⟩ : BufTy).Contents (Elt Ideal)) (a1 : A1) (a3 : (⟨S128x128, .f32⟩ : BufTy).Contents (Elt Ideal)) (a4 : (⟨S128, .f32⟩ : BufTy).Contents (Elt Ideal)) (a2 : A2) (n : Fin 100000) (h : Fin 128) :
    val_main_v49 (F := Ideal) a0 a1 a3 a4 (ix2 n h) = Cert.Spec.rX2 (Cert.Spec.colsOf a1 a2) (Cert.Spec.mat a0) (Cert.Spec.mat a3) (Cert.Spec.vec a4) n h := by
  rw [val_main_v49_apply, val_main_v48_apply, v45_at a0 a1 a3 a2, val_main_v47_apply, val_main_v46_apply,
    show idx_main_v46 (idx_main_v47 (ix2 n h)) = ix1 h from funext fun a => by match a with | ⟨0, _⟩ => rfl,
    val_main_call1_v0_apply, val_main_call1_cst_apply]
  rfl

/-! ## The second round's in-degree and factor (the same terms again) -/

theorem deg2_at (a1 : A1) (a2 : A2) (n : Fin 100000) :
    val_main_v54 (F := Ideal) a1 (ix1 n) = Cert.Spec.deg (Cert.Spec.colsOf a1 a2) n := by
  unfold val_main_v54
  rw [scat1, v53_eq]
  rfl

theorem dinv2_at (a1 : A1) (a2 : A2) (n : Fin 100000) :
    val_main_v60 (F := Ideal) a1 (ix1 n) = Cert.Spec.dinv (Cert.Spec.colsOf a1 a2) n := by
  rw [val_main_v60_apply, val_main_v56_apply, val_main_v59_apply, val_main_v58_apply, val_main_v55_apply,
    val_main_v57_apply, val_main_call2_v1_apply, val_main_call2_v0_apply, val_main_cst_12_apply, val_main_cst_13_apply,
    val_main_cst_14_apply, deg2_at a1 a2]
  exact dinv_sel _

theorem v50_at (a0 : (⟨S100000x128, .f32⟩ : BufTy).Contents (Elt Ideal)) (a1 : A1) (a3 : (⟨S128x128, .f32⟩ : BufTy).Contents (Elt Ideal)) (a4 : (⟨S128, .f32⟩ : BufTy).Contents (Elt Ideal)) (a5 : (⟨S128x128, .f32⟩ : BufTy).Contents (Elt Ideal)) (a2 : A2) (n : Fin 100000) (h : Fin 128) :
    val_main_v50 (F := Ideal) a0 a1 a3 a4 a5 (ix2 n h) = Cert.Spec.lin (Cert.Spec.rX2 (Cert.Spec.colsOf a1 a2) (Cert.Spec.mat a0) (Cert.Spec.mat a3) (Cert.Spec.vec a4)) (Cert.Spec.mat a5) n h := by
  rw [val_main_v50_apply]
  unfold Cert.Spec.lin
  refine Finset.sum_congr rfl fun k _ => ?_
  rw [show lidx_main_v50 (ix2 n h) k = ix2 n k from funext fun a => by match a with | ⟨0, _⟩ => rfl | ⟨1, _⟩ => rfl,
    show ridx_main_v50 (ix2 n h) k = ix2 k h from funext fun a => by match a with | ⟨0, _⟩ => rfl | ⟨1, _⟩ => rfl,
    v49_at a0 a1 a3 a4 a2]
  rfl

/-! ## The second round -/

theorem v67_at (a1 : A1) (a2 : A2) (e : Fin 1700000) :
    val_main_v67 (F := Ideal) a1 (ix1 e) = Cert.Spec.dinv (Cert.Spec.colsOf a1 a2) (Cert.Spec.srcRow (Cert.Spec.colsOf a1 a2) e) := by
  unfold val_main_v67
  rw [gath1, v66_eq]
  exact dinv2_at a1 a2 _

theorem v74_at (a1 : A1) (a2 : A2) (e : Fin 1700000) :
    val_main_v74 (F := Ideal) a1 (ix1 e) = Cert.Spec.dinv (Cert.Spec.colsOf a1 a2) (Cert.Spec.dstRow (Cert.Spec.colsOf a1 a2) e) := by
  unfold val_main_v74
  rw [gath1, v73_eq]
  exact dinv2_at a1 a2 _

theorem v84_at (a1 : A1) (a2 : A2) (e : Fin 1700000) (h : Fin 128) :
    val_main_v84 (F := Ideal) a1 (ix2 e h)
      = Cert.Spec.dinv (Cert.Spec.colsOf a1 a2) (Cert.Spec.srcRow (Cert.Spec.colsOf a1 a2) e)
        * Cert.Spec.dinv (Cert.Spec.colsOf a1 a2) (Cert.Spec.dstRow (Cert.Spec.colsOf a1 a2) e) := by
  rw [val_main_v84_apply, val_main_v83_apply,
    show idx_main_v83 (idx_main_v84 (ix2 e h)) = ix1 e from funext fun a => by match a with | ⟨0, _⟩ => rfl,
    val_main_v75_apply, v67_at a1 a2, v74_at a1 a2]
  rfl

theorem v82_at (a0 : (⟨S100000x128, .f32⟩ : BufTy).Contents (Elt Ideal)) (a1 : A1) (a3 : (⟨S128x128, .f32⟩ : BufTy).Contents (Elt Ideal)) (a4 : (⟨S128, .f32⟩ : BufTy).Contents (Elt Ideal)) (a5 : (⟨S128x128, .f32⟩ : BufTy).Contents (Elt Ideal)) (a2 : A2) (e : Fin 1700000) (h : Fin 128) :
    val_main_v82 (F := Ideal) a0 a1 a3 a4 a5 (ix2 e h)
      = Cert.Spec.lin (Cert.Spec.rX2 (Cert.Spec.colsOf a1 a2) (Cert.Spec.mat a0) (Cert.Spec.mat a3) (Cert.Spec.vec a4)) (Cert.Spec.mat a5) (Cert.Spec.srcRow (Cert.Spec.colsOf a1 a2) e) h := by
  unfold val_main_v82
  rw [gath2, v81_eq]
  exact v50_at a0 a1 a3 a4 a5 a2 _ _

theorem v88_at (a0 : (⟨S100000x128, .f32⟩ : BufTy).Contents (Elt Ideal)) (a1 : A1) (a3 : (⟨S128x128, .f32⟩ : BufTy).Contents (Elt Ideal)) (a4 : (⟨S128, .f32⟩ : BufTy).Contents (Elt Ideal)) (a5 : (⟨S128x128, .f32⟩ : BufTy).Contents (Elt Ideal)) (a2 : A2) (n : Fin 100000) (h : Fin 128) :
    val_main_v88 (F := Ideal) a0 a1 a3 a4 a5 (ix2 n h)
      = Cert.Spec.rAgg (Cert.Spec.colsOf a1 a2) (Cert.Spec.rX2 (Cert.Spec.colsOf a1 a2) (Cert.Spec.mat a0) (Cert.Spec.mat a3) (Cert.Spec.vec a4)) (Cert.Spec.mat a5) n h := by
  unfold val_main_v88
  rw [scat2, v87_eq, val_main_v86_apply, val_main_cst_21_apply]
  unfold Cert.Spec.rAgg Cert.Spec.inE
  rw [show (Cert.Spec.colsOf a1 a2).d = Cert.Spec.colOf (Cert.Spec.dstW a1) from rfl]
  show Cert.Spec.zero + _ = Cert.Spec.zero + _
  refine congrArg (Cert.Spec.zero + ·) (Finset.sum_congr rfl fun e _ => ?_)
  rw [val_main_v85_apply, v82_at a0 a1 a3 a4 a5 a2, v84_at a1 a2]
  rfl

theorem v92_at (a0 : (⟨S100000x128, .f32⟩ : BufTy).Contents (Elt Ideal)) (a1 : A1) (a3 : (⟨S128x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal)) (a2 : A2) (n : Fin 100000) (h : Fin 128) :
    val_main_v92 (F := Ideal) a0 a1 a3 a4 a5 a6 (ix2 n h) = Cert.Spec.rX3 (Cert.Spec.colsOf a1 a2) (Cert.Spec.mat a0) (Cert.Spec.mat a3) (Cert.Spec.vec a4) (Cert.Spec.mat a5) (Cert.Spec.vec a6) n h := by
  rw [val_main_v92_apply, val_main_v91_apply, v88_at a0 a1 a3 a4 a5 a2, val_main_v90_apply, val_main_v89_apply,
    show idx_main_v89 (idx_main_v90 (ix2 n h)) = ix1 h from funext fun a => by match a with | ⟨0, _⟩ => rfl,
    val_main_call3_v0_apply, val_main_call3_cst_apply]
  rfl

/-! ## The sum over each graph's nodes and the projection -/

theorem v95_at (a0 : (⟨S100000x128, .f32⟩ : BufTy).Contents (Elt Ideal)) (a1 : A1) (a2 : A2) (a3 : (⟨S128x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal)) (g : Fin 512) (h : Fin 128) :
    val_main_v95 (F := Ideal) a0 a1 a2 a3 a4 a5 a6 (ix2 g h) = Cert.Spec.rPooled (Cert.Spec.colsOf a1 a2) (Cert.Spec.mat a0) (Cert.Spec.mat a3) (Cert.Spec.vec a4) (Cert.Spec.mat a5) (Cert.Spec.vec a6) g h := by
  unfold val_main_v95
  rw [scatB, v94_eq, val_main_v93_apply, val_main_cst_22_apply]
  unfold Cert.Spec.rPooled Cert.Spec.inG
  rw [show (Cert.Spec.colsOf a1 a2).b = Cert.Spec.colOf (Cert.Spec.batW a2) from rfl]
  show Cert.Spec.zero + _ = Cert.Spec.zero + _
  refine congrArg (Cert.Spec.zero + ·) (Finset.sum_congr rfl fun n _ => ?_)
  exact v92_at a0 a1 a3 a4 a5 a6 a2 n h

theorem v96_at (a0 : (⟨S100000x128, .f32⟩ : BufTy).Contents (Elt Ideal)) (a1 : A1) (a2 : A2) (a3 : (⟨S128x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal)) (a7 : (⟨S128x64, .f32⟩ : BufTy).Contents (Elt Ideal)) (g : Fin 512) (o : Fin 64) :
    val_main_v96 (F := Ideal) a0 a1 a2 a3 a4 a5 a6 a7 (ix2 g o)
      = ∑ h : Fin 128, Cert.Spec.rPooled (Cert.Spec.colsOf a1 a2) (Cert.Spec.mat a0) (Cert.Spec.mat a3) (Cert.Spec.vec a4) (Cert.Spec.mat a5) (Cert.Spec.vec a6) g h * Cert.Spec.mat a7 h o := by
  rw [val_main_v96_apply]
  refine Finset.sum_congr rfl fun k _ => ?_
  rw [show lidx_main_v96 (ix2 g o) k = ix2 g k from funext fun a => by match a with | ⟨0, _⟩ => rfl | ⟨1, _⟩ => rfl,
    show ridx_main_v96 (ix2 g o) k = ix2 k o from funext fun a => by match a with | ⟨0, _⟩ => rfl | ⟨1, _⟩ => rfl,
    v95_at]
  rfl

/-- The reference's result at (g, o) is `Spec.rOut` of the arguments. -/
theorem value (a0 : (⟨S100000x128, .f32⟩ : BufTy).Contents (Elt Ideal)) (a1 : (⟨S2x1600000, .i32⟩ : BufTy).Contents (Elt Ideal))
    (a2 : (⟨S100000, .i32⟩ : BufTy).Contents (Elt Ideal)) (a3 : (⟨S128x128, .f32⟩ : BufTy).Contents (Elt Ideal))
    (a4 : (⟨S128, .f32⟩ : BufTy).Contents (Elt Ideal)) (a5 : (⟨S128x128, .f32⟩ : BufTy).Contents (Elt Ideal))
    (a6 : (⟨S128, .f32⟩ : BufTy).Contents (Elt Ideal)) (a7 : (⟨S128x64, .f32⟩ : BufTy).Contents (Elt Ideal))
    (a8 : (⟨S64, .f32⟩ : BufTy).Contents (Elt Ideal)) (g : Fin 512) (o : Fin 64) :
    val_main_v99 (F := Ideal) a0 a1 a2 a3 a4 a5 a6 a7 a8 (ix2 g o)
      = Cert.Spec.rOut (Cert.Spec.colsOf a1 a2) (Cert.Spec.mat a0) (Cert.Spec.mat a3) (Cert.Spec.vec a4) (Cert.Spec.mat a5) (Cert.Spec.vec a6)
          (Cert.Spec.mat a7) (Cert.Spec.vec a8) g o := by
  rw [val_main_v99_apply, v96_at, val_main_v98_apply, val_main_v97_apply,
    show idx_main_v97 (idx_main_v98 (ix2 g o)) = ix1 o from funext fun a => by match a with | ⟨0, _⟩ => rfl]
  rfl

end Cert.ReferenceIdeal.RefValue

end
-- ==== Proof.lean ====
/-
  THE CERTIFICATE'S CLAIMS. The kernel program runs three pallas calls between host stretches: it scales the rows of
  x W₁ by D^(-1/2) before they are gathered along the edges and scales the scattered sums by D^(-1/2) after, twice, and
  pools each graph's rows by a 0/1 matrix product in two halves; the reference scales every edge's message by the
  product of its two end factors and pools by a scatter-add. Both programs run to the end, fault nowhere and leave their
  arguments as launched (the frames); over the extended reals their results are equal element by element, because a
  nonnegative factor that is not +∞ distributes over every sum of extended reals (`Spec.kOut_eq_rOut`): no finiteness
  of the inputs is used. The idealization rewrote no operation, so there is nothing to preserve.
-/
import proofs.«420629_j61529701482954_2_alg».proof.Defs
import proofs.«420629_j61529701482954_2_alg».proof.Proof.Gen.Kernel
import proofs.«420629_j61529701482954_2_alg».proof.Proof.Gen.KernelIdeal
import proofs.«420629_j61529701482954_2_alg».proof.Proof.Gen.ReferenceIdeal
import proofs.«420629_j61529701482954_2_alg».proof.Proof.Gen.Pre_finite_inputs
import proofs.«420629_j61529701482954_2_alg».proof.Proof.K.Run
import proofs.«420629_j61529701482954_2_alg».proof.Proof.KI.Run
import proofs.«420629_j61529701482954_2_alg».proof.Proof.KI.Value
import proofs.«420629_j61529701482954_2_alg».proof.Proof.RefValue
import proofs.«420629_j61529701482954_2_alg».proof.Proof.Spec
import Idealize.ShloMosaic.Adequacy
import Idealize.ShloMosaic.Init

noncomputable section

namespace Cert.Proof

open Idealize.ShloMosaic Idealize.ShloMosaic.TcCoe Idealize.ShloMosaic.ValueIdx Idealize.SL.Sem

section
variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The two programs' results from memories that agree on the arguments: each is its `Spec` form of the arguments,
    and the two forms agree. -/
theorem algebraic : Cert.algebraic_KernelIdeal_ReferenceIdeal := by
  intro m ρ m' ρ' _ hagree
  obtain ⟨outs, hok⟩ := Cert.KernelIdeal.Hand.exists_outs (F := Ideal) m
  refine ⟨fun c => Cert.KernelIdeal.Gen.V9 m outs c Cert.KernelIdeal.main_v52, Cert.KernelIdeal.Hand.run_main m ρ outs hok, ?_⟩
  refine (θ_run Cert.ReferenceIdeal.defs _ _).mono (fun _ h c => ⟨(h c).1.trans ?_, (h c).2⟩)
    (Cert.ReferenceIdeal.ValueP.run (F := Ideal) m' ρ')
  funext j
  obtain ⟨g, o, rfl⟩ : ∃ (g : Fin 512) (o : Fin 64), j = ix2 g o := ⟨j 0, j 1, eq_ix2 j⟩
  rw [Cert.ReferenceIdeal.ReadP.val_main_v99_eq, Cert.ReferenceIdeal.RefValue.value]
  refine Eq.trans ?_ (Cert.KernelIdeal.HandValue.value m outs c hok g o).symm
  rw [Cert.Spec.kOut_eq_rOut]
  obtain ⟨h0, h1, h2, h3, h4, h5, h6, h7, h8⟩ := hagree c
  unfold Cert.KernelIdeal.HandValue.gC
  simp only [Cert.KernelIdeal.HandValue.a0, Cert.KernelIdeal.HandValue.a1, Cert.KernelIdeal.HandValue.a2, Cert.KernelIdeal.HandValue.a3,
    Cert.KernelIdeal.HandValue.a4, Cert.KernelIdeal.HandValue.a5, Cert.KernelIdeal.HandValue.a6, Cert.KernelIdeal.HandValue.a7,
    Cert.KernelIdeal.HandValue.a8]
  rw [h0, h1, h2, h3, h4, h5, h6, h7, h8]

end

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
